-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v23_0)) (v2 : (c : Dev Cert.KernelIdeal.nD) → Buf (Elt Ideal) ((c.tc : Thread Cert.KernelIdeal.nD Cert.KernelIdeal.τ).loc Cert.KernelIdeal.main_v23_1)) (v3 : (c : Dev Cert.KernelIdeal.nD) → Buf (Elt Ideal) ((c.tc : Thread Cert.KernelIdeal.nD Cert.KernelIdeal.τ).loc Cert.KernelIdeal.main_v32)) (v4 : (c : Dev Cert.KernelIdeal.nD) → Buf (Elt Ideal) ((c.tc : Thread Cert.KernelIdeal.nD Cert.KernelIdeal.τ).loc Cert.KernelIdeal.main_v18)) (v5 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v23_0) = v1 c
          ∧ r.2.mem ((c.tc : Thread Cert.KernelIdeal.nD Cert.KernelIdeal.τ).loc Cert.KernelIdeal.main_v23_1) = v2 c
          ∧ r.2.mem ((c.tc : Thread Cert.KernelIdeal.nD Cert.KernelIdeal.τ).loc Cert.KernelIdeal.main_v32) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_v20) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_v41) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x256 : Shape := ⟨4, ![8, 256, 128, 256]⟩
abbrev S8x128x256 : Shape := ⟨3, ![8, 128, 256]⟩
abbrev S8x1x128x256 : Shape := ⟨4, ![8, 1, 128, 256]⟩
abbrev S_ : Shape := ⟨0, ![]⟩

class Facts : Prop where
  bcast_S_S8x256x128x256 : S_.BroadcastsInDim S8x256x128x256 (![] : Fin 0 → Fin S8x256x128x256.rank)
  reducesTo_S8x256x128x256_S_d0_1_2_3 : S8x256x128x256.ReducesTo [0, 1, 2, 3] S_
  h_S_ : 0 < S_.numel
  bcast_S_S8x1x128x256 : S_.BroadcastsInDim S8x1x128x256 (![] : Fin 0 → Fin S8x1x128x256.rank)
  reducesTo_S8x1x128x256_S_d0_1_2_3 : S8x1x128x256.ReducesTo [0, 1, 2, 3] S_
  bcast_S_S8x128x256 : S_.BroadcastsInDim S8x128x256 (![] : Fin 0 → Fin S8x128x256.rank)
  reducesTo_S8x128x256_S_d0_1_2 : S8x128x256.ReducesTo [0, 1, 2] S_

variable [Facts]

def fn_part1 {F : FTy → Type} [FloatOps F] (main_arg2 : IVec S8x128x256 32) (main_v13 : IVec S_ 1) (main_v15 : IVec S8x128x256 1) (main_c_5 : IVec S_ 32) : IVec S_ 1 :=
  let main_v16 : IVec S8x128x256 32 := broadcastInDim S8x128x256 ![] bcast_S_S8x128x256 main_c_5
  let main_v17 : IVec S8x128x256 1 := cmpi .sge main_arg2 main_v16
  let main_c_6 : IVec S_ 32 := constantI S_ 32 19#32
  let main_v18 : IVec S8x128x256 32 := broadcastInDim S8x128x256 ![] bcast_S_S8x128x256 main_c_6
  let main_v19 : IVec S8x128x256 1 := cmpi .slt main_arg2 main_v18
  let main_v20 : IVec S8x128x256 1 := andi main_v17 main_v19
  let main_v21 : IVec S8x128x256 1 := ori main_v15 main_v20
  let main_c_7 : IVec S_ 1 := constantI S_ 1 1#1
  let main_v22 : IVec S_ 1 := (fun x v => Host.reduce IntOp.andi x v reducesTo_S8x128x256_S_d0_1_2 h_S_) main_v21 main_c_7
  let main_v23 : IVec S_ 1 := andi main_v13 main_v22
  main_v23

def fn {F : FTy → Type} [FloatOps F] (main_arg0 : FVec F S8x256x128x256 .f32) (main_arg1 : FVec F S8x256x128x256 .f32) (main_arg2 : IVec S8x128x256 32) (main_arg3 : FVec F S8x1x128x256 .f32) : IVec S_ 1 :=
  let main_v0 : FVec F S8x256x128x256 .f32 := Host.absf main_arg0
  let main_cst : FVec F S_ .f32 := constant S_ .f32 0x7F800000#32
  let main_v1 : FVec F S8x256x128x256 .f32 := broadcastInDim S8x256x128x256 ![] bcast_S_S8x256x128x256 main_cst
  let main_v2 : IVec S8x256x128x256 1 := cmpf .olt main_v0 main_v1
  let main_c : IVec S_ 1 := constantI S_ 1 1#1
  let main_v3 : IVec S_ 1 := (fun x v => Host.reduce IntOp.andi x v reducesTo_S8x256x128x256_S_d0_1_2_3 h_S_) main_v2 main_c
  let main_v4 : FVec F S8x256x128x256 .f32 := Host.absf main_arg1
  let main_cst_0 : FVec F S_ .f32 := constant S_ .f32 0x7F800000#32
  let main_v5 : FVec F S8x256x128x256 .f32 := broadcastInDim S8x256x128x256 ![] bcast_S_S8x256x128x256 main_cst_0
  let main_v6 : IVec S8x256x128x256 1 := cmpf .olt main_v4 main_v5
  let main_c_1 : IVec S_ 1 := constantI S_ 1 1#1
  let main_v7 : IVec S_ 1 := (fun x v => Host.reduce IntOp.andi x v reducesTo_S8x256x128x256_S_d0_1_2_3 h_S_) main_v6 main_c_1
  let main_v8 : IVec S_ 1 := andi main_v3 main_v7
  let main_v9 : FVec F S8x1x128x256 .f32 := Host.absf main_arg3
  let main_cst_2 : FVec F S_ .f32 := constant S_ .f32 0x7F800000#32
  let main_v10 : FVec F S8x1x128x256 .f32 := broadcastInDim S8x1x128x256 ![] bcast_S_S8x1x128x256 main_cst_2
  let main_v11 : IVec S8x1x128x256 1 := cmpf .olt main_v9 main_v10
  let main_c_3 : IVec S_ 1 := constantI S_ 1 1#1
  let main_v12 : IVec S_ 1 := (fun x v => Host.reduce IntOp.andi x v reducesTo_S8x1x128x256_S_d0_1_2_3 h_S_) main_v11 main_c_3
  let main_v13 : IVec S_ 1 := andi main_v8 main_v12
  let main_c_4 : IVec S_ 32 := constantI S_ 32 255#32
  let main_v14 : IVec S8x128x256 32 := broadcastInDim S8x128x256 ![] bcast_S_S8x128x256 main_c_4
  let main_v15 : IVec S8x128x256 1 := cmpi .eq main_arg2 main_v14
  let main_c_5 : IVec S_ 32 := constantI S_ 32 0#32
  fn_part1 (F := F) main_arg2 main_v13 main_v15 main_c_5
-- ==== Kernel.lean ====
abbrev S8x256x128x256 : Shape := ⟨4, ![8, 256, 128, 256]⟩
abbrev S8x128x256 : Shape := ⟨3, ![8, 128, 256]⟩
abbrev S8x1x128x256 : Shape := ⟨4, ![8, 1, 128, 256]⟩
abbrev S8x19x256 : Shape := ⟨3, ![8, 19, 256]⟩
abbrev S8x1x19 : Shape := ⟨3, ![8, 1, 19]⟩
abbrev S1x256x16x256 : Shape := ⟨4, ![1, 256, 16, 256]⟩
abbrev S1x16x256 : Shape := ⟨3, ![1, 16, 256]⟩
abbrev S1x19x256 : Shape := ⟨3, ![1, 19, 256]⟩
abbrev S1x1x19 : Shape := ⟨3, ![1, 1, 19]⟩
abbrev S19x256 : Shape := ⟨2, ![19, 256]⟩
abbrev S1x19 : Shape := ⟨2, ![1, 19]⟩
abbrev S256x16x256 : Shape := ⟨3, ![256, 16, 256]⟩
abbrev S16x256 : Shape := ⟨2, ![16, 256]⟩
abbrev S16x256x256 : Shape := ⟨3, ![16, 256, 256]⟩
abbrev S4096x256 : Shape := ⟨2, ![4096, 256]⟩
abbrev S16x256x19 : Shape := ⟨3, ![16, 256, 19]⟩
abbrev S16x256x1 : Shape := ⟨3, ![16, 256, 1]⟩
abbrev S4096x19 : Shape := ⟨2, ![4096, 19]⟩
abbrev S19 : Shape := ⟨1, ![19]⟩
abbrev S_ : Shape := ⟨0, ![]⟩
abbrev S19x1 : Shape := ⟨2, ![19, 1]⟩
abbrev S1x1x16x256 : Shape := ⟨4, ![1, 1, 16, 256]⟩
abbrev S4096 : Shape := ⟨1, ![4096]⟩
abbrev S4096x1 : Shape := ⟨2, ![4096, 1]⟩

abbrev nBuf : Space → Nat
  | .hbm => 64
  | .vmem => 24
  | .smem => 0
  | _ => 0

abbrev bufTy : (tb : Table) → Fin (tcTables nBuf tb) → BufTy
  | .hbm, ⟨0, _⟩ => ⟨S8x256x128x256, .f32⟩
  | .hbm, ⟨1, _⟩ => ⟨S8x256x128x256, .f32⟩
  | .hbm, ⟨2, _⟩ => ⟨S8x128x256, .i32⟩
  | .hbm, ⟨3, _⟩ => ⟨S8x1x128x256, .f32⟩
  | .hbm, ⟨4, _⟩ => ⟨S8x19x256, .f32⟩
  | .hbm, ⟨5, _⟩ => ⟨S8x1x19, .f32⟩
  | .hbm, ⟨6, _⟩ => ⟨S_, .f32⟩
  | .hbm, ⟨7, _⟩ => ⟨S19x256, .f32⟩
  | .hbm, ⟨8, _⟩ => ⟨S_, .f32⟩
  | .hbm, ⟨9, _⟩ => ⟨S1x19, .f32⟩
  | .hbm, ⟨10, _⟩ => ⟨S19, .f32⟩
  | .hbm, ⟨11, _⟩ => ⟨S19x1, .f32⟩
  | .hbm, ⟨12, _⟩ => ⟨S_, .f32⟩
  | .hbm, ⟨13, _⟩ => ⟨S19x1, .f32⟩
  | .hbm, ⟨14, _⟩ => ⟨S19x1, .i1⟩
  | .hbm, ⟨15, _⟩ => ⟨S_, .f32⟩
  | .hbm, ⟨16, _⟩ => ⟨S19, .f32⟩
  | .hbm, ⟨17, _⟩ => ⟨S19, .f32⟩
  | .hbm, ⟨18, _⟩ => ⟨S19x1, .f32⟩
  | .hbm, ⟨19, _⟩ => ⟨S19x256, .f32⟩
  | .hbm, ⟨20, _⟩ => ⟨S19x256, .f32⟩
  | .hbm, ⟨21, _⟩ => ⟨S_, .f32⟩
  | .hbm, ⟨22, _⟩ => ⟨S_, .f32⟩
  | .hbm, ⟨23, _⟩ => ⟨S19x256, .i1⟩
  | .hbm, ⟨24, _⟩ => ⟨S19x256, .f32⟩
  | .hbm, ⟨25, _⟩ => ⟨S19x256, .f32⟩
  | .hbm, ⟨26, _⟩ => ⟨S19x256, .f32⟩
  | .hbm, ⟨27, _⟩ => ⟨S_, .f32⟩
  | .hbm, ⟨28, _⟩ => ⟨S19, .f32⟩
  | .hbm, ⟨29, _⟩ => ⟨S19x1, .f32⟩
  | .hbm, ⟨30, _⟩ => ⟨S19x1, .f32⟩
  | .hbm, ⟨31, _⟩ => ⟨S_, .f32⟩
  | .hbm, ⟨32, _⟩ => ⟨S19x1, .f32⟩
  | .hbm, ⟨33, _⟩ => ⟨S19x1, .f32⟩
  | .hbm, ⟨34, _⟩ => ⟨S19x256, .f32⟩
  | .hbm, ⟨35, _⟩ => ⟨S19x256, .f32⟩
  | .hbm, ⟨36, _⟩ => ⟨S19x256, .f32⟩
  | .hbm, ⟨37, _⟩ => ⟨S_, .f32⟩
  | .hbm, ⟨38, _⟩ => ⟨S19, .f32⟩
  | .hbm, ⟨39, _⟩ => ⟨S19, .f32⟩
  | .hbm, ⟨40, _⟩ => ⟨S_, .f32⟩
  | .hbm, ⟨41, _⟩ => ⟨S19, .f32⟩
  | .hbm, ⟨42, _⟩ => ⟨S19, .i1⟩
  | .hbm, ⟨43, _⟩ => ⟨S19, .f32⟩
  | .hbm, ⟨44, _⟩ => ⟨S1x19, .f32⟩
  | .hbm, ⟨45, _⟩ => ⟨S8x128x256, .f32⟩
  | .hbm, ⟨46, _⟩ => ⟨S8x128x256, .f32⟩
  | .hbm, ⟨47, _⟩ => ⟨S8x128x256, .f32⟩
  | .hbm, ⟨48, _⟩ => ⟨S8x128x256, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8x128x256, .f32⟩
  | .hbm, ⟨61, _⟩ => ⟨S_, .f32⟩
  | .hbm, ⟨62, _⟩ => ⟨S_, .f32⟩
  | .hbm, ⟨63, _⟩ => ⟨S_, .f32⟩
  | .local _ .vmem, ⟨0, _⟩ => ⟨S1x256x16x256, .f32⟩
  | .local _ .vmem, ⟨1, _⟩ => ⟨S1x256x16x256, .f32⟩
  | .local _ .vmem, ⟨2, _⟩ => ⟨S1x16x256, .i32⟩
  | .local _ .vmem, ⟨3, _⟩ => ⟨S1x16x256, .i32⟩
  | .local _ .vmem, ⟨4, _⟩ => ⟨S1x19x256, .f32⟩
  | .local _ .vmem, ⟨5, _⟩ => ⟨S1x19x256, .f32⟩
  | .local _ .vmem, ⟨6, _⟩ => ⟨S1x1x19, .f32⟩
  | .local _ .vmem, ⟨7, _⟩ => ⟨S1x1x19, .f32⟩
  | .local _ .vmem, ⟨8, _⟩ => ⟨S1x256x16x256, .f32⟩
  | .local _ .vmem, ⟨9, _⟩ => ⟨S1x256x16x256, .f32⟩
  | .local _ .vmem, ⟨10, _⟩ => ⟨S1x16x256, .i32⟩
  | .local _ .vmem, ⟨11, _⟩ => ⟨S1x16x256, .i32⟩
  | .local _ .vmem, ⟨12, _⟩ => ⟨S1x1x16x256, .f32⟩
  | .local _ .vmem, ⟨13, _⟩ => ⟨S1x1x16x256, .f32⟩
  | .local _ .vmem, ⟨14, _⟩ => ⟨S19x256, .f32⟩
  | .local _ .vmem, ⟨15, _⟩ => ⟨S1x19, .f32⟩
  | .local _ .vmem, ⟨16, _⟩ => ⟨S1x16x256, .f32⟩
  | .local _ .vmem, ⟨17, _⟩ => ⟨S1x16x256, .f32⟩
  | .local _ .vmem, ⟨18, _⟩ => ⟨S1x16x256, .f32⟩
  | .local _ .vmem, ⟨19, _⟩ => ⟨S1x16x256, .f32⟩
  | .local _ .vmem, ⟨20, _⟩ => ⟨S1x16x256, .f32⟩
  | .local _ .vmem, ⟨21, _⟩ => ⟨S1x16x256, .f32⟩
  | .local _ .vmem, ⟨22, _⟩ => ⟨S1x16x256, .f32⟩
  | .local _ .vmem, ⟨23, _⟩ => ⟨S1x16x256, .f32⟩
  | _, _ => ⟨S8x256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v12 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_call1_v2 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call2_v0 : Ref sig .tc := ⟨.hbm, 36, rfl⟩
abbrev main_call2_cst : Ref sig .tc := ⟨.hbm, 37, rfl⟩
abbrev main_call2_v1 : Ref sig .tc := ⟨.hbm, 38, rfl⟩
abbrev main_v18 : Ref sig .tc := ⟨.hbm, 39, rfl⟩
abbrev main_cst_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23_0 : Ref sig .tc := ⟨.hbm, 45, rfl⟩
abbrev main_v23_1 : Ref sig .tc := ⟨.hbm, 46, rfl⟩
abbrev main_v23_2 : Ref sig .tc := ⟨.hbm, 47, rfl⟩
abbrev main_v23_3 : Ref sig .tc := ⟨.hbm, 48, rfl⟩
abbrev main_cst_6 : Ref sig .tc := ⟨.hbm, 49, rfl⟩
abbrev main_v24 : Ref sig .tc := ⟨.hbm, 50, rfl⟩
abbrev main_cst_7 : Ref sig .tc := ⟨.hbm, 51, rfl⟩
abbrev main_v25 : Ref sig .tc := ⟨.hbm, 52, rfl⟩
abbrev main_cst_8 : Ref sig .tc := ⟨.hbm, 53, rfl⟩
abbrev main_v26 : Ref sig .tc := ⟨.hbm, 54, rfl⟩
abbrev main_v27 : Ref sig .tc := ⟨.hbm, 55, rfl⟩
abbrev main_cst_9 : Ref sig .tc := ⟨.hbm, 56, rfl⟩
abbrev main_v28 : Ref sig .tc := ⟨.hbm, 57, rfl⟩
abbrev main_cst_10 : Ref sig .tc := ⟨.hbm, 58, rfl⟩
abbrev main_v29 : Ref sig .tc := ⟨.hbm, 59, rfl⟩
abbrev main_v30 : Ref sig .tc := ⟨.hbm, 60, rfl⟩
abbrev main_cst_11 : Ref sig .tc := ⟨.hbm, 61, rfl⟩
abbrev main_v31 : Ref sig .tc := ⟨.hbm, 62, rfl⟩
abbrev main_v32 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x19x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x19 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x16x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x16x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S19x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x19 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x16x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x16x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x16x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x16x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  inb_S1x19x256_S1x19x256_0_0_0 : ∀ a, (![0, 0, 0] : Fin 3 → Nat) a + S1x19x256.size a ≤ S1x19x256.size a
  h_S1x19x256 : 0 < S1x19x256.numel
  shapeCasts_S1x19x256_S19x256 : S1x19x256.ShapeCasts S19x256
  shapeCasts_S19x256_S1x19x256 : S19x256.ShapeCasts S1x19x256
  inb_S1x1x19_S1x1x19_0_0_0 : ∀ a, (![0, 0, 0] : Fin 3 → Nat) a + S1x1x19.size a ≤ S1x1x19.size a
  h_S1x1x19 : 0 < S1x1x19.numel
  shapeCasts_S1x1x19_S1x19 : S1x1x19.ShapeCasts S1x19
  shapeCasts_S1x19_S1x1x19 : S1x19.ShapeCasts S1x1x19
  inb_S1x256x16x256_S1x256x16x256_0_0_0_0 : ∀ a, (![0, 0, 0, 0] : Fin 4 → Nat) a + S1x256x16x256.size a ≤ S1x256x16x256.size a
  h_S1x256x16x256 : 0 < S1x256x16x256.numel
  shapeCasts_S1x256x16x256_S256x16x256 : S1x256x16x256.ShapeCasts S256x16x256
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  transposes_S256x16x256_p1_2_0_S16x256x256 : S256x16x256.Transposes [1, 2, 0] S16x256x256
  shapeCasts_S16x256x256_S4096x256 : S16x256x256.ShapeCasts S4096x256
  bitsLt_bf16_f32 : FTy.bits .bf16 < FTy.bits .f32
  iota_S16x256x19_d2_w32 : S16x256x19.Iotas .tc 32 [2]
  shapeCasts_S16x256_S16x256x1 : S16x256.ShapeCasts S16x256x1
  broadcasts_S16x256x1_S16x256x19 : S16x256x1.Broadcasts S16x256x19
  natLt_1_32 : 1 < 32
  shapeCasts_S16x256x19_S4096x19 : S16x256x19.ShapeCasts S4096x19
  reduces_S4096x19_S19 : S4096x19.Reduces [0] S19
  shapeCasts_S19_S1x19 : S19.ShapeCasts S1x19
  reducesTo_S8x19x256_S19x256_d0 : S8x19x256.ReducesTo [0] S19x256
  h_S_ : 0 < S_.numel
  reducesTo_S8x1x19_S1x19_d0 : S8x1x19.ReducesTo [0] S1x19
  shapeCasts_S1x19_S19 : S1x19.ShapeCasts S19
  bcast_S19_S19x1_0 : S19.BroadcastsInDim S19x1 (![0] : Fin 1 → Fin S19x1.rank)
  bcast_S_S19x1 : S_.BroadcastsInDim S19x1 (![] : Fin 0 → Fin S19x1.rank)
  bcast_S_S19 : S_.BroadcastsInDim S19 (![] : Fin 0 → Fin S19.rank)
  bcast_S19x1_S19x256_0_1 : S19x1.BroadcastsInDim S19x256 (![0, 1] : Fin 2 → Fin S19x256.rank)
  bcast_S_S19x256 : S_.BroadcastsInDim S19x256 (![] : Fin 0 → Fin S19x256.rank)
  reducesTo_S19x256_S19_d1 : S19x256.ReducesTo [1] S19
  bcast_S19_S1x19_1 : S19.BroadcastsInDim S1x19 (![1] : Fin 1 → Fin S1x19.rank)
  inb_S1x1x16x256_S1x1x16x256_0_0_0_0 : ∀ a, (![0, 0, 0, 0] : Fin 4 → Nat) a + S1x1x16x256.size a ≤ S1x1x16x256.size a
  h_S1x1x16x256 : 0 < S1x1x16x256.numel
  shapeCasts_S1x1x16x256_S16x256 : S1x1x16x256.ShapeCasts S16x256
  reduces_S4096x256_S4096 : S4096x256.Reduces [1] S4096
  shapeCasts_S4096_S4096x1 : S4096.ShapeCasts S4096x1
  broadcasts_S4096x1_S4096x256 : S4096x1.Broadcasts S4096x256
  inb_S19x256_S19x256_0_0 : ∀ a, (![0, 0] : Fin 2 → Nat) a + S19x256.size a ≤ S19x256.size a
  h_S19x256 : 0 < S19x256.numel
  shapeCasts_S19x256_S19x256 : S19x256.ShapeCasts S19x256
  inb_S1x19_S1x19_0_0 : ∀ a, (![0, 0] : Fin 2 → Nat) a + S1x19.size a ≤ S1x19.size a
  h_S1x19 : 0 < S1x19.numel
  shapeCasts_S1x19_S1x19 : S1x19.ShapeCasts S1x19
  broadcasts_S1x19_S4096x19 : S1x19.Broadcasts S4096x19
  reduces_S4096x19_S4096 : S4096x19.Reduces [1] S4096
  shapeCasts_S16x256_S4096 : S16x256.ShapeCasts S4096
  shapeCasts_S4096_S16x256 : S4096.ShapeCasts S16x256
  shapeCasts_S16x256_S1x16x256 : S16x256.ShapeCasts S1x16x256
  reducesTo_S8x128x256_S_d0_1_2 : S8x128x256.ReducesTo [0, 1, 2] S_
  dot_S4096x19_S4096x256_S19x256_0_0_1_1_n_n_wf : DotDims.WF S4096x19 S4096x256 S19x256 [0] [0] [1] [1] [] []
  dot_S4096x19_S19x256_S4096x256_1_0_0_1_n_n_wf : DotDims.WF S4096x19 S19x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x16x256.size a ≤ S8x256x128x256.size a
  hwx0_0 : ∀ i : grid0.Coords, EltTy.bits .f32 = 32 ∨ (Rect.block (s := S8x256x128x256) S1x256x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256.size a ≤ S8x128x256.size a
  hwx0_1 : ∀ i : grid0.Coords, EltTy.bits .i32 = 32 ∨ (Rect.block (s := S8x128x256) S1x16x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x256.size a ≤ S8x19x256.size a
  hwx0_2 : ∀ i : grid0.Coords, EltTy.bits .f32 = 32 ∨ (Rect.block (s := S8x19x256) S1x19x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x19.size a ≤ S8x1x19.size a
  hwx0_3 : ∀ i : grid0.Coords, EltTy.bits .f32 = 32 ∨ (Rect.block (s := S8x1x19) S1x1x19.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x16x256.size a ≤ S8x256x128x256.size a
  hwx1_0 : ∀ i : grid1.Coords, EltTy.bits .f32 = 32 ∨ (Rect.block (s := S8x256x128x256) S1x256x16x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x256.size a ≤ S8x128x256.size a
  hwx1_1 : ∀ i : grid1.Coords, EltTy.bits .i32 = 32 ∨ (Rect.block (s := S8x128x256) S1x16x256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x16x256.size a ≤ S8x1x128x256.size a
  hwx1_2 : ∀ i : grid1.Coords, EltTy.bits .f32 = 32 ∨ (Rect.block (s := S8x1x128x256) S1x1x16x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S19x256.size a ≤ S19x256.size a
  hwx1_3 : ∀ i : grid1.Coords, EltTy.bits .f32 = 32 ∨ (Rect.block (s := S19x256) S19x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x19.size a ≤ S1x19.size a
  hwx1_4 : ∀ i : grid1.Coords, EltTy.bits .f32 = 32 ∨ (Rect.block (s := S1x19) S1x19.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x16x256.size a ≤ S8x128x256.size a
  hwx1_5 : ∀ i : grid1.Coords, EltTy.bits .f32 = 32 ∨ (Rect.block (s := S8x128x256) S1x16x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x16x256.size a ≤ S8x128x256.size a
  hwx1_6 : ∀ i : grid1.Coords, EltTy.bits .f32 = 32 ∨ (Rect.block (s := S8x128x256) S1x16x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x16x256.size a ≤ S8x128x256.size a
  hwx1_7 : ∀ i : grid1.Coords, EltTy.bits .f32 = 32 ∨ (Rect.block (s := S8x128x256) S1x16x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x16x256.size a ≤ S8x128x256.size a
  hwx1_8 : ∀ i : grid1.Coords, EltTy.bits .f32 = 32 ∨ (Rect.block (s := S8x128x256) S1x16x256.size (cc1_transform_8 i) (hinb1_8 i)).WholeWords (EltTy.packing .f32)

variable [Facts₀]

def dot_S4096x19_S4096x256_S19x256_0_0_1_1_n_n : DotDims S4096x19 S4096x256 S19x256 where
  lhsContracting := [0]
  rhsContracting := [0]
  lhsNonContracting := [1]
  rhsNonContracting := [1]
  lhsBatch := []
  rhsBatch := []
  wf := dot_S4096x19_S4096x256_S19x256_0_0_1_1_n_n_wf
def dot_S4096x19_S19x256_S4096x256_1_0_0_1_n_n : DotDims S4096x19 S19x256 S4096x256 where
  lhsContracting := [1]
  rhsContracting := [0]
  lhsNonContracting := [0]
  rhsNonContracting := [1]
  lhsBatch := []
  rhsBatch := []
  wf := dot_S4096x19_S19x256_S4096x256_1_0_0_1_n_n_wf

abbrev win0_0 : Pipeline.Window sig grid0 :=
  Pipeline.Window.ofSpec (Memref.whole main_arg1) S1x256x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x19x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x19.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x256x16x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x16x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x1x16x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S19x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x19.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23_0) S1x16x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v23_1) S1x16x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v23_2) S1x16x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v23_3) S1x16x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8x256x128x256 : Shape := ⟨4, ![8, 256, 128, 256]⟩
abbrev S8x128x256 : Shape := ⟨3, ![8, 128, 256]⟩
abbrev S8x1x128x256 : Shape := ⟨4, ![8, 1, 128, 256]⟩
abbrev S8x128x256x256 : Shape := ⟨4, ![8, 128, 256, 256]⟩
abbrev S262144x256 : Shape := ⟨2, ![262144, 256]⟩
abbrev S262144 : Shape := ⟨1, ![262144]⟩
abbrev S_ : Shape := ⟨0, ![]⟩
abbrev S262144x1 : Shape := ⟨2, ![262144, 1]⟩
abbrev S19x256 : Shape := ⟨2, ![19, 256]⟩
abbrev S19 : Shape := ⟨1, ![19]⟩
abbrev S19x1 : Shape := ⟨2, ![19, 1]⟩
abbrev S8x128x256x1 : Shape := ⟨4, ![8, 128, 256, 1]⟩

abbrev nBuf : Space → Nat
  | .hbm => 124
  | .vmem => 0
  | .smem => 0
  | _ => 0

abbrev bufTy : (tb : Table) → Fin (tcTables nBuf tb) → BufTy
  | .hbm, ⟨0, _⟩ => ⟨S8x256x128x256, .f32⟩
  | .hbm, ⟨1, _⟩ => ⟨S8x256x128x256, .f32⟩
  | .hbm, ⟨2, _⟩ => ⟨S8x128x256, .i32⟩
  | .hbm, ⟨3, _⟩ => ⟨S8x1x128x256, .f32⟩
  | .hbm, ⟨4, _⟩ => ⟨S8x128x256x256, .f32⟩
  | .hbm, ⟨5, _⟩ => ⟨S262144x256, .f32⟩
  | .hbm, ⟨6, _⟩ => ⟨S262144, .i32⟩
  | .hbm, ⟨7, _⟩ => ⟨S_, .i32⟩
  | .hbm, ⟨8, _⟩ => ⟨S262144, .i32⟩
  | .hbm, ⟨9, _⟩ => ⟨S262144, .i1⟩
  | .hbm, ⟨10, _⟩ => ⟨S_, .i32⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .f32⟩
  | .hbm, ⟨15, _⟩ => ⟨S262144x1, .f32⟩
  | .hbm, ⟨16, _⟩ => ⟨S262144x256, .f32⟩
  | .hbm, ⟨17, _⟩ => ⟨S262144x256, .f32⟩
  | .hbm, ⟨18, _⟩ => ⟨S_, .f32⟩
  | .hbm, ⟨19, _⟩ => ⟨S19x256, .f32⟩
  | .hbm, ⟨20, _⟩ => ⟨S262144x1, .i32⟩
  | .hbm, ⟨21, _⟩ => ⟨S19x256, .f32⟩
  | .hbm, ⟨22, _⟩ => ⟨S_, .f32⟩
  | .hbm, ⟨23, _⟩ => ⟨S19, .f32⟩
  | .hbm, ⟨24, _⟩ => ⟨S262144x1, .i32⟩
  | .hbm, ⟨25, _⟩ => ⟨S19, .f32⟩
  | .hbm, ⟨26, _⟩ => ⟨S19x1, .f32⟩
  | .hbm, ⟨27, _⟩ => ⟨S_, .f32⟩
  | .hbm, ⟨28, _⟩ => ⟨S19x1, .f32⟩
  | .hbm, ⟨29, _⟩ => ⟨S19x1, .i1⟩
  | .hbm, ⟨30, _⟩ => ⟨S_, .f32⟩
  | .hbm, ⟨31, _⟩ => ⟨S19, .f32⟩
  | .hbm, ⟨32, _⟩ => ⟨S19, .f32⟩
  | .hbm, ⟨33, _⟩ => ⟨S19x1, .f32⟩
  | .hbm, ⟨34, _⟩ => ⟨S19x256, .f32⟩
  | .hbm, ⟨35, _⟩ => ⟨S19x256, .f32⟩
  | .hbm, ⟨36, _⟩ => ⟨S_, .f32⟩
  | .hbm, ⟨37, _⟩ => ⟨S_, .f32⟩
  | .hbm, ⟨38, _⟩ => ⟨S19x256, .i1⟩
  | .hbm, ⟨39, _⟩ => ⟨S19x256, .f32⟩
  | .hbm, ⟨40, _⟩ => ⟨S19x256, .f32⟩
  | .hbm, ⟨41, _⟩ => ⟨S19x256, .f32⟩
  | .hbm, ⟨42, _⟩ => ⟨S_, .f32⟩
  | .hbm, ⟨43, _⟩ => ⟨S19, .f32⟩
  | .hbm, ⟨44, _⟩ => ⟨S19x1, .f32⟩
  | .hbm, ⟨45, _⟩ => ⟨S19x1, .f32⟩
  | .hbm, ⟨46, _⟩ => ⟨S_, .f32⟩
  | .hbm, ⟨47, _⟩ => ⟨S19x1, .f32⟩
  | .hbm, ⟨48, _⟩ => ⟨S19x1, .f32⟩
  | .hbm, ⟨49, _⟩ => ⟨S19x256, .f32⟩
  | .hbm, ⟨50, _⟩ => ⟨S19x256, .f32⟩
  | .hbm, ⟨51, _⟩ => ⟨S8x128x256x256, .f32⟩
  | .hbm, ⟨52, _⟩ => ⟨S8x128x256x256, .f32⟩
  | .hbm, ⟨53, _⟩ => ⟨S_, .f32⟩
  | .hbm, ⟨54, _⟩ => ⟨S8x128x256, .f32⟩
  | .hbm, ⟨55, _⟩ => ⟨S8x128x256x1, .f32⟩
  | .hbm, ⟨56, _⟩ => ⟨S8x128x256x1, .f32⟩
  | .hbm, ⟨57, _⟩ => ⟨S_, .f32⟩
  | .hbm, ⟨58, _⟩ => ⟨S8x128x256x1, .f32⟩
  | .hbm, ⟨59, _⟩ => ⟨S8x128x256x1, .f32⟩
  | .hbm, ⟨60, _⟩ => ⟨S8x128x256x256, .f32⟩
  | .hbm, ⟨61, _⟩ => ⟨S8x128x256x256, .f32⟩
  | .hbm, ⟨62, _⟩ => ⟨S_, .i32⟩
  | .hbm, ⟨63, _⟩ => ⟨S8x128x256, .i32⟩
  | .hbm, ⟨64, _⟩ => ⟨S8x128x256, .i1⟩
  | .hbm, ⟨65, _⟩ => ⟨S_, .i32⟩
  | .hbm, ⟨66, _⟩ => ⟨S_, .i32⟩
  | .hbm, ⟨67, _⟩ => ⟨S8x128x256, .i32⟩
  | .hbm, ⟨68, _⟩ => ⟨S8x128x256, .i32⟩
  | .hbm, ⟨69, _⟩ => ⟨S19x256, .f32⟩
  | .hbm, ⟨70, _⟩ => ⟨S_, .f32⟩
  | .hbm, ⟨71, _⟩ => ⟨S19, .f32⟩
  | .hbm, ⟨72, _⟩ => ⟨S19, .f32⟩
  | .hbm, ⟨73, _⟩ => ⟨S_, .f32⟩
  | .hbm, ⟨74, _⟩ => ⟨S19, .f32⟩
  | .hbm, ⟨75, _⟩ => ⟨S19, .i1⟩
  | .hbm, ⟨76, _⟩ => ⟨S_, .i32⟩
  | .hbm, ⟨77, _⟩ => ⟨S8x128x256, .i32⟩
  | .hbm, ⟨78, _⟩ => ⟨S8x128x256, .i1⟩
  | .hbm, ⟨79, _⟩ => ⟨S_, .i32⟩
  | .hbm, ⟨80, _⟩ => ⟨S8x128x256, .i32⟩
  | .hbm, ⟨81, _⟩ => ⟨S8x128x256, .i32⟩
  | .hbm, ⟨82, _⟩ => ⟨S8x128x256, .i32⟩
  | .hbm, ⟨83, _⟩ => ⟨S8x128x256x1, .i32⟩
  | .hbm, ⟨84, _⟩ => ⟨S8x128x256x256, .f32⟩
  | .hbm, ⟨85, _⟩ => ⟨S_, .i32⟩
  | .hbm, ⟨86, _⟩ => ⟨S8x128x256, .i32⟩
  | .hbm, ⟨87, _⟩ => ⟨S8x128x256, .i1⟩
  | .hbm, ⟨88, _⟩ => ⟨S_, .i32⟩
  | .hbm, ⟨89, _⟩ => ⟨S8x128x256, .i32⟩
  | .hbm, ⟨90, _⟩ => ⟨S8x128x256, .i32⟩
  | .hbm, ⟨91, _⟩ => ⟨S8x128x256, .i32⟩
  | .hbm, ⟨92, _⟩ => ⟨S8x128x256x1, .i32⟩
  | .hbm, ⟨93, _⟩ => ⟨S8x128x256, .i1⟩
  | .hbm, ⟨94, _⟩ => ⟨S8x128x256x256, .f32⟩
  | .hbm, ⟨95, _⟩ => ⟨S_, .f32⟩
  | .hbm, ⟨96, _⟩ => ⟨S8x128x256, .f32⟩
  | .hbm, ⟨97, _⟩ => ⟨S_, .f32⟩
  | .hbm, ⟨98, _⟩ => ⟨S8x128x256, .f32⟩
  | .hbm, ⟨99, _⟩ => ⟨S8x128x256, .f32⟩
  | .hbm, ⟨100, _⟩ => ⟨S_, .i32⟩
  | .hbm, ⟨101, _⟩ => ⟨S8x128x256, .i32⟩
  | .hbm, ⟨102, _⟩ => ⟨S8x128x256, .i1⟩
  | .hbm, ⟨103, _⟩ => ⟨S8x128x256, .i1⟩
  | .hbm, ⟨104, _⟩ => ⟨S8x128x256, .f32⟩
  | .hbm, ⟨105, _⟩ => ⟨S8x128x256, .f32⟩
  | .hbm, ⟨106, _⟩ => ⟨S8x128x256, .f32⟩
  | .hbm, ⟨107, _⟩ => ⟨S8x128x256, .f32⟩
  | .hbm, ⟨108, _⟩ => ⟨S8x128x256, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S8x128x256, .f32⟩
  | .hbm, ⟨121, _⟩ => ⟨S_, .f32⟩
  | .hbm, ⟨122, _⟩ => ⟨S_, .f32⟩
  | .hbm, ⟨123, _⟩ => ⟨S_, .f32⟩
  | _, _ => ⟨S8x256x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v24 : Ref sig .tc := ⟨.hbm, 40, rfl⟩
abbrev main_call2_v0 : Ref sig .tc := ⟨.hbm, 41, rfl⟩
abbrev main_call2_cst : Ref sig .tc := ⟨.hbm, 42, rfl⟩
abbrev main_call2_v1 : Ref sig .tc := ⟨.hbm, 43, rfl⟩
abbrev main_call2_v2 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call3_v0 : Ref sig .tc := ⟨.hbm, 52, rfl⟩
abbrev main_call3_cst : Ref sig .tc := ⟨.hbm, 53, rfl⟩
abbrev main_call3_v1 : Ref sig .tc := ⟨.hbm, 54, rfl⟩
abbrev main_call3_v2 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_c_8 : Ref sig .tc := ⟨.hbm, 65, rfl⟩
abbrev main_call4_v0 : Ref sig .tc := ⟨.hbm, 66, rfl⟩
abbrev main_call4_v1 : Ref sig .tc := ⟨.hbm, 67, rfl⟩
abbrev main_v38 : Ref sig .tc := ⟨.hbm, 68, rfl⟩
abbrev main_call5_v0 : Ref sig .tc := ⟨.hbm, 69, rfl⟩
abbrev main_call5_cst : Ref sig .tc := ⟨.hbm, 70, rfl⟩
abbrev main_call5_v1 : Ref sig .tc := ⟨.hbm, 71, rfl⟩
abbrev main_v39 : Ref sig .tc := ⟨.hbm, 72, rfl⟩
abbrev main_cst_9 : Ref sig .tc := ⟨.hbm, 73, rfl⟩
abbrev main_v40 : Ref sig .tc := ⟨.hbm, 74, rfl⟩
abbrev main_v41 : Ref sig .tc := ⟨.hbm, 75, rfl⟩
abbrev main_c_10 : Ref sig .tc := ⟨.hbm, 76, rfl⟩
abbrev main_v42 : Ref sig .tc := ⟨.hbm, 77, rfl⟩
abbrev main_v43 : Ref sig .tc := ⟨.hbm, 78, rfl⟩
abbrev main_c_11 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_c_12 : Ref sig .tc := ⟨.hbm, 85, rfl⟩
abbrev main_v49 : Ref sig .tc := ⟨.hbm, 86, rfl⟩
abbrev main_v50 : Ref sig .tc := ⟨.hbm, 87, rfl⟩
abbrev main_c_13 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_14 : Ref sig .tc := ⟨.hbm, 95, rfl⟩
abbrev main_v57 : Ref sig .tc := ⟨.hbm, 96, rfl⟩
abbrev main_cst_15 : Ref sig .tc := ⟨.hbm, 97, rfl⟩
abbrev main_v58 : Ref sig .tc := ⟨.hbm, 98, rfl⟩
abbrev main_v59 : Ref sig .tc := ⟨.hbm, 99, rfl⟩
abbrev main_c_16 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_17 : Ref sig .tc := ⟨.hbm, 109, rfl⟩
abbrev main_v68 : Ref sig .tc := ⟨.hbm, 110, rfl⟩
abbrev main_cst_18 : Ref sig .tc := ⟨.hbm, 111, rfl⟩
abbrev main_v69 : Ref sig .tc := ⟨.hbm, 112, rfl⟩
abbrev main_cst_19 : Ref sig .tc := ⟨.hbm, 113, rfl⟩
abbrev main_v70 : Ref sig .tc := ⟨.hbm, 114, rfl⟩
abbrev main_v71 : Ref sig .tc := ⟨.hbm, 115, rfl⟩
abbrev main_cst_20 : Ref sig .tc := ⟨.hbm, 116, rfl⟩
abbrev main_v72 : Ref sig .tc := ⟨.hbm, 117, rfl⟩
abbrev main_cst_21 : Ref sig .tc := ⟨.hbm, 118, rfl⟩
abbrev main_v73 : Ref sig .tc := ⟨.hbm, 119, rfl⟩
abbrev main_v74 : Ref sig .tc := ⟨.hbm, 120, rfl⟩
abbrev main_cst_22 : Ref sig .tc := ⟨.hbm, 121, rfl⟩
abbrev main_v75 : Ref sig .tc := ⟨.hbm, 122, rfl⟩
abbrev main_v76 : Ref sig .tc := ⟨.hbm, 123, rfl⟩

abbrev nD : Nat := 1
abbrev τ : Topo := Topo.v7x

variable {F : FTy → Type} [FloatOps F]

class Facts₀ : Prop where
  transposes_S8x256x128x256_S8x128x256x256_0_2_3_1 : S8x256x128x256.Transposes [0, 2, 3, 1] S8x128x256x256
  shapeCasts_S8x128x256x256_S262144x256 : S8x128x256x256.ShapeCasts S262144x256
  shapeCasts_S8x128x256_S262144 : S8x128x256.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S19x256 : S_.BroadcastsInDim S19x256 (![] : Fin 0 → Fin S19x256.rank)
  bcast_S_S19 : S_.BroadcastsInDim S19 (![] : Fin 0 → Fin S19.rank)
  bcast_S19_S19x1_0 : S19.BroadcastsInDim S19x1 (![0] : Fin 1 → Fin S19x1.rank)
  bcast_S_S19x1 : S_.BroadcastsInDim S19x1 (![] : Fin 0 → Fin S19x1.rank)
  bcast_S19x1_S19x256_0_1 : S19x1.BroadcastsInDim S19x256 (![0, 1] : Fin 2 → Fin S19x256.rank)
  reducesTo_S19x256_S19_d1 : S19x256.ReducesTo [1] S19
  h_S_ : 0 < S_.numel
  reducesTo_S8x128x256x256_S8x128x256_d3 : S8x128x256x256.ReducesTo [3] S8x128x256
  bcast_S8x128x256_S8x128x256x1_0_1_2 : S8x128x256.BroadcastsInDim S8x128x256x1 (![0, 1, 2] : Fin 3 → Fin S8x128x256x1.rank)
  bcast_S_S8x128x256x1 : S_.BroadcastsInDim S8x128x256x1 (![] : Fin 0 → Fin S8x128x256x1.rank)
  bcast_S8x128x256x1_S8x128x256x256_0_1_2_3 : S8x128x256x1.BroadcastsInDim S8x128x256x256 (![0, 1, 2, 3] : Fin 4 → Fin S8x128x256x256.rank)
  bcast_S_S8x128x256 : S_.BroadcastsInDim S8x128x256 (![] : Fin 0 → Fin S8x128x256.rank)
  shapeCasts_S8x1x128x256_S8x128x256 : S8x1x128x256.ShapeCasts S8x128x256
  reducesTo_S8x128x256_S_d0_1_2 : S8x128x256.ReducesTo [0, 1, 2] S_
  scatter_S19x256_S262144x1_S262144x256_1_0_0_1_wf : ScatterDims.WF S19x256 S262144x1 S262144x256 [1] [0] [0] 1
  scatter_S19_S262144x1_S262144_n_0_0_1_wf : ScatterDims.WF S19 S262144x1 S262144 [] [0] [0] 1
  gather_S19x256_S8x128x256x1_S8x128x256x256_3_0_n_n_0_3_1256_wf : GatherDims.WF S19x256 S8x128x256x1 S8x128x256x256 [3] [0] [] [0] [] 3 ![1, 256]
  gather_S19_S8x128x256x1_S8x128x256_n_0_n_n_0_3_1_wf : GatherDims.WF S19 S8x128x256x1 S8x128x256 [] [0] [] [0] [] 3 ![1]

variable [Facts₀]

def scatter_S19x256_S262144x1_S262144x256_1_0_0_1 : ScatterDims S19x256 S262144x1 S262144x256 where
  updateWindowDims := [1]
  insertedWindowDims := [0]
  scatterDimsToOperandDims := [0]
  indexVectorDim := 1
  wf := scatter_S19x256_S262144x1_S262144x256_1_0_0_1_wf
def scatter_S19_S262144x1_S262144_n_0_0_1 : ScatterDims S19 S262144x1 S262144 where
  updateWindowDims := []
  insertedWindowDims := [0]
  scatterDimsToOperandDims := [0]
  indexVectorDim := 1
  wf := scatter_S19_S262144x1_S262144_n_0_0_1_wf
def gather_S19x256_S8x128x256x1_S8x128x256x256_3_0_n_n_0_3_1256 : GatherDims S19x256 S8x128x256x1 S8x128x256x256 where
  offsetDims := [3]
  collapsedSliceDims := [0]
  operandBatchingDims := []
  startIndicesBatchingDims := []
  startIndexMap := [0]
  indexVectorDim := 3
  sliceSizes := ![1, 256]
  wf := gather_S19x256_S8x128x256x1_S8x128x256x256_3_0_n_n_0_3_1256_wf
def gather_S19_S8x128x256x1_S8x128x256_n_0_n_n_0_3_1 : GatherDims S19 S8x128x256x1 S8x128x256 where
  offsetDims := []
  collapsedSliceDims := [0]
  operandBatchingDims := []
  startIndicesBatchingDims := []
  startIndexMap := [0]
  indexVectorDim := 3
  sliceSizes := ![1]
  wf := gather_S19_S8x128x256x1_S8x128x256_n_0_n_n_0_3_1_wf

class Facts : Prop extends Facts₀ where

variable [Facts]
-- ==== Proof.Chains.lean ====
/-
  The two stretches of host arithmetic that the kernel's program and the reference share, each as one function of
  the arrays going in.

  * From the class sums and counts: the class means (zero for an empty class), each divided by its clamped norm
    (`protoOf`), the norms of those rows (`pnormOf`), which of them are positive (`pvalidOf`), and that flag as a
    row of floats (`pvrowOf`).
  * From the per-pixel maps: the weighted loss's total over the clamped total weight (`finalLossOf`), and the valid
    pixels' mean similarity (`meanSimOf`).
  * `sumOf`, `cntOf`: the per-batch sums and counts added over the batch axis.
-/
import proofs.«410761_j78709570667268_3_alg».proof.Proof.Gen.KernelIdeal

noncomputable section

namespace Cert.PKD

open Idealize.ShloMosaic
open Cert.KernelIdeal Cert.KernelIdeal.Facts₀ Cert.KernelIdeal.Facts

variable {F : FTy → Type} [FloatOps F]

/-- The per-batch class sums added over the batch axis. -/
def sumOf (sb : FVec F S8x19x256 .f32) : FVec F S19x256 .f32 :=
  Host.reduceAdd sb (constant S_ .f32 0x00000000#32) reducesTo_S8x19x256_S19x256_d0 h_S_

/-- The per-batch class counts added over the batch axis, as a vector. -/
def cntOf (cb : FVec F S8x1x19 .f32) : FVec F S19 .f32 :=
  shapeCast S19 (Host.reduceAdd cb (constant S_ .f32 0x00000000#32) reducesTo_S8x1x19_S1x19_d0 h_S_) shapeCasts_S1x19_S19

/-- The class means: the sum over the count clamped below at one, and zero for a class with no pixel. -/
def rawOf (sums : FVec F S19x256 .f32) (cnt : FVec F S19 .f32) : FVec F S19x256 .f32 :=
  select
    (broadcastInDim S19x256 ![0, 1] bcast_S19x1_S19x256_0_1
      (cmpf .ogt (broadcastInDim S19x1 ![0] bcast_S19_S19x1_0 cnt)
        (broadcastInDim S19x1 ![] bcast_S_S19x1 (constant S_ .f32 0x00000000#32))))
    (Host.divf sums
      (broadcastInDim S19x256 ![0, 1] bcast_S19x1_S19x256_0_1
        (broadcastInDim S19x1 ![0] bcast_S19_S19x1_0
          (maximumf cnt (broadcastInDim S19 ![] bcast_S_S19 (constant S_ .f32 0x3F800000#32))))))
    (broadcastInDim S19x256 ![] bcast_S_S19x256 (id (constant S_ .f32 0x00000000#32)))

/-- Each row's sum of squares. -/
def sqRows (x : FVec F S19x256 .f32) : FVec F S19 .f32 :=
  Host.reduceAdd (mulf x x) (constant S_ .f32 0x00000000#32) reducesTo_S19x256_S19_d1 h_S_

/-- The prototypes: each class mean divided by its norm clamped below. -/
def protoOf (sums : FVec F S19x256 .f32) (cnt : FVec F S19 .f32) : FVec F S19x256 .f32 :=
  Host.divf (rawOf sums cnt)
    (broadcastInDim S19x256 ![0, 1] bcast_S19x1_S19x256_0_1
      (maximumf (Host.sqrt (broadcastInDim S19x1 ![0] bcast_S19_S19x1_0 (sqRows (rawOf sums cnt))))
        (broadcastInDim S19x1 ![] bcast_S_S19x1 (constant S_ .f32 0x358637BD#32))))

/-- The prototypes' norms. -/
def pnormOf (sums : FVec F S19x256 .f32) (cnt : FVec F S19 .f32) : FVec F S19 .f32 :=
  Host.sqrt (sqRows (protoOf sums cnt))

/-- Which prototypes have a positive norm. -/
def pvalidOf (sums : FVec F S19x256 .f32) (cnt : FVec F S19 .f32) : IVec S19 1 :=
  cmpf .ogt (pnormOf sums cnt) (broadcastInDim S19 ![] bcast_S_S19 (constant S_ .f32 0x00000000#32))

/-- That flag as a row of floats. -/
def pvrowOf (sums : FVec F S19x256 .f32) (cnt : FVec F S19 .f32) : FVec F S1x19 .f32 :=
  broadcastInDim S1x19 ![1] bcast_S19_S1x19_1 (uitofp .f32 (pvalidOf sums cnt))

/-- The sum of a per-pixel map over every pixel. -/
def sumAll (x : FVec F S8x128x256 .f32) : FVec F S_ .f32 :=
  Host.reduceAdd x (constant S_ .f32 0x00000000#32) reducesTo_S8x128x256_S_d0_1_2 h_S_

/-- The weighted loss's total over the total weight clamped below at one. -/
def finalLossOf (wl vs : FVec F S8x128x256 .f32) : FVec F S_ .f32 :=
  Host.divf (sumAll wl) (maximumf (sumAll vs) (constant S_ .f32 0x3F800000#32))

/-- The valid pixels' mean similarity. -/
def meanSimOf (sim valid : FVec F S8x128x256 .f32) : FVec F S_ .f32 :=
  Host.divf (sumAll (mulf sim valid)) (maximumf (sumAll valid) (constant S_ .f32 0x3F800000#32))

end Cert.PKD

end
-- ==== Proof.KHost1.lean ====
/-
  The host arithmetic between the two regions, read back: from the first region's two arrays, the prototype table, its
  norms, their positivity flags and that flag's row of floats, each as the shared function of the class sums and counts;
  and the argument arrays, which no operation writes.
-/
import proofs.«410761_j78709570667268_3_alg».proof.Proof.Gen.KernelIdeal.Frame
import proofs.«410761_j78709570667268_3_alg».proof.Proof.Chains
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

noncomputable section

open scoped BigOperators

namespace Cert.PKD

open Idealize.ShloMosaic Idealize.ShloMosaic.ValueIdx Idealize.ShloMosaic.TcCoe Idealize.SL.Sem
open Cert.KernelIdeal Cert.KernelIdeal.Gen
open Idealize.ShloMosaic.StableHlo

variable (m : (ℓ : Loc nD τ sig) → Buf (Elt Ideal) ℓ) (ρ : Dev nD → PrngReg)

/-- The buffers' contents when the second region is entered, as the six stretches of host operations applied to the
    first region's exit contents. -/
theorem W7_fold (c : Dev nD) : W7 (F := Ideal) m ρ c
    = StableHlo.after hostOps1_5 (StableHlo.after hostOps1_4 (StableHlo.after hostOps1_3 (StableHlo.after hostOps1_2
        (StableHlo.after hostOps1_1 (StableHlo.after hostOps1 (W1 m ρ c)))))) := rfl

set_option maxHeartbeats 4000000 in
set_option maxRecDepth 8192 in
/-- The prototype table the second region reads. -/
theorem W7_proto (c : Dev nD) : W7 (F := Ideal) m ρ c (Proc.devRef .tc main_v17)
    = protoOf (F := Ideal) (sumOf (F := Ideal) (W1 m ρ c (Proc.devRef .tc main_v0_0))) (cntOf (F := Ideal) (W1 m ρ c (Proc.devRef .tc main_v0_1))) := by
  rw [W7_fold]
  simp only [hostOps1, hostOps1_1, hostOps1_2, hostOps1_3, hostOps1_4, hostOps1_5]
  after_results_simp
  simp only [TRef.ofBuf, TRef.toBuf, cast_eq]
  rfl

set_option maxHeartbeats 4000000 in
set_option maxRecDepth 8192 in
/-- The prototypes' norms. -/
theorem W7_pnorm (c : Dev nD) : W7 (F := Ideal) m ρ c (Proc.devRef .tc main_v18)
    = pnormOf (F := Ideal) (sumOf (F := Ideal) (W1 m ρ c (Proc.devRef .tc main_v0_0))) (cntOf (F := Ideal) (W1 m ρ c (Proc.devRef .tc main_v0_1))) := by
  rw [W7_fold]
  simp only [hostOps1, hostOps1_1, hostOps1_2, hostOps1_3, hostOps1_4, hostOps1_5]
  after_results_simp
  simp only [TRef.ofBuf, TRef.toBuf, cast_eq]
  rfl

set_option maxHeartbeats 4000000 in
set_option maxRecDepth 8192 in
/-- Which prototypes are valid. -/
theorem W7_pvalid (c : Dev nD) : W7 (F := Ideal) m ρ c (Proc.devRef .tc main_v20)
    = pvalidOf (F := Ideal) (sumOf (F := Ideal) (W1 m ρ c (Proc.devRef .tc main_v0_0))) (cntOf (F := Ideal) (W1 m ρ c (Proc.devRef .tc main_v0_1))) := by
  rw [W7_fold]
  simp only [hostOps1, hostOps1_1, hostOps1_2, hostOps1_3, hostOps1_4, hostOps1_5]
  after_results_simp
  simp only [TRef.ofBuf, TRef.toBuf, cast_eq]
  rfl

set_option maxHeartbeats 4000000 in
set_option maxRecDepth 8192 in
/-- The validity flags as the row of floats the second region reads. -/
theorem W7_pvrow (c : Dev nD) : W7 (F := Ideal) m ρ c (Proc.devRef .tc main_v22)
    = pvrowOf (F := Ideal) (sumOf (F := Ideal) (W1 m ρ c (Proc.devRef .tc main_v0_0))) (cntOf (F := Ideal) (W1 m ρ c (Proc.devRef .tc main_v0_1))) := by
  rw [W7_fold]
  simp only [hostOps1, hostOps1_1, hostOps1_2, hostOps1_3, hostOps1_4, hostOps1_5]
  after_results_simp
  simp only [TRef.ofBuf, TRef.toBuf, cast_eq]
  rfl

/-- No host operation between the regions, and not the first region, writes an argument. -/
theorem W7_arg0 (c : Dev nD) : W7 (F := Ideal) m ρ c (Proc.devRef .tc main_arg0) = m ((c : Thread nD τ).loc main_arg0) := by
  rw [W7_fold]
  simp only [hostOps1, hostOps1_1, hostOps1_2, hostOps1_3, hostOps1_4, hostOps1_5]
  after_results_simp
  exact W1_of_ne m ρ c main_arg0 (by decide)

theorem W7_arg2 (c : Dev nD) : W7 (F := Ideal) m ρ c (Proc.devRef .tc main_arg2) = m ((c : Thread nD τ).loc main_arg2) := by
  rw [W7_fold]
  simp only [hostOps1, hostOps1_1, hostOps1_2, hostOps1_3, hostOps1_4, hostOps1_5]
  after_results_simp
  exact (W1_arr m ρ c 1).trans (((dat0 (V0 m ρ) c).arrAt_in 1 rfl _).trans (A_eq0 (V0 m ρ) c 1))

theorem W7_arg3 (c : Dev nD) : W7 (F := Ideal) m ρ c (Proc.devRef .tc main_arg3) = m ((c : Thread nD τ).loc main_arg3) := by
  rw [W7_fold]
  simp only [hostOps1, hostOps1_1, hostOps1_2, hostOps1_3, hostOps1_4, hostOps1_5]
  after_results_simp
  exact W1_of_ne m ρ c main_arg3 (by decide)

end Cert.PKD

end
-- ==== Proof.KHost2.lean ====
/-
  The host arithmetic after the second region, read back: the two scalar results as the shared functions of the region's
  output arrays; the two array results and the prototypes' norms and flags, which nothing after writes.
-/
import proofs.«410761_j78709570667268_3_alg».proof.Proof.Gen.KernelIdeal.Frame
import proofs.«410761_j78709570667268_3_alg».proof.Proof.Chains
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

noncomputable section

open scoped BigOperators

namespace Cert.PKD

open Idealize.ShloMosaic Idealize.ShloMosaic.ValueIdx Idealize.ShloMosaic.TcCoe Idealize.SL.Sem
open Cert.KernelIdeal Cert.KernelIdeal.Gen
open Idealize.ShloMosaic.StableHlo

variable (m : (ℓ : Loc nD τ sig) → Buf (Elt Ideal) ℓ) (ρ : Dev nD → PrngReg)

/-- The buffers' contents at the return: the last stretch of host operations applied to the second region's exit
    contents. -/
theorem W9_fold (c : Dev nD) : W9 (F := Ideal) m ρ c = StableHlo.after hostOps2 (W8 m ρ c) := rfl

set_option maxHeartbeats 2000000 in
/-- The final loss. -/
theorem W9_final (c : Dev nD) : W9 (F := Ideal) m ρ c (Proc.devRef .tc main_v27)
    = finalLossOf (F := Ideal) (W8 m ρ c (Proc.devRef .tc main_v23_1)) (W8 m ρ c (Proc.devRef .tc main_v23_2)) := by
  rw [W9_fold]
  simp only [hostOps2]
  after_results_simp
  rfl

set_option maxHeartbeats 2000000 in
/-- The mean similarity. -/
theorem W9_mean (c : Dev nD) : W9 (F := Ideal) m ρ c (Proc.devRef .tc main_v32)
    = meanSimOf (F := Ideal) (W8 m ρ c (Proc.devRef .tc main_v23_0)) (W8 m ρ c (Proc.devRef .tc main_v23_3)) := by
  rw [W9_fold]
  simp only [hostOps2]
  after_results_simp
  rfl

theorem W9_sim (c : Dev nD) : W9 (F := Ideal) m ρ c (Proc.devRef .tc main_v23_0) = W8 m ρ c (Proc.devRef .tc main_v23_0) := by
  rw [W9_fold]
  simp only [hostOps2]
  after_results_simp

theorem W9_wloss (c : Dev nD) : W9 (F := Ideal) m ρ c (Proc.devRef .tc main_v23_1) = W8 m ρ c (Proc.devRef .tc main_v23_1) := by
  rw [W9_fold]
  simp only [hostOps2]
  after_results_simp

/-- The prototypes' norms are not written after the stretch that computes them. -/
theorem W9_pnorm (c : Dev nD) : W9 (F := Ideal) m ρ c (Proc.devRef .tc main_v18) = W7 m ρ c (Proc.devRef .tc main_v18) :=
  (show W9 (F := Ideal) m ρ c (Proc.devRef .tc main_v18) = W8 m ρ c (Proc.devRef .tc main_v18) by
    rw [W9_fold]
    simp only [hostOps2]
    after_results_simp).trans (W8_of_ne m ρ c main_v18 (by decide))

theorem W9_pvalid (c : Dev nD) : W9 (F := Ideal) m ρ c (Proc.devRef .tc main_v20) = W7 m ρ c (Proc.devRef .tc main_v20) :=
  (show W9 (F := Ideal) m ρ c (Proc.devRef .tc main_v20) = W8 m ρ c (Proc.devRef .tc main_v20) by
    rw [W9_fold]
    simp only [hostOps2]
    after_results_simp).trans (W8_of_ne m ρ c main_v20 (by decide))

end Cert.PKD

end
-- ==== Proof.Spec.lean ====
/-
  The mathematics both programs compute, index by index, over the extended reals.

  A label word selects class `k` when it equals `k` (`hot`); the ignore label 255 selects no class in the class
  sums and is read as class 0 in the prototype lookup (`safeWord`), where it is then masked out (`keep`).

  * `sumsG`, `cntG`: per class, the sum of the teacher's feature vectors over the pixels of that class, and their
    number; `sumsB`, `cntB` the same per batch element.
  * `simG`: per pixel, the inner product of the student's feature vector, divided by its clamped norm, with the
    prototype row its label selects; `validG` the pixel's validity (not ignored, prototype valid), `wlossG` and
    `vswtG` the weighted loss and the weighted validity.
-/
import Idealize.ShloMosaic.PureOps.Ideal
import Idealize.ShloMosaic.Lib.ValueIdx

noncomputable section

open scoped BigOperators

namespace Cert.PKD

open Idealize.ShloMosaic Idealize.ShloMosaic.ValueIdx

abbrev SFeat : Shape := ⟨4, ![8, 256, 128, 256]⟩
abbrev SMask : Shape := ⟨3, ![8, 128, 256]⟩
abbrev SSwt : Shape := ⟨4, ![8, 1, 128, 256]⟩
abbrev SKC : Shape := ⟨2, ![19, 256]⟩
abbrev SK : Shape := ⟨1, ![19]⟩
abbrev SBKC : Shape := ⟨3, ![8, 19, 256]⟩
abbrev SB1K : Shape := ⟨3, ![8, 1, 19]⟩
abbrev S1K : Shape := ⟨2, ![1, 19]⟩

/-- The one-hot of a label word at class `k`: `1` when the word is `k`, else `0`. -/
def hot (wd : BitVec 32) (k : Fin 19) : EReal := if wd = BitVec.ofNat 32 k.val then 1 else 0

/-- The ignore label read as class 0. -/
def safeWord (wd : BitVec 32) : BitVec 32 := if wd = 255#32 then 0#32 else wd

/-- `0` on the ignore label, `1` elsewhere. -/
def keep (wd : BitVec 32) : EReal := if wd = 255#32 then 0 else 1

/-- The norm clamp's lower bound: the literal both programs carry. -/
def eps12 : EReal := Ideal.ofBits .f32 0x2B8CBCCC#32

/-- The literal `1.0` both programs carry. -/
def one32 : EReal := Ideal.ofBits .f32 0x3F800000#32

/-! ## Class sums -/

/-- Batch element `b`'s sum of the teacher's channel `c` over the pixels labelled `k`. -/
def batchSum (tf : SFeat.Idx → EReal) (mk : SMask.Idx → BitVec 32) (b : Fin 8) (k : Fin 19) (c : Fin 256) : EReal :=
  ∑ h : Fin 128, ∑ w : Fin 256, hot (mk (ix3 b h w)) k * tf (ix4 b c h w)

/-- Batch element `b`'s number of pixels labelled `k`. -/
def batchCount (mk : SMask.Idx → BitVec 32) (b : Fin 8) (k : Fin 19) : EReal :=
  ∑ h : Fin 128, ∑ w : Fin 256, hot (mk (ix3 b h w)) k

def sumsB (tf : SFeat.Idx → EReal) (mk : SMask.Idx → BitVec 32) : SBKC.Idx → EReal :=
  fun j => batchSum tf mk (j 0) (j 1) (j 2)

def cntB (mk : SMask.Idx → BitVec 32) : SB1K.Idx → EReal :=
  fun j => batchCount mk (j 0) (j 2)

def sumsG (tf : SFeat.Idx → EReal) (mk : SMask.Idx → BitVec 32) : SKC.Idx → EReal :=
  fun j => ∑ b : Fin 8, batchSum tf mk b (j 0) (j 1)

def cntG (mk : SMask.Idx → BitVec 32) : SK.Idx → EReal :=
  fun j => ∑ b : Fin 8, batchCount mk b (j 0)

/-! ## Per-pixel maps, over a prototype table `P` and a row `pvf` of validity flags -/

/-- The prototype row a label word selects, channel `c`: the one-hot combination of the table's rows. -/
def targetAt (P : SKC.Idx → EReal) (wd : BitVec 32) (c : Fin 256) : EReal :=
  ∑ k : Fin 19, hot (safeWord wd) k * P (ix2 k c)

/-- The validity flag a label word selects. -/
def pvAt (pvf : S1K.Idx → EReal) (wd : BitVec 32) : EReal :=
  ∑ k : Fin 19, hot (safeWord wd) k * pvf (ix2 0 k)

/-- A pixel's similarity, from its feature row `srow` (one entry per channel), its label word and the table: the
    row divided by its clamped norm, against the selected prototype row. -/
def simPix (srow : Fin 256 → EReal) (wd : BitVec 32) (P : SKC.Idx → EReal) : EReal :=
  ∑ c : Fin 256,
    Ideal.div (srow c) (max (Ideal.sqrt (∑ c' : Fin 256, srow c' * srow c')) eps12) * targetAt P wd c

/-- A pixel's validity: not ignored, and its class's prototype valid. -/
def validPix (wd : BitVec 32) (pvf : S1K.Idx → EReal) : EReal := keep wd * pvAt pvf wd

/-- A pixel's weighted loss. -/
def wlossPix (srow : Fin 256 → EReal) (wd : BitVec 32) (swv : EReal) (P : SKC.Idx → EReal) (pvf : S1K.Idx → EReal) :
    EReal :=
  (one32 - simPix srow wd P) * validPix wd pvf * swv

/-- A pixel's weighted validity. -/
def vswtPix (wd : BitVec 32) (swv : EReal) (pvf : S1K.Idx → EReal) : EReal := validPix wd pvf * swv

def simAt (s : SFeat.Idx → EReal) (mk : SMask.Idx → BitVec 32) (P : SKC.Idx → EReal)
    (b : Fin 8) (h : Fin 128) (w : Fin 256) : EReal :=
  simPix (fun c => s (ix4 b c h w)) (mk (ix3 b h w)) P

def validAt (mk : SMask.Idx → BitVec 32) (pvf : S1K.Idx → EReal) (b : Fin 8) (h : Fin 128) (w : Fin 256) : EReal :=
  validPix (mk (ix3 b h w)) pvf

def wlossAt (s : SFeat.Idx → EReal) (mk : SMask.Idx → BitVec 32) (sw : SSwt.Idx → EReal) (P : SKC.Idx → EReal)
    (pvf : S1K.Idx → EReal) (b : Fin 8) (h : Fin 128) (w : Fin 256) : EReal :=
  wlossPix (fun c => s (ix4 b c h w)) (mk (ix3 b h w)) (sw (ix4 b 0 h w)) P pvf

def vswtAt (mk : SMask.Idx → BitVec 32) (sw : SSwt.Idx → EReal) (pvf : S1K.Idx → EReal)
    (b : Fin 8) (h : Fin 128) (w : Fin 256) : EReal :=
  vswtPix (mk (ix3 b h w)) (sw (ix4 b 0 h w)) pvf

def simG (s : SFeat.Idx → EReal) (mk : SMask.Idx → BitVec 32) (P : SKC.Idx → EReal) : SMask.Idx → EReal :=
  fun j => simAt s mk P (j 0) (j 1) (j 2)

def validG (mk : SMask.Idx → BitVec 32) (pvf : S1K.Idx → EReal) : SMask.Idx → EReal :=
  fun j => validAt mk pvf (j 0) (j 1) (j 2)

def wlossG (s : SFeat.Idx → EReal) (mk : SMask.Idx → BitVec 32) (sw : SSwt.Idx → EReal) (P : SKC.Idx → EReal)
    (pvf : S1K.Idx → EReal) : SMask.Idx → EReal :=
  fun j => wlossAt s mk sw P pvf (j 0) (j 1) (j 2)

def vswtG (mk : SMask.Idx → BitVec 32) (sw : SSwt.Idx → EReal) (pvf : S1K.Idx → EReal) : SMask.Idx → EReal :=
  fun j => vswtAt mk sw pvf (j 0) (j 1) (j 2)

/-- A vector of one-bit flags as a row of floats: the flag read as the number 0 or 1. -/
def rowOfBits (pv : SK.Idx → BitVec 1) : S1K.Idx → EReal :=
  fun j => (((pv (ix1 (j 1))).toNat : ℝ) : EReal)

/-- A tile's pixel `(r, q)` in the tile's row-major order. -/
def pix (r : Fin 16) (q : Fin 256) : Fin 4096 := ⟨r.val * 256 + q.val, by have := r.isLt; have := q.isLt; omega⟩

/-- One 16-row tile's class sums: over the tile's pixels labelled `k`, the sum of channel `c`. -/
def tileSum (x0 : (⟨4, ![1, 256, 16, 256]⟩ : Shape).Idx → EReal) (x1 : (⟨3, ![1, 16, 256]⟩ : Shape).Idx → BitVec 32)
    (k : Fin 19) (c : Fin 256) : EReal :=
  ∑ r : Fin 16, ∑ q : Fin 256, hot (x1 (ix3 0 r q)) k * x0 (ix4 0 c r q)

/-- One tile's number of pixels labelled `k`. -/
def tileCount (x1 : (⟨3, ![1, 16, 256]⟩ : Shape).Idx → BitVec 32) (k : Fin 19) : EReal :=
  ∑ r : Fin 16, ∑ q : Fin 256, hot (x1 (ix3 0 r q)) k

/-- The labels are in their range: the ignore label, or a class. -/
def InRange (mk : SMask.Idx → BitVec 32) : Prop :=
  ∀ i : SMask.Idx, mk i = 255#32 ∨ (0 ≤ (mk i).toInt ∧ (mk i).toInt < 19)

end Cert.PKD

end
-- ==== Proof.KHot.lean ====
/-
  The one-hot rows the two kernel bodies build from a tile of label words: entry `(pixel, k)` is `1` when the pixel's
  word (the ignore label read as class 0, in the second body) is `k`, else `0`.
-/
import proofs.«410761_j78709570667268_3_alg».proof.Proof.Gen.KernelIdeal.Skeleton
import proofs.«410761_j78709570667268_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.PKD

open Idealize.ShloMosaic Idealize.ShloMosaic.ValueIdx Idealize.ShloMosaic.TcCoe Idealize.SL.Sem
open Cert.KernelIdeal Cert.KernelIdeal.Gen

/-- The bit of an equality test, widened to a word and converted to a float, is `1` when the two words are equal
    and `0` when they differ. -/
theorem sitofp_eqBit (a b : BitVec 32) :
    (FloatOps.sitofp (F := Ideal) .f32 ((IntOp.cmpi .eq a b).setWidth 32) : EReal) = if b = a then 1 else 0 := by
  by_cases h : b = a
  · subst h
    rw [if_pos rfl]
    show (((((BitVec.ofBool (b == b)).setWidth 32).toInt : ℝ)) : EReal) = 1
    simp
  · rw [if_neg h]
    have hab : (a == b) = false := by
      rw [beq_eq_false_iff_ne]
      exact fun e => h e.symm
    show (((((BitVec.ofBool (a == b)).setWidth 32).toInt : ℝ)) : EReal) = 0
    rw [hab]
    simp

/-- The one-hot rows of a tile of words `w`, as both bodies build them: the class number along the last axis compared
    with the word copied along it, the bit widened and converted, the three axes `(r, q, k)` flattened to
    `(r * 256 + q, k)`. -/
theorem hotRows_apply (w : IVec S16x256 32) (r : Fin 16) (q : Fin 256) (k : Fin 19) :
    (shapeCast S4096x19
      (sitofp .f32
        (extui 32
          (cmpi .eq (iota .tc S16x256x19 32 [2] iota_S16x256x19_d2_w32)
            (broadcastTo S16x256x19 (shapeCast S16x256x1 w shapeCasts_S16x256_S16x256x1)
              broadcasts_S16x256x1_S16x256x19))
          natLt_1_32) : FVec Ideal S16x256x19 .f32)
      shapeCasts_S16x256x19_S4096x19) (ix2 (pix r q) k) = hot (w (ix2 r q)) k := by
  have hr := r.isLt
  have hq := q.isLt
  have hk := k.isLt
  rw [shapeCast_apply _ shapeCasts_S16x256x19_S4096x19 (ix2 (pix r q) k) (ix3 r q k)
    (by rw [Shape.rowMajor_val_three, Shape.rowMajor_val_two]
        show (r.val * 256 + q.val) * 19 + k.val = (r.val * 256 + q.val) * 19 + k.val
        rfl)]
  rw [sitofp_apply, extui_apply]
  show (FloatOps.sitofp (F := Ideal) .f32
    ((IntOp.cmpi .eq (iota .tc S16x256x19 32 [2] iota_S16x256x19_d2_w32 (ix3 r q k))
      (broadcastTo S16x256x19 (shapeCast S16x256x1 w shapeCasts_S16x256_S16x256x1)
        broadcasts_S16x256x1_S16x256x19 (ix3 r q k))).setWidth 32) : EReal) = _
  rw [iota_single_apply]
  rw [broadcastTo_apply _ broadcasts_S16x256x1_S16x256x19 (ix3 r q k) (ix3 r q (0 : Fin 1))
    (fun a => match a with
      | ⟨0, _⟩ => rfl
      | ⟨1, _⟩ => rfl
      | ⟨2, _⟩ => rfl)]
  rw [shapeCast_apply _ shapeCasts_S16x256_S16x256x1 (ix3 r q (0 : Fin 1)) (ix2 r q)
    (by rw [Shape.rowMajor_val_three, Shape.rowMajor_val_two]
        show r.val * 256 + q.val = (r.val * 256 + q.val) * 1 + 0
        omega)]
  rw [sitofp_eqBit]
  rfl

/-- The first body's one-hot rows. -/
theorem k0_pay3_apply (v5 : Vec Ideal S1x16x256 .i32) (r : Fin 16) (q : Fin 256) (k : Fin 19) :
    k0_pay3 (F := Ideal) v5 (ix2 (pix r q) k) = hot (v5 (ix3 0 r q)) k := by
  unfold k0_pay3
  dsimp only
  rw [hotRows_apply, shapeCast_1ab_ab_apply]

/-- The second body's one-hot rows, of the label with the ignore label read as class 0. -/
theorem k1_pay11_apply (v2 : Vec Ideal S1x16x256 .i32) (r : Fin 16) (q : Fin 256) (k : Fin 19) :
    k1_pay11 (F := Ideal) v2 (ix2 (pix r q) k) = hot (safeWord (v2 (ix3 0 r q))) k := by
  unfold k1_pay11
  dsimp only
  rw [hotRows_apply, select_apply]
  have e : k1_pay8 v2 (ix2 r q) = v2 (ix3 0 r q) := by
    unfold k1_pay8
    exact shapeCast_1ab_ab_apply _ _ _ _
  show hot (Scalar.select (IntOp.cmpi .eq (k1_pay8 v2 (ix2 r q)) 255#32) 0#32 (k1_pay8 v2 (ix2 r q))) k = _
  rw [e]
  congr 1
  unfold safeWord
  by_cases h : v2 (ix3 0 r q) = 255#32
  · rw [if_pos h, h]
    rfl
  · rw [if_neg h]
    have hb : (v2 (ix3 0 r q) == 255#32) = false := by
      rw [beq_eq_false_iff_ne]
      exact h
    show Scalar.select (BitVec.ofBool (v2 (ix3 0 r q) == 255#32)) 0#32 (v2 (ix3 0 r q)) = _
    rw [hb]
    exact select_zero _ _

end Cert.PKD

end
-- ==== Proof.LibAttnOps.lean ====
/-
  General lemmas: four vector operations of an attention body read at an index on the extended reals, for any sizes.

  * a matrix product contracting the FIRST axis of both operands, `[K, M] × [K, N] → [M, N]` (queries against keys, both
    stored channels-first): entry `(p, q)` is `∑ k, l[k, p] · r[k, q]`;
  * a matrix product contracting the SECOND axis of both operands, `[M, K] × [N, K] → [M, N]` (weights against values stored
    channels-first): entry `(p, q)` is `∑ k, l[p, k] · r[q, k]`;
  * a row maximum, `multi_reduction <maximumf>` of an `[a, b]` array over axis 1: entry `i` is the fold of `max` from the
    accumulator's value over row `i`;
  * a row sum, `multi_reduction <add>` over axis 1: entry `i` is `∑ k, src[i, k]`.

  The two products go the same way: the record of dimension numbers is replaced by the literal one with those lists, the
  operand indices at a result index and a contraction index are read coordinate by coordinate (the contracted axis
  carries the contraction index's one coordinate, the kept axis the result's row or column), and the sum over the
  one-axis contraction shape is re-indexed by that axis's coordinate. The two reductions read the library's one-axis
  reduction laws at axis 1 of a rank-2 shape, where the index inserted over row `i` at coordinate `k` is `(i, k)`.
-/
import Idealize.ShloMosaic.PureOps.Ideal
import Idealize.ShloMosaic.PureOps.Ideal.Laws
import Idealize.ShloMosaic.Lib.ValueIdx

noncomputable section

namespace Cert.LibAttnOps

open Idealize.ShloMosaic Idealize.ShloMosaic.ValueIdx

/-! ## Contracting axis 0 of both operands -/

namespace TN

/-- The dimension numbers contracting axis 0 with axis 0 as a literal record; `wf` are their conditions. -/
abbrev dims (M K N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {M K N : Nat} (wf : DotDims.WF ⟨2, ![K, M]⟩ ⟨2, ![K, N]⟩ ⟨2, ![M, N]⟩ [0] [0] [1] [1] [] [])

/-- The left operand's row is the contracted coordinate. -/
theorem lhs_row (i : (⟨2, ![M, N]⟩ : Shape).Idx) (c : (dims M K N wf).contr.Idx) :
    ((dims M K N wf).lhsIdx i c 0).val = (c ⟨0, Nat.one_pos⟩).val :=
  (dims M K N wf).lhsIdx_val_of_single rfl i c

/-- The left operand's column is the result's row. -/
theorem lhs_col (i : (⟨2, ![M, N]⟩ : Shape).Idx) (c : (dims M K N wf).contr.Idx) :
    ((dims M K N wf).lhsIdx i c 1).val = (i 0).val := by
  rw [DotDims.lhsIdx, dif_neg (show ¬(1 : Fin 2) ∈ (dims M K N wf).lhsBatch from List.not_mem_nil),
    dif_pos (show (1 : Fin 2) ∈ (dims M K N wf).lhsNonContracting from List.mem_singleton.mpr rfl)]
  rfl

/-- The right operand's row is the contracted coordinate. -/
theorem rhs_row (i : (⟨2, ![M, N]⟩ : Shape).Idx) (c : (dims M K N wf).contr.Idx) :
    ((dims M K N wf).rhsIdx i c 0).val = (c ⟨0, Nat.one_pos⟩).val :=
  (dims M K N wf).rhsIdx_val_of_single rfl i c

/-- The right operand's column is the result's column. -/
theorem rhs_col (i : (⟨2, ![M, N]⟩ : Shape).Idx) (c : (dims M K N wf).contr.Idx) :
    ((dims M K N wf).rhsIdx i c 1).val = (i 1).val := by
  rw [DotDims.rhsIdx, dif_neg (show ¬(1 : Fin 2) ∈ (dims M K N wf).rhsBatch from List.not_mem_nil),
    dif_pos (show (1 : Fin 2) ∈ (dims M K N wf).rhsNonContracting from List.mem_singleton.mpr rfl)]
  rfl

/-- The product of the literal record at `(p, q)`. -/
theorem matmul_dims_apply {φ₁ φ₂ : FTy} (prec : Option ContractPrecision)
    (l : FVec Ideal ⟨2, ![K, M]⟩ φ₁) (r : FVec Ideal ⟨2, ![K, N]⟩ φ₂) (p : Fin M) (q : Fin N) :
    FloatOps.matmul (dims M K N wf) prec l r (constant ⟨2, ![M, N]⟩ .f32 0x00000000#32) (ix2 p q)
      = ∑ k : Fin K, l (ix2 k p) * r (ix2 k q) := by
  rw [Ideal.matmul_constant_zero_apply, ← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 p q) ((contrEquiv1 (dims M K N wf) K rfl rfl).symm k) = ix2 k p :=
    funext fun a => Fin.ext (by
      match a with
      | ⟨0, _⟩ => exact (lhs_row wf _ _).trans hk
      | ⟨1, _⟩ => exact lhs_col wf _ _)
  have er : (dims M K N wf).rhsIdx (ix2 p q) ((contrEquiv1 (dims M K N wf) K rfl rfl).symm k) = ix2 k q :=
    funext fun a => Fin.ext (by
      match a with
      | ⟨0, _⟩ => exact (rhs_row wf _ _).trans hk
      | ⟨1, _⟩ => exact rhs_col wf _ _)
  rw [el, er]

end TN

/-- `[K, M] × [K, N]` contracting axis 0 of both, into a zero accumulator, at `(p, q)`. -/
theorem matmul_tn_apply {M K N : Nat} {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision) (l : FVec Ideal ⟨2, ![K, M]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 k p) * r (ix2 k q) := by
  obtain ⟨lc, rc, ln, rn, lb, rb, wf⟩ := d
  simp only at h1 h2 h3 h4 h5 h6
  subst h1 h2 h3 h4 h5 h6
  exact TN.matmul_dims_apply wf prec l r p q

/-! ## Contracting axis 1 of both operands -/

namespace NT

/-- The dimension numbers contracting axis 1 with axis 1 as a literal record; `wf` are their conditions. -/
abbrev dims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row is the result's row. -/
theorem lhs_row (i : (⟨2, ![M, N]⟩ : Shape).Idx) (c : (dims M K N wf).contr.Idx) :
    ((dims M K N wf).lhsIdx i c 0).val = (i 0).val := by
  rw [DotDims.lhsIdx, dif_neg (show ¬(0 : Fin 2) ∈ (dims M K N wf).lhsBatch from List.not_mem_nil),
    dif_pos (show (0 : Fin 2) ∈ (dims M K N wf).lhsNonContracting from List.mem_singleton.mpr rfl)]
  rfl

/-- The left operand's column is the contracted coordinate. -/
theorem lhs_col (i : (⟨2, ![M, N]⟩ : Shape).Idx) (c : (dims M K N wf).contr.Idx) :
    ((dims M K N wf).lhsIdx i c 1).val = (c ⟨0, Nat.one_pos⟩).val :=
  (dims M K N wf).lhsIdx_val_of_single rfl i c

/-- The right operand's row is the result's column. -/
theorem rhs_row (i : (⟨2, ![M, N]⟩ : Shape).Idx) (c : (dims M K N wf).contr.Idx) :
    ((dims M K N wf).rhsIdx i c 0).val = (i 1).val := by
  rw [DotDims.rhsIdx, dif_neg (show ¬(0 : Fin 2) ∈ (dims M K N wf).rhsBatch from List.not_mem_nil),
    dif_pos (show (0 : Fin 2) ∈ (dims M K N wf).rhsNonContracting from List.mem_singleton.mpr rfl)]
  rfl

/-- The right operand's column is the contracted coordinate. -/
theorem rhs_col (i : (⟨2, ![M, N]⟩ : Shape).Idx) (c : (dims M K N wf).contr.Idx) :
    ((dims M K N wf).rhsIdx i c 1).val = (c ⟨0, Nat.one_pos⟩).val :=
  (dims M K N wf).rhsIdx_val_of_single rfl i c

/-- The product of the literal record at `(p, q)`. -/
theorem matmul_dims_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (dims M K N wf) prec l r (constant ⟨2, ![M, N]⟩ .f32 0x00000000#32) (ix2 p q)
      = ∑ k : Fin K, l (ix2 p k) * r (ix2 q k) := by
  rw [Ideal.matmul_constant_zero_apply, ← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 p q) ((contrEquiv1 (dims M K N wf) K rfl rfl).symm k) = ix2 p k :=
    funext fun a => Fin.ext (by
      match a with
      | ⟨0, _⟩ => exact lhs_row wf _ _
      | ⟨1, _⟩ => exact (lhs_col wf _ _).trans hk)
  have er : (dims M K N wf).rhsIdx (ix2 p q) ((contrEquiv1 (dims M K N wf) K rfl rfl).symm k) = ix2 q k :=
    funext fun a => Fin.ext (by
      match a with
      | ⟨0, _⟩ => exact rhs_row wf _ _
      | ⟨1, _⟩ => exact (rhs_col wf _ _).trans hk)
  rw [el, er]

end NT

/-- `[M, K] × [N, K]` contracting axis 1 of both, into a zero accumulator, at `(p, q)`. -/
theorem matmul_nt_apply {M K N : Nat} {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (l : FVec Ideal ⟨2, ![M, K]⟩ φ₁) (r : FVec Ideal ⟨2, ![N, K]⟩ φ₂)
    (p : Fin M) (q : Fin N) :
    FloatOps.matmul d prec l r (constant ⟨2, ![M, N]⟩ .f32 0x00000000#32) (ix2 p q)
      = ∑ k : Fin K, l (ix2 p k) * r (ix2 q k) := by
  obtain ⟨lc, rc, ln, rn, lb, rb, wf⟩ := d
  simp only at h1 h2 h3 h4 h5 h6
  subst h1 h2 h3 h4 h5 h6
  exact NT.matmul_dims_apply wf prec l r p q

/-! ## Reductions over axis 1 of a rank-2 array -/

/-- Over row `i`, the index inserted at coordinate `k` of axis 1 is `(i, k)`. -/
theorem lift_row {a b : Nat} (h : (⟨2, ![a, b]⟩ : Shape).Reduces [1] ⟨1, ![a]⟩) (i : Fin a) (k : Fin b) :
    h.lift (ix1 i) k = ix2 i k :=
  funext fun c => Fin.ext (by
    match c with
    | ⟨0, _⟩ => rfl
    | ⟨1, _⟩ => rfl)

/-- The row maximum of an `[a, b]` array at row `i`: the fold of `max` from the accumulator's value over the row. -/
theorem rowmax_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have e : (src ∘ h.lift (ix1 i) : Fin b → EReal) = fun k => src (ix2 i k) :=
    funext fun k => congrArg src (lift_row h i k)
  exact congrArg (fun f : Fin b → EReal => (Finset.univ : Finset (Fin b)).fold max (Ideal.ofBits φ acc) f) e

/-- The row sum of an `[a, b]` array at row `i`. -/
theorem rowsum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

end Cert.LibAttnOps

end
-- ==== Proof.KSumsBody.lean ====
/-
  What the class-sum body adds to its two accumulators at one grid point: the tile's class sums and counts.

  The sums' accumulator receives the old block plus a matrix product contracting the pixel axis of both operands: the
  one-hot rows `[4096, 19]` against the tile's features `[4096, 256]`, the latter being the block `[1, 256, 16, 256]`
  with its channel axis moved last and its two pixel axes merged. Entry `(k, c)` of the product is the sum over the
  4096 pixels of the tile; a pixel is a pair `(r, q)` in row-major order (`pix`), so the sum is the double sum of
  the specification. The counts' accumulator receives the old block plus the column sums of the one-hot rows.
-/
import proofs.«410761_j78709570667268_3_alg».proof.Proof.Gen.KernelIdeal.Skeleton
import proofs.«410761_j78709570667268_3_alg».proof.Proof.Spec
import proofs.«410761_j78709570667268_3_alg».proof.Proof.KHot
import proofs.«410761_j78709570667268_3_alg».proof.Proof.LibAttnOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.PKD

open Idealize.ShloMosaic Idealize.ShloMosaic.ValueIdx Idealize.ShloMosaic.TcCoe Idealize.SL.Sem
open Cert.KernelIdeal Cert.KernelIdeal.Gen

namespace KSums

/-! ## The tile's pixels as pairs -/

/-- A tile's 4096 pixels are the pairs (row, column) in row-major order. -/
def pixEquiv : Fin 16 × Fin 256 ≃ Fin 4096 where
  toFun p := pix p.1 p.2
  invFun n := (⟨n.val / 256, by have := n.isLt; omega⟩, ⟨n.val % 256, Nat.mod_lt _ (by decide)⟩)
  left_inv p := by
    obtain ⟨r, q⟩ := p
    have hr := r.isLt
    have hq := q.isLt
    refine Prod.ext (Fin.ext ?_) (Fin.ext ?_)
    · show (r.val * 256 + q.val) / 256 = r.val
      omega
    · show (r.val * 256 + q.val) % 256 = q.val
      omega
  right_inv n := Fin.ext (by
    show n.val / 256 * 256 + n.val % 256 = n.val
    omega)

/-- A sum over the tile's pixels is the double sum over rows and columns. -/
theorem sum_pix {M : Type*} [AddCommMonoid M] (f : Fin 4096 → M) :
    ∑ n : Fin 4096, f n = ∑ r : Fin 16, ∑ q : Fin 256, f (pix r q) := by
  rw [← Equiv.sum_comp pixEquiv f, Fintype.sum_prod_type]
  rfl

/-! ## The two operands of the reductions at an index -/

/-- The tile's features, channel axis last and pixel axes merged, at (pixel, channel). -/
theorem feat_apply (x0 : Vec Ideal S1x256x16x256 .f32) (r : Fin 16) (q : Fin 256) (c : Fin 256) :
    (shapeCast S4096x256
        (transpose S16x256x256 [1, 2, 0] (shapeCast S256x16x256 x0 shapeCasts_S1x256x16x256_S256x16x256)
          transposes_S256x16x256_p1_2_0_S16x256x256)
        shapeCasts_S16x256x256_S4096x256 : FVec Ideal S4096x256 .f32) (ix2 (pix r q) c) = x0 (ix4 0 c r q) := by
  refine (shapeCast_apply _ shapeCasts_S16x256x256_S4096x256 (ix2 (pix r q) c) (ix3 r q c) ?_).trans ?_
  · rw [Shape.rowMajor_val_three, Shape.rowMajor_val_two]
    rfl
  refine (transpose_apply _ _ transposes_S256x16x256_p1_2_0_S16x256x256 (ix3 r q c) (ix3 c r q)
    (fun b => match b with | ⟨0, _⟩ => rfl | ⟨1, _⟩ => rfl | ⟨2, _⟩ => rfl)).trans ?_
  exact shapeCast_1abc_abc_apply x0 _ c r q

/-- Over column `i`, the index inserted at coordinate `n` of axis 0 is `(n, i)`. -/
theorem lift_col {a b : Nat} (h : (⟨2, ![a, b]⟩ : Shape).Reduces [0] ⟨1, ![b]⟩) (i : Fin b) (n : Fin a) :
    h.lift (ix1 i) n = ix2 n i :=
  funext fun c => Fin.ext (by
    match c with
    | ⟨0, _⟩ => rfl
    | ⟨1, _⟩ => rfl)

/-- The column sum of an `[a, b]` array at column `i`. -/
theorem colsum_apply {a b : Nat} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (i : Fin b) :
    multiReduction .add [0] ⟨1, ![b]⟩ src acc h hφ hacc (ix1 i) = ∑ n : Fin a, src (ix2 n i) := by
  rw [Ideal.multiReduction_add_single]
  exact Finset.sum_congr rfl fun n _ => congrArg src (lift_col h i n)

end KSums

open KSums

/-! ## The four payloads -/

/-- The zero block the first tile of a batch element starts from. -/
theorem k0_pay1_apply (k : Fin 19) (c : Fin 256) : k0_pay1 (F := Ideal) (ix3 0 k c) = 0 := by
  unfold k0_pay1
  refine (shapeCast_ab_1ab_apply _ shapeCasts_S19x256_S1x19x256 0 k c).trans ?_
  exact Ideal.ofBits_zero_f32

theorem k0_pay2_apply (k : Fin 19) : k0_pay2 (F := Ideal) (ix3 0 0 k) = 0 := by
  unfold k0_pay2
  refine (shapeCast_ab_1ab_apply _ shapeCasts_S1x19_S1x1x19 0 0 k).trans ?_
  exact Ideal.ofBits_zero_f32

/-- The sums' accumulator after a point: what it held plus the tile's class sums. -/
theorem k0_pay4_apply (x0 : Vec Ideal S1x256x16x256 .f32) (x1 : Vec Ideal S1x16x256 .i32) (xo : Vec Ideal S1x19x256 .f32)
    (k : Fin 19) (c : Fin 256) :
    k0_pay4 (F := Ideal) x0 x1 xo (ix3 0 k c) = xo (ix3 0 k c) + tileSum x0 x1 k c := by
  unfold k0_pay4
  refine (shapeCast_ab_1ab_apply _ shapeCasts_S19x256_S1x19x256 0 k c).trans ?_
  refine (addf_apply _ _ (ix2 k c)).trans ?_
  refine congrArg₂ (· + ·) (shapeCast_1ab_ab_apply xo _ k c) ?_
  refine (Cert.LibAttnOps.matmul_tn_apply dot_S4096x19_S4096x256_S19x256_0_0_1_1_n_n rfl rfl rfl rfl rfl rfl
    none _ _ k c).trans ?_
  rw [sum_pix]
  unfold tileSum
  refine Finset.sum_congr rfl fun r _ => Finset.sum_congr rfl fun q _ => ?_
  rw [truncf_apply, truncf_apply, k0_pay3_apply, feat_apply]

/-- The counts' accumulator after a point: what it held plus the tile's class counts. -/
theorem k0_pay5_apply (x1 : Vec Ideal S1x16x256 .i32) (xo : Vec Ideal S1x1x19 .f32) (k : Fin 19) :
    k0_pay5 (F := Ideal) x1 xo (ix3 0 0 k) = xo (ix3 0 0 k) + tileCount x1 k := by
  unfold k0_pay5
  refine (shapeCast_ab_1ab_apply _ shapeCasts_S1x19_S1x1x19 0 0 k).trans ?_
  refine (addf_apply _ _ (ix2 0 k)).trans ?_
  refine congrArg₂ (· + ·) (shapeCast_1ab_ab_apply xo _ 0 k) ?_
  refine (shapeCast_a_1a_apply _ shapeCasts_S19_S1x19 0 k).trans ?_
  refine (colsum_apply (k0_pay3 (F := Ideal) x1) 0x00000000#32 reduces_S4096x19_S19 (.inl rfl) rfl k).trans ?_
  rw [sum_pix]
  unfold tileCount
  exact Finset.sum_congr rfl fun r _ => Finset.sum_congr rfl fun q _ => k0_pay3_apply x1 r q k

end Cert.PKD

end
-- ==== Proof.KRegion0.lean ====
/-
  The first region's two output arrays when it ends: per batch element, the class sums and counts over all its tiles.
-/
import proofs.«410761_j78709570667268_3_alg».proof.Proof.Gen.KernelIdeal.Frame
import proofs.«410761_j78709570667268_3_alg».proof.Proof.Spec
import proofs.«410761_j78709570667268_3_alg».proof.Proof.KSumsBody
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.PKD

open Idealize.ShloMosaic Idealize.ShloMosaic.ValueIdx Idealize.ShloMosaic.TcCoe Idealize.SL.Sem
open Cert.KernelIdeal Cert.KernelIdeal.Gen
open Idealize.ShloMosaic.Pipeline (Dat)

namespace R0

section Pieces
variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later tile of a batch element: the sums' accumulator is rewritten from what it held and the tile. -/
theorem sums_later (c : Dev nD) (i : grid0.Coords) (arg2 : Memref sig .tc .vmem S1x256x16x256 .f32) (harg2 : arg2.IsWhole) (arg3 : Memref sig .tc .vmem S1x16x256 .i32) (harg3 : arg3.IsWhole) (arg4 : Memref sig .tc .vmem S1x19x256 .f32) (harg4 : arg4.IsWhole) (arg5 : Memref sig .tc .vmem S1x1x19 .f32) (harg5 : arg5.IsWhole) (hc0 : ¬cond0_0 i)
    (x0 : Vec F S1x256x16x256 .f32) (x1 : Vec F S1x16x256 .i32) (xo2 : Vec F S1x19x256 .f32) (xo3 : Vec F S1x1x19 .f32) :
    out0_B_2 c i arg2 harg2 arg3 harg3 arg4 harg4 arg5 harg5 hc0 x0 x1 xo2 xo3 = k0_pay4 x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread, harg5.read_unread,
    View.ld_unit_zero (S := S1x256x16x256) hz4, View.ld_unit_zero (S := S1x16x256) hz3,
    View.ld_unit_zero (S := S1x19x256) hz3, View.ld_unit_zero (S := S1x1x19) hz3]

/-- A later tile of a batch element: the counts' accumulator is rewritten from what it held and the tile. -/
theorem counts_later (c : Dev nD) (i : grid0.Coords) (arg2 : Memref sig .tc .vmem S1x256x16x256 .f32) (harg2 : arg2.IsWhole) (arg3 : Memref sig .tc .vmem S1x16x256 .i32) (harg3 : arg3.IsWhole) (arg4 : Memref sig .tc .vmem S1x19x256 .f32) (harg4 : arg4.IsWhole) (arg5 : Memref sig .tc .vmem S1x1x19 .f32) (harg5 : arg5.IsWhole) (hc0 : ¬cond0_0 i)
    (x0 : Vec F S1x256x16x256 .f32) (x1 : Vec F S1x16x256 .i32) (xo2 : Vec F S1x19x256 .f32) (xo3 : Vec F S1x1x19 .f32) :
    out0_B_3 c i arg2 harg2 arg3 harg3 arg4 harg4 arg5 harg5 hc0 x0 x1 xo2 xo3 = k0_pay5 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread, harg5.read_unread,
    View.ld_unit_zero (S := S1x256x16x256) hz4, View.ld_unit_zero (S := S1x16x256) hz3,
    View.ld_unit_zero (S := S1x19x256) hz3, View.ld_unit_zero (S := S1x1x19) hz3]

/-- The first tile of a batch element: the sums' accumulator is zeroed, then rewritten from the zero block and the tile. -/
theorem sums_first (c : Dev nD) (i : grid0.Coords) (arg2 : Memref sig .tc .vmem S1x256x16x256 .f32) (harg2 : arg2.IsWhole) (arg3 : Memref sig .tc .vmem S1x16x256 .i32) (harg3 : arg3.IsWhole) (arg4 : Memref sig .tc .vmem S1x19x256 .f32) (harg4 : arg4.IsWhole) (arg5 : Memref sig .tc .vmem S1x1x19 .f32) (harg5 : arg5.IsWhole) (hc0 : cond0_0 i)
    (x0 : Vec F S1x256x16x256 .f32) (x1 : Vec F S1x16x256 .i32) :
    out0_A_2 c i arg2 harg2 arg3 harg3 arg4 harg4 arg5 harg5 hc0 x0 x1 = k0_pay4 x0 x1 k0_pay1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x19x256) hz3, View.readCov_unit_zero (S := S1x19x256) _ hz3]
  simp only [View.readAt_eq_ld, harg2.read_unread, harg3.read_unread,
    View.ld_unit_zero (S := S1x256x16x256) hz4, View.ld_unit_zero (S := S1x16x256) hz3,
    View.ld_unit_zero (S := S1x19x256) hz3, View.ld_unit_zero (S := S1x1x19) hz3]

/-- The first tile of a batch element: the counts' accumulator is zeroed, then rewritten from the zero row and the tile. -/
theorem counts_first (c : Dev nD) (i : grid0.Coords) (arg2 : Memref sig .tc .vmem S1x256x16x256 .f32) (harg2 : arg2.IsWhole) (arg3 : Memref sig .tc .vmem S1x16x256 .i32) (harg3 : arg3.IsWhole) (arg4 : Memref sig .tc .vmem S1x19x256 .f32) (harg4 : arg4.IsWhole) (arg5 : Memref sig .tc .vmem S1x1x19 .f32) (harg5 : arg5.IsWhole) (hc0 : cond0_0 i)
    (x0 : Vec F S1x256x16x256 .f32) (x1 : Vec F S1x16x256 .i32) :
    out0_A_3 c i arg2 harg2 arg3 harg3 arg4 harg4 arg5 harg5 hc0 x0 x1 = k0_pay5 x1 k0_pay2 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x19) hz3, View.readCov_unit_zero (S := S1x1x19) _ hz3]
  simp only [View.readAt_eq_ld, harg2.read_unread, harg3.read_unread,
    View.ld_unit_zero (S := S1x256x16x256) hz4, View.ld_unit_zero (S := S1x16x256) hz3,
    View.ld_unit_zero (S := S1x19x256) hz3, View.ld_unit_zero (S := S1x1x19) hz3]

end Pieces

variable (m : (ℓ : Loc nD τ sig) → Buf (Elt Ideal) ℓ) (ρ : Dev nD → PrngReg)

/-- The teacher's tile a grid point reads, and its labels' tile. -/
abbrev tfBlk (c : Dev nD) (t : Fin cfg0.N) : Vec Ideal S1x256x16x256 .f32 := iblk0 (V0 m ρ) c 0 t
abbrev mkBlk (c : Dev nD) (t : Fin cfg0.N) : Vec Ideal S1x16x256 .i32 := iblk0 (V0 m ρ) c 1 t

/-- What the point before a later tile left in the two accumulators. -/
abbrev prevS (c : Dev nD) (t : Fin cfg0.N) : Vec Ideal S1x19x256 .f32 :=
  (outsAt0 (V0 m ρ) c (t.val - 1) (Nat.lt_of_le_of_lt (Nat.sub_le _ _) t.isLt)).1
abbrev prevC (c : Dev nD) (t : Fin cfg0.N) : Vec Ideal S1x1x19 .f32 :=
  (outsAt0 (V0 m ρ) c (t.val - 1) (Nat.lt_of_le_of_lt (Nat.sub_le _ _) t.isLt)).2

/-- After the first tile of a batch element the sums' accumulator holds that tile's class sums. -/
theorem sums_step_first (c : Dev nD) (t : Fin cfg0.N) (h0 : t.val % 8 = 0) (k : Fin 19) (ch : Fin 256) :
    (outsAt0 (V0 m ρ) c t.val t.isLt).1 (ix3 0 k ch) = tileSum (tfBlk m ρ c t) (mkBlk m ρ c t) k ch := by
  rw [outsAt0_A (V0 m ρ) c t h0]
  dsimp only
  refine (congrFun (sums_first (F := Ideal) c (grid0.coords t) (ms0_0 t) (hs0_0 t) (ms0_1 t) (hs0_1 t) (ms0_2 t) (hs0_2 t) (ms0_3 t) (hs0_3 t) ((hcond0_0 t).mpr h0) (tfBlk m ρ c t) (mkBlk m ρ c t)) (ix3 0 k ch)).trans ?_
  refine (k0_pay4_apply (tfBlk m ρ c t) (mkBlk m ρ c t) (k0_pay1 (F := Ideal)) k ch).trans ?_
  rw [k0_pay1_apply, zero_add]

theorem counts_step_first (c : Dev nD) (t : Fin cfg0.N) (h0 : t.val % 8 = 0) (k : Fin 19) :
    (outsAt0 (V0 m ρ) c t.val t.isLt).2 (ix3 0 0 k) = tileCount (mkBlk m ρ c t) k := by
  rw [outsAt0_A (V0 m ρ) c t h0]
  dsimp only
  refine (congrFun (counts_first (F := Ideal) c (grid0.coords t) (ms0_0 t) (hs0_0 t) (ms0_1 t) (hs0_1 t) (ms0_2 t) (hs0_2 t) (ms0_3 t) (hs0_3 t) ((hcond0_0 t).mpr h0) (tfBlk m ρ c t) (mkBlk m ρ c t)) (ix3 0 0 k)).trans ?_
  refine (k0_pay5_apply (mkBlk m ρ c t) (k0_pay2 (F := Ideal)) k).trans ?_
  rw [k0_pay2_apply, zero_add]

/-- After a later tile the sums' accumulator holds what the point before left plus the tile's class sums. -/
theorem sums_step_later (c : Dev nD) (t : Fin cfg0.N) (h0 : ¬t.val % 8 = 0) (k : Fin 19) (ch : Fin 256) :
    (outsAt0 (V0 m ρ) c t.val t.isLt).1 (ix3 0 k ch)
      = prevS m ρ c t (ix3 0 k ch) + tileSum (tfBlk m ρ c t) (mkBlk m ρ c t) k ch := by
  rw [outsAt0_B (V0 m ρ) c t h0]
  dsimp only
  refine (congrFun (sums_later (F := Ideal) c (grid0.coords t) (ms0_0 t) (hs0_0 t) (ms0_1 t) (hs0_1 t) (ms0_2 t) (hs0_2 t) (ms0_3 t) (hs0_3 t) (fun h => h0 ((hcond0_0 t).mp h)) (tfBlk m ρ c t) (mkBlk m ρ c t) (prevS m ρ c t) (prevC m ρ c t)) (ix3 0 k ch)).trans ?_
  exact k0_pay4_apply (tfBlk m ρ c t) (mkBlk m ρ c t) (prevS m ρ c t) k ch

theorem counts_step_later (c : Dev nD) (t : Fin cfg0.N) (h0 : ¬t.val % 8 = 0) (k : Fin 19) :
    (outsAt0 (V0 m ρ) c t.val t.isLt).2 (ix3 0 0 k)
      = prevC m ρ c t (ix3 0 0 k) + tileCount (mkBlk m ρ c t) k := by
  rw [outsAt0_B (V0 m ρ) c t h0]
  dsimp only
  refine (congrFun (counts_later (F := Ideal) c (grid0.coords t) (ms0_0 t) (hs0_0 t) (ms0_1 t) (hs0_1 t) (ms0_2 t) (hs0_2 t) (ms0_3 t) (hs0_3 t) (fun h => h0 ((hcond0_0 t).mp h)) (tfBlk m ρ c t) (mkBlk m ρ c t) (prevS m ρ c t) (prevC m ρ c t)) (ix3 0 0 k)).trans ?_
  exact k0_pay5_apply (mkBlk m ρ c t) (prevC m ρ c t) k

/-- The class sums of the tile at grid position `n` (zero past the grid). -/
def tileS (c : Dev nD) (n : ℕ) (k : Fin 19) (ch : Fin 256) : EReal :=
  if h : n < cfg0.N then tileSum (tfBlk m ρ c ⟨n, h⟩) (mkBlk m ρ c ⟨n, h⟩) k ch else 0
def tileC (c : Dev nD) (n : ℕ) (k : Fin 19) : EReal :=
  if h : n < cfg0.N then tileCount (mkBlk m ρ c ⟨n, h⟩) k else 0

/-- After grid position `n` the sums' accumulator holds the class sums of the batch element's tiles up to `n`. -/
theorem sums_at (c : Dev nD) : ∀ (n : ℕ) (hn : n < cfg0.N) (k : Fin 19) (ch : Fin 256),
    (outsAt0 (V0 m ρ) c n hn).1 (ix3 0 k ch) = ∑ j ∈ Finset.range (n % 8 + 1), tileS m ρ c (n - n % 8 + j) k ch := by
  intro n
  induction n using Nat.strong_induction_on with
  | _ n ih =>
    intro hn k ch
    by_cases h0 : n % 8 = 0
    · refine (sums_step_first m ρ c ⟨n, hn⟩ h0 k ch).trans ?_
      simp only [h0, Nat.zero_add, Finset.sum_range_one, Nat.sub_zero, Nat.add_zero]
      unfold tileS
      rw [dif_pos hn]
    · refine (sums_step_later m ρ c ⟨n, hn⟩ h0 k ch).trans ?_
      have e1 : n % 8 + 1 = ((n - 1) % 8 + 1) + 1 := by omega
      have e2 : n - n % 8 = (n - 1) - (n - 1) % 8 := by omega
      have e3 : (n - 1) - (n - 1) % 8 + ((n - 1) % 8 + 1) = n := by omega
      rw [e1, Finset.sum_range_succ, e2, e3]
      have hi := ih (n - 1) (by omega) (Nat.lt_of_le_of_lt (Nat.sub_le _ _) hn) k ch
      rw [← hi]
      unfold tileS
      rw [dif_pos hn]

theorem counts_at (c : Dev nD) : ∀ (n : ℕ) (hn : n < cfg0.N) (k : Fin 19),
    (outsAt0 (V0 m ρ) c n hn).2 (ix3 0 0 k) = ∑ j ∈ Finset.range (n % 8 + 1), tileC m ρ c (n - n % 8 + j) k := by
  intro n
  induction n using Nat.strong_induction_on with
  | _ n ih =>
    intro hn k
    by_cases h0 : n % 8 = 0
    · refine (counts_step_first m ρ c ⟨n, hn⟩ h0 k).trans ?_
      simp only [h0, Nat.zero_add, Finset.sum_range_one, Nat.sub_zero, Nat.add_zero]
      unfold tileC
      rw [dif_pos hn]
    · refine (counts_step_later m ρ c ⟨n, hn⟩ h0 k).trans ?_
      have e1 : n % 8 + 1 = ((n - 1) % 8 + 1) + 1 := by omega
      have e2 : n - n % 8 = (n - 1) - (n - 1) % 8 := by omega
      have e3 : (n - 1) - (n - 1) % 8 + ((n - 1) % 8 + 1) = n := by omega
      rw [e1, Finset.sum_range_succ, e2, e3]
      have hi := ih (n - 1) (by omega) (Nat.lt_of_le_of_lt (Nat.sub_le _ _) hn) k
      rw [← hi]
      unfold tileC
      rw [dif_pos hn]

/-- The windows' index maps over the grid: point `t` is tile `t % 8` of batch element `t / 8`. -/
theorem idx_facts : ∀ t : Fin cfg0.N,
    win0_0.index t (0 : Fin 4) = t.val / 8 ∧ win0_0.index t (1 : Fin 4) = 0 ∧ win0_0.index t (2 : Fin 4) = t.val % 8
    ∧ win0_0.index t (3 : Fin 4) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- The teacher's tile at a grid point is rows `16 (t % 8) … 16 (t % 8) + 15` of batch element `t / 8`. -/
theorem tfBlk_apply (c : Dev nD) (t : Fin cfg0.N) (ch : Fin 256) (r : Fin 16) (q : Fin 256) (b : Fin 8) (h : Fin 128)
    (hb : b.val = t.val / 8) (hh : h.val = t.val % 8 * 16 + r.val) :
    tfBlk m ρ c t (ix4 0 ch r q) = (m ((c : Thread nD τ).loc main_arg1) : SFeat.Idx → EReal) (ix4 b ch h q) := by
  obtain ⟨e0, e1, e2, e3, -⟩ := idx_facts t
  unfold tfBlk iblk0
  rw [View.read_apply]
  show m (c.tc.loc main_arg1) _ = m (c.tc.loc main_arg1) _
  congr 1
  funext a
  apply Fin.ext
  match a with
  | ⟨0, _⟩ => show win0_0.index t (0 : Fin 4) * 1 + 1 * 0 = b.val; rw [e0, hb]; omega
  | ⟨1, _⟩ => show win0_0.index t (1 : Fin 4) * 256 + 1 * ch.val = ch.val; rw [e1]; omega
  | ⟨2, _⟩ => show win0_0.index t (2 : Fin 4) * 16 + 1 * r.val = h.val; rw [e2, hh]; omega
  | ⟨3, _⟩ => show win0_0.index t (3 : Fin 4) * 256 + 1 * q.val = q.val; rw [e3]; omega

/-- The labels' tile at a grid point is the same rows of the same batch element. -/
theorem mkBlk_apply (c : Dev nD) (t : Fin cfg0.N) (r : Fin 16) (q : Fin 256) (b : Fin 8) (h : Fin 128)
    (hb : b.val = t.val / 8) (hh : h.val = t.val % 8 * 16 + r.val) :
    mkBlk m ρ c t (ix3 0 r q) = (m ((c : Thread nD τ).loc main_arg2) : SMask.Idx → BitVec 32) (ix3 b h q) := by
  obtain ⟨-, -, -, -, e0, e1, e2, -⟩ := idx_facts t
  unfold mkBlk iblk0
  rw [View.read_apply]
  show m (c.tc.loc main_arg2) _ = m (c.tc.loc main_arg2) _
  congr 1
  funext a
  apply Fin.ext
  match a with
  | ⟨0, _⟩ => show win0_1.index t (0 : Fin 3) * 1 + 1 * 0 = b.val; rw [e0, hb]; omega
  | ⟨1, _⟩ => show win0_1.index t (1 : Fin 3) * 16 + 1 * r.val = h.val; rw [e1, hh]; omega
  | ⟨2, _⟩ => show win0_1.index t (2 : Fin 3) * 256 + 1 * q.val = q.val; rw [e2]; omega

/-- A sum over the 128 rows is the sum over the 8 tiles of the sum over a tile's 16 rows. -/
theorem sum_rows (g : Fin 128 → EReal) :
    ∑ h : Fin 128, g h = ∑ j : Fin 8, ∑ r : Fin 16, g ⟨j.val * 16 + r.val, by have := j.isLt; have := r.isLt; omega⟩ := by
  rw [← Equiv.sum_comp (finProdFinEquiv : Fin 8 × Fin 16 ≃ Fin (8 * 16)) g, Fintype.sum_prod_type]
  refine Finset.sum_congr rfl fun j _ => Finset.sum_congr rfl fun r _ => congrArg g (Fin.ext ?_)
  show r.val + 16 * j.val = j.val * 16 + r.val
  omega

/-- The 8 tiles' class sums add up to the batch element's. -/
theorem tiles_sum (c : Dev nD) (b : Fin 8) (k : Fin 19) (ch : Fin 256) :
    ∑ j ∈ Finset.range 8, tileS m ρ c (8 * b.val + j) k ch
      = batchSum (m ((c : Thread nD τ).loc main_arg1)) (m ((c : Thread nD τ).loc main_arg2)) b k ch := by
  have hN : cfg0.N = 64 := N_0
  unfold batchSum
  rw [sum_rows, Finset.sum_range]
  refine Finset.sum_congr rfl fun j _ => ?_
  have hj : 8 * b.val + j.val < cfg0.N := by have := b.isLt; have := j.isLt; omega
  unfold tileS
  rw [dif_pos hj]
  unfold tileSum
  refine Finset.sum_congr rfl fun r _ => Finset.sum_congr rfl fun q _ => ?_
  rw [mkBlk_apply m ρ c ⟨8 * b.val + j.val, hj⟩ r q b ⟨j.val * 16 + r.val, by have := j.isLt; have := r.isLt; omega⟩
      (by show b.val = (8 * b.val + j.val) / 8; have := j.isLt; omega)
      (by show j.val * 16 + r.val = (8 * b.val + j.val) % 8 * 16 + r.val; have := j.isLt; omega),
    tfBlk_apply m ρ c ⟨8 * b.val + j.val, hj⟩ ch r q b ⟨j.val * 16 + r.val, by have := j.isLt; have := r.isLt; omega⟩
      (by show b.val = (8 * b.val + j.val) / 8; have := j.isLt; omega)
      (by show j.val * 16 + r.val = (8 * b.val + j.val) % 8 * 16 + r.val; have := j.isLt; omega)]

theorem tiles_count (c : Dev nD) (b : Fin 8) (k : Fin 19) :
    ∑ j ∈ Finset.range 8, tileC m ρ c (8 * b.val + j) k
      = batchCount (m ((c : Thread nD τ).loc main_arg2)) b k := by
  have hN : cfg0.N = 64 := N_0
  unfold batchCount
  rw [sum_rows, Finset.sum_range]
  refine Finset.sum_congr rfl fun j _ => ?_
  have hj : 8 * b.val + j.val < cfg0.N := by have := b.isLt; have := j.isLt; omega
  unfold tileC
  rw [dif_pos hj]
  unfold tileCount
  refine Finset.sum_congr rfl fun r _ => Finset.sum_congr rfl fun q _ => ?_
  rw [mkBlk_apply m ρ c ⟨8 * b.val + j.val, hj⟩ r q b ⟨j.val * 16 + r.val, by have := j.isLt; have := r.isLt; omega⟩
      (by show b.val = (8 * b.val + j.val) / 8; have := j.isLt; omega)
      (by show j.val * 16 + r.val = (8 * b.val + j.val) % 8 * 16 + r.val; have := j.isLt; omega)]

/-- At the last tile of a batch element the sums' accumulator holds the batch element's class sums. -/
theorem sums_last (c : Dev nD) (t : Fin cfg0.N) (h7 : t.val % 8 = 7) (y : S1x19x256.Idx) :
    (outsAt0 (V0 m ρ) c t.val t.isLt).1 y
      = sumsB (m ((c : Thread nD τ).loc main_arg1)) (m ((c : Thread nD τ).loc main_arg2)) (((cfg0.win 2).blk t).view.emb y) := by
  have hN : cfg0.N = 64 := N_0
  obtain ⟨z, k, ch, rfl⟩ : ∃ (z : Fin 1) (k : Fin 19) (ch : Fin 256), y = ix3 z k ch := ⟨y 0, y 1, y 2, eq_ix3 y⟩
  obtain rfl : z = 0 := Subsingleton.elim _ _
  obtain ⟨-, -, -, -, -, -, -, e0, e1, e2, -⟩ := idx_facts t
  have hb : t.val / 8 < 8 := by have := t.isLt; omega
  have hemb : ((cfg0.win 2).blk t).view.emb (ix3 0 k ch) = (ix3 ⟨t.val / 8, hb⟩ k ch : SBKC.Idx) := by
    funext a
    apply Fin.ext
    match a with
    | ⟨0, _⟩ => show win0_2.index t (0 : Fin 3) * 1 + 1 * 0 = t.val / 8; rw [e0]; omega
    | ⟨1, _⟩ => show win0_2.index t (1 : Fin 3) * 19 + 1 * k.val = k.val; rw [e1]; omega
    | ⟨2, _⟩ => show win0_2.index t (2 : Fin 3) * 256 + 1 * ch.val = ch.val; rw [e2]; omega
  rw [hemb, sums_at m ρ c t.val t.isLt k ch]
  show _ = batchSum _ _ ⟨t.val / 8, hb⟩ k ch
  rw [← tiles_sum m ρ c ⟨t.val / 8, hb⟩ k ch]
  have e3 : t.val % 8 + 1 = 8 := by omega
  have e4 : t.val - t.val % 8 = 8 * (t.val / 8) := by omega
  rw [e3, e4]

theorem counts_last (c : Dev nD) (t : Fin cfg0.N) (h7 : t.val % 8 = 7) (y : S1x1x19.Idx) :
    (outsAt0 (V0 m ρ) c t.val t.isLt).2 y
      = cntB (m ((c : Thread nD τ).loc main_arg2)) (((cfg0.win 3).blk t).view.emb y) := by
  have hN : cfg0.N = 64 := N_0
  obtain ⟨z, z', k, rfl⟩ : ∃ (z : Fin 1) (z' : Fin 1) (k : Fin 19), y = ix3 z z' k := ⟨y 0, y 1, y 2, eq_ix3 y⟩
  obtain rfl : z = 0 := Subsingleton.elim _ _
  obtain rfl : z' = 0 := Subsingleton.elim _ _
  obtain ⟨-, -, -, -, -, -, -, -, -, -, e0, e1, e2⟩ := idx_facts t
  have hb : t.val / 8 < 8 := by have := t.isLt; omega
  have hemb : ((cfg0.win 3).blk t).view.emb (ix3 0 0 k) = (ix3 ⟨t.val / 8, hb⟩ 0 k : SB1K.Idx) := by
    funext a
    apply Fin.ext
    match a with
    | ⟨0, _⟩ => show win0_3.index t (0 : Fin 3) * 1 + 1 * 0 = t.val / 8; rw [e0]; omega
    | ⟨1, _⟩ => show win0_3.index t (1 : Fin 3) * 1 + 1 * 0 = 0; rw [e1]
    | ⟨2, _⟩ => show win0_3.index t (2 : Fin 3) * 19 + 1 * k.val = k.val; rw [e2]; omega
  rw [hemb, counts_at m ρ c t.val t.isLt k]
  show _ = batchCount _ ⟨t.val / 8, hb⟩ k
  rw [← tiles_count m ρ c ⟨t.val / 8, hb⟩ k]
  have e3 : t.val % 8 + 1 = 8 := by omega
  have e4 : t.val - t.val % 8 = 8 * (t.val / 8) := by omega
  rw [e3, e4]

/-- What a write-back of the sums writes is the batch element's block of the class sums. -/
theorem sums_flushed (c : Dev nD) (t : Fin cfg0.N) (hf : (cfg0.win 2).flush t = true) :
    (dat0 (V0 m ρ) c).flushed 2 t = ((cfg0.win 2).blk t).view.read (Elt Ideal)
      (sumsB (m ((c : Thread nD τ).loc main_arg1)) (m ((c : Thread nD τ).loc main_arg2))) := by
  have h7 : t.val % 8 = 7 := (flush0_2 t).mp hf
  show (cfg0.win 2).cut (grid0.coords t) ((dat0 (V0 m ρ) c).after 2 t) = _
  rw [after0_2]
  funext y
  exact sums_last m ρ c t h7 y

theorem counts_flushed (c : Dev nD) (t : Fin cfg0.N) (hf : (cfg0.win 3).flush t = true) :
    (dat0 (V0 m ρ) c).flushed 3 t = ((cfg0.win 3).blk t).view.read (Elt Ideal)
      (cntB (m ((c : Thread nD τ).loc main_arg2))) := by
  have h7 : t.val % 8 = 7 := (flush0_3 t).mp hf
  show (cfg0.win 3).cut (grid0.coords t) ((dat0 (V0 m ρ) c).after 3 t) = _
  rw [after0_3]
  funext y
  exact counts_last m ρ c t h7 y

/-- Every entry of the sums' array lies in the block its batch element's last tile writes back. -/
theorem sums_cover (i : S8x19x256.Idx) :
    ∃ t : Fin cfg0.N, (cfg0.win 2).flush t = true ∧ i ∈ ((cfg0.win 2).blk t).view.set := by
  have hN : cfg0.N = 64 := N_0
  have h0 : (i 0).val < 8 := (i 0).isLt
  have h1 : (i 1).val < 19 := (i 1).isLt
  have h2 : (i 2).val < 256 := (i 2).isLt
  have ht : 8 * (i 0).val + 7 < cfg0.N := by omega
  refine ⟨⟨8 * (i 0).val + 7, ht⟩, (flush0_2 _).mpr (by show (8 * (i 0).val + 7) % 8 = 7; omega), ?_⟩
  obtain ⟨-, -, -, -, -, -, -, e0, e1, e2, -⟩ := idx_facts ⟨8 * (i 0).val + 7, ht⟩
  have e0' : win0_2.index ⟨8 * (i 0).val + 7, ht⟩ (0 : Fin 3) = (i 0).val := by rw [e0]; show (8 * (i 0).val + 7) / 8 = _; omega
  show i ∈ ((View.whole main_v0_0).slice (win0_2.rect ⟨8 * (i 0).val + 7, ht⟩)).set
  rw [View.set_slice_whole, Rect.mem_set_unit]
  intro a
  match a with
  | ⟨0, _⟩ => show win0_2.index ⟨8 * (i 0).val + 7, ht⟩ (0 : Fin 3) * 1 ≤ (i 0).val ∧ (i 0).val < win0_2.index ⟨8 * (i 0).val + 7, ht⟩ (0 : Fin 3) * 1 + 1
              rw [e0']; omega
  | ⟨1, _⟩ => show win0_2.index ⟨8 * (i 0).val + 7, ht⟩ (1 : Fin 3) * 19 ≤ (i 1).val ∧ (i 1).val < win0_2.index ⟨8 * (i 0).val + 7, ht⟩ (1 : Fin 3) * 19 + 19
              rw [e1]; omega
  | ⟨2, _⟩ => show win0_2.index ⟨8 * (i 0).val + 7, ht⟩ (2 : Fin 3) * 256 ≤ (i 2).val ∧ (i 2).val < win0_2.index ⟨8 * (i 0).val + 7, ht⟩ (2 : Fin 3) * 256 + 256
              rw [e2]; omega

theorem counts_cover (i : S8x1x19.Idx) :
    ∃ t : Fin cfg0.N, (cfg0.win 3).flush t = true ∧ i ∈ ((cfg0.win 3).blk t).view.set := by
  have hN : cfg0.N = 64 := N_0
  have h0 : (i 0).val < 8 := (i 0).isLt
  have h1 : (i 1).val < 1 := (i 1).isLt
  have h2 : (i 2).val < 19 := (i 2).isLt
  have ht : 8 * (i 0).val + 7 < cfg0.N := by omega
  refine ⟨⟨8 * (i 0).val + 7, ht⟩, (flush0_3 _).mpr (by show (8 * (i 0).val + 7) % 8 = 7; omega), ?_⟩
  obtain ⟨-, -, -, -, -, -, -, -, -, -, e0, e1, e2⟩ := idx_facts ⟨8 * (i 0).val + 7, ht⟩
  have e0' : win0_3.index ⟨8 * (i 0).val + 7, ht⟩ (0 : Fin 3) = (i 0).val := by rw [e0]; show (8 * (i 0).val + 7) / 8 = _; omega
  show i ∈ ((View.whole main_v0_1).slice (win0_3.rect ⟨8 * (i 0).val + 7, ht⟩)).set
  rw [View.set_slice_whole, Rect.mem_set_unit]
  intro a
  match a with
  | ⟨0, _⟩ => show win0_3.index ⟨8 * (i 0).val + 7, ht⟩ (0 : Fin 3) * 1 ≤ (i 0).val ∧ (i 0).val < win0_3.index ⟨8 * (i 0).val + 7, ht⟩ (0 : Fin 3) * 1 + 1
              rw [e0']; omega
  | ⟨1, _⟩ => show win0_3.index ⟨8 * (i 0).val + 7, ht⟩ (1 : Fin 3) * 1 ≤ (i 1).val ∧ (i 1).val < win0_3.index ⟨8 * (i 0).val + 7, ht⟩ (1 : Fin 3) * 1 + 1
              rw [e1]; omega
  | ⟨2, _⟩ => show win0_3.index ⟨8 * (i 0).val + 7, ht⟩ (2 : Fin 3) * 19 ≤ (i 2).val ∧ (i 2).val < win0_3.index ⟨8 * (i 0).val + 7, ht⟩ (2 : Fin 3) * 19 + 19
              rw [e2]; omega

end R0

variable (m : (ℓ : Loc nD τ sig) → Buf (Elt Ideal) ℓ) (ρ : Dev nD → PrngReg)

theorem W1_sums (c : Dev nD) : W1 (F := Ideal) m ρ c (Proc.devRef .tc main_v0_0)
    = sumsB (m ((c : Thread nD τ).loc main_arg1)) (m ((c : Thread nD τ).loc main_arg2)) :=
  (W1_arr m ρ c 2).trans ((dat0 (V0 m ρ) c).arrAt_eq_of_cover 2
    (sumsB (m ((c : Thread nD τ).loc main_arg1)) (m ((c : Thread nD τ).loc main_arg2))) (R0.sums_flushed m ρ c) R0.sums_cover)

theorem W1_counts (c : Dev nD) : W1 (F := Ideal) m ρ c (Proc.devRef .tc main_v0_1)
    = cntB (m ((c : Thread nD τ).loc main_arg2)) :=
  (W1_arr m ρ c 3).trans ((dat0 (V0 m ρ) c).arrAt_eq_of_cover 3
    (cntB (m ((c : Thread nD τ).loc main_arg2))) (R0.counts_flushed m ρ c) R0.counts_cover)

end Cert.PKD

end
-- ==== Proof.LibPlainMatmul.lean ====
/-
  A general lemma: a matrix product `[M, K] × [K, N]` read at an index on the extended reals — the kernel's, into a
  zero accumulator, and the host's `dot_general`.

  The dimension numbers contract axis 1 of the left operand with axis 0 of the right one, keep axis 0 of the left and
  axis 1 of the right, and have no batch axis. Entry `(p, q)` of the product is then `∑ k < K, l[p, k] · r[k, q]`:
  the sum over the one contracted axis, re-indexed by that axis's coordinate. Stated for any record with those
  dimension numbers, whatever the sizes and the operands' float formats.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

namespace PlainMatmul

/-- Those dimension numbers as a literal record; `wf` are their conditions. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the result's row. -/
theorem lhs_row (i : (⟨2, ![M, N]⟩ : Shape).Idx) (q : (plainDims M K N wf).contr.Idx) :
    ((plainDims M K N wf).lhsIdx i q 0).val = (i 0).val := by
  rw [DotDims.lhsIdx, dif_neg (show ¬(0 : Fin 2) ∈ (plainDims M K N wf).lhsBatch from List.not_mem_nil),
    dif_pos (show (0 : Fin 2) ∈ (plainDims M K N wf).lhsNonContracting from List.mem_singleton.mpr rfl)]
  rfl

/-- The left operand's column is the contracted coordinate. -/
theorem lhs_col (i : (⟨2, ![M, N]⟩ : Shape).Idx) (q : (plainDims M K N wf).contr.Idx) :
    ((plainDims M K N wf).lhsIdx i q 1).val = (q ⟨0, Nat.one_pos⟩).val :=
  (plainDims M K N wf).lhsIdx_val_of_single rfl i q

/-- The right operand's row is the contracted coordinate. -/
theorem rhs_row (i : (⟨2, ![M, N]⟩ : Shape).Idx) (q : (plainDims M K N wf).contr.Idx) :
    ((plainDims M K N wf).rhsIdx i q 0).val = (q ⟨0, Nat.one_pos⟩).val :=
  (plainDims M K N wf).rhsIdx_val_of_single rfl i q

/-- The right operand's column is the result's column. -/
theorem rhs_col (i : (⟨2, ![M, N]⟩ : Shape).Idx) (q : (plainDims M K N wf).contr.Idx) :
    ((plainDims M K N wf).rhsIdx i q 1).val = (i 1).val := by
  rw [DotDims.rhsIdx, dif_neg (show ¬(1 : Fin 2) ∈ (plainDims M K N wf).rhsBatch from List.not_mem_nil),
    dif_pos (show (1 : Fin 2) ∈ (plainDims M K N wf).rhsNonContracting from List.mem_singleton.mpr rfl)]
  rfl

/-- The product of the literal record at `(p, q)`. -/
theorem matmul_plainDims_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- The host's product of the literal record at `(p, q)`. -/
theorem dotGeneral_plainDims_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q) = ∑ k : Fin K, l (ix2 p k) * r (ix2 k q) := by
  rw [Ideal.dotGeneral_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

end PlainMatmul

open PlainMatmul

/-- THE PRODUCT READ AT `(p, q)`, for any record with the plain dimension numbers: `∑ k < K, l[p, k] · r[k, q]`. -/
theorem matmul_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at h1 h2 h3 h4 h5 h6
  subst h1 h2 h3 h4 h5 h6
  exact matmul_plainDims_apply wf prec l r p q

/-- THE HOST'S PRODUCT READ AT `(p, q)`, for any record with the plain dimension numbers, whatever its schedule key:
    the same sum. -/
theorem dotGeneral_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (l : FVec Ideal ⟨2, ![M, K]⟩ φ₁)
    (r : FVec Ideal ⟨2, ![K, N]⟩ φ₂) (p : Fin M) (q : Fin N) :
    FloatOps.dotGeneral d prec sched l r (ix2 p q) = ∑ k : Fin K, l (ix2 p k) * r (ix2 k q) := by
  obtain ⟨lc, rc, ln, rn, lb, rb, wf⟩ := d
  simp only at h1 h2 h3 h4 h5 h6
  subst h1 h2 h3 h4 h5 h6
  exact dotGeneral_plainDims_apply wf prec sched l r p q

end Cert.Lib

end
-- ==== Proof.KPixA.lean ====
/-
  The second body's two products with the one-hot rows: the prototype row and the validity flag each pixel's label selects.

  Both are sums over the 19 classes of the pixel's one-hot row against a second factor. The first is a matrix product
  `[4096, 19] × [19, 256]` into the zero accumulator, whose entry `(n, c)` is `∑ k, onehot[n, k] · P[k, c]` (the
  narrowing format changes of both operands are the identity on extended reals, and the reshape of the table is to its
  own shape). The second is the row sum of the one-hot rows multiplied entrywise by one `[1, 19]` row repeated down the
  4096 rows: entry `n` is `∑ k, onehot[n, k] · row[0, k]`, the zero initial value adding nothing.
-/
import proofs.«410761_j78709570667268_3_alg».proof.Proof.Gen.KernelIdeal.Skeleton
import proofs.«410761_j78709570667268_3_alg».proof.Proof.Spec
import proofs.«410761_j78709570667268_3_alg».proof.Proof.KHot
import proofs.«410761_j78709570667268_3_alg».proof.Proof.LibPlainMatmul
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.PKD

open Idealize.ShloMosaic Idealize.ShloMosaic.ValueIdx Idealize.ShloMosaic.TcCoe Idealize.SL.Sem
open Cert.KernelIdeal Cert.KernelIdeal.Gen

/-- The index a sum over axis 1 of a `[4096, 19]` array visits from row `n` at the summed coordinate `k` is `(n, k)`. -/
theorem lift_row (n : Fin 4096) (k : Fin 19) :
    reduces_S4096x19_S4096.lift (ix1 n) k = ix2 n k :=
  funext fun a => Fin.ext (by
    match a with
    | ⟨0, _⟩ => rfl
    | ⟨1, _⟩ => rfl)

/-- A `[1, 19]` row repeated down `[4096, 19]`: every row is that row. -/
theorem bcast_row (x : Vec Ideal S1x19 .f32) (n : Fin 4096) (k : Fin 19) :
    broadcastTo S4096x19 x broadcasts_S1x19_S4096x19 (ix2 n k) = x (ix2 0 k) :=
  broadcastTo_apply x broadcasts_S1x19_S4096x19 (ix2 n k) (ix2 0 k) (fun a => by
    match a with
    | ⟨0, _⟩ => rfl
    | ⟨1, _⟩ => rfl)

/-- The product of the one-hot rows with the prototype table at pixel `(r, q)`, channel `c`: the one-hot combination
    of the table's rows, which is the row the pixel's label selects. -/
theorem k1_pay12_apply (v2 : Vec Ideal S1x16x256 .i32) (v27 : Vec Ideal S19x256 .f32) (r : Fin 16) (q : Fin 256) (c : Fin 256) :
    k1_pay12 (F := Ideal) v2 v27 (ix2 (pix r q) c) = targetAt v27 (v2 (ix3 0 r q)) c := by
  unfold k1_pay12
  refine (Cert.Lib.matmul_plain_apply dot_S4096x19_S19x256_S4096x256_1_0_0_1_n_n rfl rfl rfl rfl rfl rfl none _ _
    (pix r q) c).trans ?_
  unfold targetAt
  refine Finset.sum_congr rfl fun k _ => ?_
  rw [truncf_apply, truncf_apply, shapeCast_self, k1_pay11_apply]

/-- The row sum of the one-hot rows against the row of validity flags at pixel `(r, q)`: the flag the pixel's label
    selects. -/
theorem k1_pay13_apply (v2 : Vec Ideal S1x16x256 .i32) (v32 : Vec Ideal S1x19 .f32) (r : Fin 16) (q : Fin 256) :
    k1_pay13 (F := Ideal) v2 v32 (ix1 (pix r q)) = pvAt v32 (v2 (ix3 0 r q)) := by
  unfold k1_pay13
  refine (Ideal.multiReduction_add_single _ 0x00000000#32 reduces_S4096x19_S4096 (.inl rfl) rfl (ix1 (pix r q))).trans ?_
  unfold pvAt
  refine Finset.sum_congr rfl fun (k : Fin 19) _ => ?_
  rw [lift_row, mulf_apply, k1_pay11_apply, shapeCast_self, bcast_row]

end Cert.PKD

end
-- ==== Proof.KPixB.lean ====
/-
  The second body, output by output, at a pixel of the tile: the similarity, the weighted loss, the weighted validity and
  the validity, as the per-pixel formulas of the specification over the tile's blocks.
-/
import proofs.«410761_j78709570667268_3_alg».proof.Proof.Gen.KernelIdeal.Frame
import proofs.«410761_j78709570667268_3_alg».proof.Proof.Spec
import proofs.«410761_j78709570667268_3_alg».proof.Proof.KPixA
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.PKD

open Idealize.ShloMosaic Idealize.ShloMosaic.ValueIdx Idealize.ShloMosaic.TcCoe Idealize.SL.Sem
open Cert.KernelIdeal Cert.KernelIdeal.Gen

/-! ## The whole-block rectangles' offsets are zero -/

theorem zeros2 : (![0, 0] : Fin 2 → Nat) = fun _ => 0 :=
  funext fun a => match a with | ⟨0, _⟩ => rfl | ⟨1, _⟩ => rfl

theorem zeros3 : (![0, 0, 0] : Fin 3 → Nat) = fun _ => 0 :=
  funext fun a => match a with | ⟨0, _⟩ => rfl | ⟨1, _⟩ => rfl | ⟨2, _⟩ => rfl

theorem zeros4 : (![0, 0, 0, 0] : Fin 4 → Nat) = fun _ => 0 :=
  funext fun a => match a with | ⟨0, _⟩ => rfl | ⟨1, _⟩ => rfl | ⟨2, _⟩ => rfl | ⟨3, _⟩ => rfl

/-! ## Reshapes between the tile's [16, 256] pixels and their row-major list of 4096 -/

/-- A list of 4096 values cast to [16, 256] and then to [1, 16, 256] reads, at (0, r, q), the list at pixel (r, q). -/
theorem unflat_apply {α : Type} (x : S4096.Idx → α) (r : Fin 16) (q : Fin 256) :
    shapeCast S1x16x256 (shapeCast S16x256 x shapeCasts_S4096_S16x256) shapeCasts_S16x256_S1x16x256 (ix3 0 r q)
      = x (ix1 (pix r q)) := by
  refine (shapeCast_ab_1ab_apply _ _ 0 r q).trans ?_
  exact shapeCast_apply _ _ _ _ (by rw [Shape.rowMajor_val_one, Shape.rowMajor_val_two]; rfl)

/-- A [16, 256] array cast to a list of 4096 reads, at pixel (r, q), the array at (r, q). -/
theorem flat_apply {α : Type} (x : S16x256.Idx → α) (r : Fin 16) (q : Fin 256) :
    shapeCast S4096 x shapeCasts_S16x256_S4096 (ix1 (pix r q)) = x (ix2 r q) :=
  shapeCast_apply _ _ _ _ (by rw [Shape.rowMajor_val_one, Shape.rowMajor_val_two]; rfl)

/-- The label block without its unit axis. -/
theorem k1_pay8_apply (v2 : Vec Ideal S1x16x256 .i32) (r : Fin 16) (q : Fin 256) :
    k1_pay8 (F := Ideal) v2 (ix2 r q) = v2 (ix3 0 r q) :=
  shapeCast_1ab_ab_apply _ _ r q

/-- The weight block without its two unit axes. -/
theorem k1_pay9_apply (v4 : Vec Ideal S1x1x16x256 .f32) (r : Fin 16) (q : Fin 256) :
    k1_pay9 (F := Ideal) v4 (ix2 r q) = v4 (ix4 0 0 r q) :=
  shapeCast_apply _ _ _ _ (by
    rw [Shape.rowMajor_val_four, Shape.rowMajor_val_two]
    show ((0 * 1 + 0) * 16 + r.val) * 256 + q.val = r.val * 256 + q.val
    omega)

/-- The weights as a list of 4096. -/
theorem k1_pay3_apply (v5 : FVec Ideal S16x256 .f32) (r : Fin 16) (q : Fin 256) :
    k1_pay3 v5 (ix1 (pix r q)) = v5 (ix2 r q) :=
  flat_apply v5 r q

/-! ## The not-ignore flag -/

/-- The flag "the word is not 255" widened and read as a number: 0 on the ignore label, 1 elsewhere. -/
theorem flag_eq_keep (w : BitVec 32) :
    (FloatOps.sitofp (F := Ideal) .f32 ((IntOp.cmpi .ne w 255#32).setWidth 32) : EReal) = keep w := by
  have e : IntOp.cmpi .ne w 255#32 = if w = 255#32 then 0#1 else 1#1 := by
    by_cases h : w = 255#32
    · subst h; rfl
    · rw [if_neg h]
      show BitVec.ofBool (w != 255#32) = 1#1
      rw [bne_iff_ne.2 h]
      rfl
  rw [e]
  unfold keep
  by_cases h : w = 255#32
  · rw [if_pos h, if_pos h]
    show ((((0#1 : BitVec 1).setWidth 32).toInt : ℝ) : EReal) = 0
    rw [show ((0#1 : BitVec 1).setWidth 32).toInt = 0 by decide]
    simp
  · rw [if_neg h, if_neg h]
    show ((((1#1 : BitVec 1).setWidth 32).toInt : ℝ) : EReal) = 1
    rw [show ((1#1 : BitVec 1).setWidth 32).toInt = 1 by decide]
    simp

/-- The validity list at a pixel: the flag times the selected prototype flag's list entry. -/
theorem k1_pay1_apply (v3 : IVec S16x256 32) (v36 : FVec Ideal S4096 .f32) (r : Fin 16) (q : Fin 256) :
    k1_pay1 v3 v36 (ix1 (pix r q)) = keep (v3 (ix2 r q)) * v36 (ix1 (pix r q)) := by
  dsimp only [k1_pay1]
  rw [mulf_apply, flat_apply]
  exact congrArg (· * v36 (ix1 (pix r q))) (flag_eq_keep (v3 (ix2 r q)))

/-! ## Row sums of a product -/

/-- The index a row reduction inserts: row p, column c. -/
theorem lift_row_chan (p : Fin 4096) (c : Fin 256) :
    reduces_S4096x256_S4096.lift (ix1 p) c = ix2 p c := by
  funext a; apply Fin.ext
  match a with
  | ⟨0, _⟩ => rfl
  | ⟨1, _⟩ => rfl

/-- A row reduction of a product of two [4096, 256] arrays, at row p, is the sum over the 256 columns. -/
theorem row_sum_apply (a b : FVec Ideal S4096x256 .f32) (hφ : FKind.Formats .f32)
    (hacc : (0x00000000#32 : BitVec 32) = FKind.add.neutral .f32 hφ) (p : Fin 4096) :
    multiReduction .add [1] S4096 (mulf a b) 0x00000000#32 reduces_S4096x256_S4096 hφ hacc (ix1 p)
      = ∑ c : Fin 256, a (ix2 p c) * b (ix2 p c) := by
  refine (Ideal.multiReduction_add_single (mulf a b) _ reduces_S4096x256_S4096 hφ hacc (ix1 p)).trans ?_
  show ∑ c : Fin 256, mulf a b (reduces_S4096x256_S4096.lift (ix1 p) c) = _
  refine Finset.sum_congr rfl fun c _ => ?_
  rw [lift_row_chan, mulf_apply]

theorem k1_pay2_apply (v15 v31 : FVec Ideal S4096x256 .f32) (p : Fin 4096) :
    k1_pay2 v15 v31 (ix1 p) = ∑ c : Fin 256, v15 (ix2 p c) * v31 (ix2 p c) := by
  dsimp only [k1_pay2]
  exact row_sum_apply v15 v31 _ _ p

/-! ## The normalized feature rows -/

/-- The feature block with pixels as rows: [1, 256, 16, 256] without its unit axis, channels moved last, pixels
    listed row-major; at (pixel (r, q), channel c) it reads the block at (0, c, r, q). -/
theorem feat_rows_apply (v0 : Vec Ideal S1x256x16x256 .f32) (r : Fin 16) (q : Fin 256) (c : Fin 256) :
    shapeCast S4096x256
        (transpose S16x256x256 [1, 2, 0] (shapeCast S256x16x256 v0 shapeCasts_S1x256x16x256_S256x16x256)
          transposes_S256x16x256_p1_2_0_S16x256x256)
        shapeCasts_S16x256x256_S4096x256 (ix2 (pix r q) c)
      = v0 (ix4 0 c r q) := by
  refine (shapeCast_apply _ _ _ (ix3 r q c) (by
    rw [Shape.rowMajor_val_three, Shape.rowMajor_val_two]; rfl)).trans ?_
  refine (transpose_apply _ _ _ _ (ix3 c r q) (fun b => match b with | ⟨0, _⟩ => rfl | ⟨1, _⟩ => rfl | ⟨2, _⟩ => rfl)).trans ?_
  exact shapeCast_1abc_abc_apply _ _ c r q

/-- A list of 4096 values as a column, broadcast along 256 columns: at (p, c) it reads the list at p. -/
theorem col_bcast_apply {α : Type} (x : S4096.Idx → α) (p : Fin 4096) (c : Fin 256) :
    broadcastTo S4096x256 (shapeCast S4096x1 x shapeCasts_S4096_S4096x1) broadcasts_S4096x1_S4096x256 (ix2 p c)
      = x (ix1 p) := by
  refine (broadcastTo_apply _ _ _ (ix2 p 0) (fun a => match a with | ⟨0, _⟩ => rfl | ⟨1, _⟩ => rfl)).trans ?_
  exact shapeCast_apply _ _ _ _ (by
    rw [Shape.rowMajor_val_one, Shape.rowMajor_val_two]
    show p.val = p.val * 1 + 0
    omega)

/-- Each pixel's feature row divided by its clamped norm. -/
theorem k1_pay10_apply (v0 : Vec Ideal S1x256x16x256 .f32) (r : Fin 16) (q : Fin 256) (c : Fin 256) :
    k1_pay10 (F := Ideal) v0 (ix2 (pix r q) c)
      = Ideal.div (v0 (ix4 0 c r q))
          (max (Ideal.sqrt (∑ c' : Fin 256, v0 (ix4 0 c' r q) * v0 (ix4 0 c' r q))) eps12) := by
  dsimp only [k1_pay10]
  rw [divf_apply, col_bcast_apply, feat_rows_apply]
  show Ideal.div _ (max (Ideal.sqrt (multiReduction (F := Ideal) (φ := .f32) .add [1] S4096 _ _ _ _ _ (ix1 (pix r q)))) eps12) = _
  refine congrArg (fun s => Ideal.div (v0 (ix4 0 c r q)) (max (Ideal.sqrt s) eps12))
    ((row_sum_apply _ _ _ _ (pix r q)).trans (Finset.sum_congr rfl fun c' _ => ?_))
  rw [feat_rows_apply]

/-! ## The four outputs at a pixel -/

theorem out1_5_apply (x0 : Vec Ideal S1x256x16x256 .f32) (x1 : Vec Ideal S1x16x256 .i32) (x2 : Vec Ideal S1x1x16x256 .f32)
    (x3 : Vec Ideal S19x256 .f32) (x4 : Vec Ideal S1x19 .f32) (r : Fin 16) (q : Fin 256) :
    out1_5 (F := Ideal) x0 x1 x2 x3 x4 (ix3 0 r q) = simPix (fun c => x0 (ix4 0 c r q)) (x1 (ix3 0 r q)) x3 := by
  unfold out1_5
  rw [View.canon_unit_zero zeros3]
  simp only [View.ld_unit_zero (S := S1x256x16x256) zeros4, View.ld_unit_zero (S := S1x16x256) zeros3,
    View.ld_unit_zero (S := S19x256) zeros2]
  dsimp only [k1_pay4]
  rw [unflat_apply, k1_pay2_apply]
  unfold simPix
  refine Finset.sum_congr rfl fun c _ => ?_
  rw [k1_pay10_apply, k1_pay12_apply]

theorem out1_6_apply (x0 : Vec Ideal S1x256x16x256 .f32) (x1 : Vec Ideal S1x16x256 .i32) (x2 : Vec Ideal S1x1x16x256 .f32)
    (x3 : Vec Ideal S19x256 .f32) (x4 : Vec Ideal S1x19 .f32) (r : Fin 16) (q : Fin 256) :
    out1_6 (F := Ideal) x0 x1 x2 x3 x4 (ix3 0 r q)
      = wlossPix (fun c => x0 (ix4 0 c r q)) (x1 (ix3 0 r q)) (x2 (ix4 0 0 r q)) x3 x4 := by
  unfold out1_6
  rw [View.canon_unit_zero zeros3]
  simp only [View.ld_unit_zero (S := S1x256x16x256) zeros4, View.ld_unit_zero (S := S1x1x16x256) zeros4,
    View.ld_unit_zero (S := S1x16x256) zeros3, View.ld_unit_zero (S := S19x256) zeros2,
    View.ld_unit_zero (S := S1x19) zeros2]
  dsimp only [k1_pay5]
  rw [unflat_apply, mulf_apply, mulf_apply, subf_apply, broadcast_apply, k1_pay2_apply, k1_pay1_apply, k1_pay3_apply,
    k1_pay8_apply, k1_pay9_apply, k1_pay13_apply]
  unfold wlossPix validPix simPix
  show (one32 - _) * _ * _ = _
  refine congrArg (fun s => (one32 - s) * _ * _) (Finset.sum_congr rfl fun c _ => ?_)
  rw [k1_pay10_apply, k1_pay12_apply]

theorem out1_7_apply (x0 : Vec Ideal S1x256x16x256 .f32) (x1 : Vec Ideal S1x16x256 .i32) (x2 : Vec Ideal S1x1x16x256 .f32)
    (x3 : Vec Ideal S19x256 .f32) (x4 : Vec Ideal S1x19 .f32) (r : Fin 16) (q : Fin 256) :
    out1_7 (F := Ideal) x0 x1 x2 x3 x4 (ix3 0 r q) = vswtPix (x1 (ix3 0 r q)) (x2 (ix4 0 0 r q)) x4 := by
  unfold out1_7
  rw [View.canon_unit_zero zeros3]
  simp only [View.ld_unit_zero (S := S1x1x16x256) zeros4, View.ld_unit_zero (S := S1x16x256) zeros3,
    View.ld_unit_zero (S := S1x19) zeros2]
  dsimp only [k1_pay6]
  rw [unflat_apply, mulf_apply, k1_pay1_apply, k1_pay3_apply, k1_pay8_apply, k1_pay9_apply, k1_pay13_apply]
  rfl

theorem out1_8_apply (x0 : Vec Ideal S1x256x16x256 .f32) (x1 : Vec Ideal S1x16x256 .i32) (x2 : Vec Ideal S1x1x16x256 .f32)
    (x3 : Vec Ideal S19x256 .f32) (x4 : Vec Ideal S1x19 .f32) (r : Fin 16) (q : Fin 256) :
    out1_8 (F := Ideal) x0 x1 x2 x3 x4 (ix3 0 r q) = validPix (x1 (ix3 0 r q)) x4 := by
  unfold out1_8
  rw [View.canon_unit_zero zeros3]
  simp only [View.ld_unit_zero (S := S1x16x256) zeros3, View.ld_unit_zero (S := S1x19) zeros2]
  dsimp only [k1_pay7]
  rw [unflat_apply, k1_pay1_apply, k1_pay8_apply, k1_pay13_apply]
  rfl

end Cert.PKD

end
-- ==== Proof.KRegion1.lean ====
/-
  The second region's four output arrays when it ends: the per-pixel maps of the specification, over the arrays the region
  finds.
-/
import proofs.«410761_j78709570667268_3_alg».proof.Proof.Gen.KernelIdeal.Frame
import proofs.«410761_j78709570667268_3_alg».proof.Proof.Spec
import proofs.«410761_j78709570667268_3_alg».proof.Proof.KPixB
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.PKD

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

namespace Region1

section
variable (V : (c : Dev nD) → (b : Ref sig .tc) → Buf (Elt Ideal) ((c : Thread nD τ).loc b))

/-- The second region's grid has 64 points. -/
theorem t_lt (t : Fin cfg1.N) : t.val < 64 := by
  have h := t.isLt
  have e : cfg1.N = 64 := N_1
  omega

/-- The batch element point `t` works on. -/
def batchOf (t : Fin cfg1.N) : Fin 8 := ⟨t.val / 8, by have := t_lt t; omega⟩

/-- The array's row that row `r` of point `t`'s tile is. -/
def rowOf (t : Fin cfg1.N) (r : Fin 16) : Fin 128 := ⟨t.val % 8 * 16 + r.val, by have := r.isLt; omega⟩

/-- The point whose tile holds row `h` of batch element `b`. -/
def pointOf (b : Fin 8) (h : Fin 128) : Fin cfg1.N :=
  ⟨b.val * 8 + h.val / 16, by have e : cfg1.N = 64 := N_1; have := b.isLt; have := h.isLt; omega⟩

/-- The index maps over the grid: point `t = b * 8 + h` reads and writes tile `h` of batch element `b`; the table and
    the validity row are whole. -/
theorem idx_facts1 : ∀ t : Fin cfg1.N,
    win1_0.index t (0 : Fin 4) = t.val / 8 ∧ win1_0.index t (1 : Fin 4) = 0 ∧ win1_0.index t (2 : Fin 4) = t.val % 8 ∧ win1_0.index t (3 : Fin 4) = 0
    ∧ win1_1.index t (0 : Fin 3) = t.val / 8 ∧ win1_1.index t (1 : Fin 3) = t.val % 8 ∧ win1_1.index t (2 : Fin 3) = 0
    ∧ win1_2.index t (0 : Fin 4) = t.val / 8 ∧ win1_2.index t (1 : Fin 4) = 0 ∧ win1_2.index t (2 : Fin 4) = t.val % 8 ∧ win1_2.index t (3 : Fin 4) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The feature tile of point `t` is rows `rowOf t ·` of batch element `batchOf t`, every channel. -/
theorem blk0_apply (c : Dev nD) (t : Fin cfg1.N) (cc : Fin 256) (r : Fin 16) (q : Fin 256) :
    (iblk1 V c 0 t : Vec Ideal S1x256x16x256 .f32) (ix4 0 cc r q)
      = (V c main_arg0 : S8x256x128x256.Idx → EReal) (ix4 (batchOf t) cc (rowOf t r) q) := by
  obtain ⟨e0, e1, e2, e3, -⟩ := idx_facts1 t
  unfold iblk1
  rw [View.read_apply]
  show V c main_arg0 _ = V c main_arg0 _
  congr 1
  funext a
  apply Fin.ext
  match a with
  | ⟨0, _⟩ => show win1_0.index t 0 * 1 + 1 * 0 = t.val / 8; omega
  | ⟨1, _⟩ => show win1_0.index t 1 * 256 + 1 * cc.val = cc.val; omega
  | ⟨2, _⟩ => show win1_0.index t 2 * 16 + 1 * r.val = t.val % 8 * 16 + r.val; omega
  | ⟨3, _⟩ => show win1_0.index t 3 * 256 + 1 * q.val = q.val; omega

/-- The label tile of point `t`. -/
theorem blk1_apply (c : Dev nD) (t : Fin cfg1.N) (r : Fin 16) (q : Fin 256) :
    (iblk1 V c 1 t : Vec Ideal S1x16x256 .i32) (ix3 0 r q)
      = (V c main_arg2 : S8x128x256.Idx → BitVec 32) (ix3 (batchOf t) (rowOf t r) q) := by
  obtain ⟨-, -, -, -, e0, e1, e2, -⟩ := idx_facts1 t
  unfold iblk1
  rw [View.read_apply]
  show V c main_arg2 _ = V c main_arg2 _
  congr 1
  funext a
  apply Fin.ext
  match a with
  | ⟨0, _⟩ => show win1_1.index t 0 * 1 + 1 * 0 = t.val / 8; omega
  | ⟨1, _⟩ => show win1_1.index t 1 * 16 + 1 * r.val = t.val % 8 * 16 + r.val; omega
  | ⟨2, _⟩ => show win1_1.index t 2 * 256 + 1 * q.val = q.val; omega

/-- The weight tile of point `t`. -/
theorem blk2_apply (c : Dev nD) (t : Fin cfg1.N) (r : Fin 16) (q : Fin 256) :
    (iblk1 V c 2 t : Vec Ideal S1x1x16x256 .f32) (ix4 0 0 r q)
      = (V c main_arg3 : S8x1x128x256.Idx → EReal) (ix4 (batchOf t) 0 (rowOf t r) q) := by
  obtain ⟨-, -, -, -, -, -, -, e0, e1, e2, e3, -⟩ := idx_facts1 t
  unfold iblk1
  rw [View.read_apply]
  show V c main_arg3 _ = V c main_arg3 _
  congr 1
  funext a
  apply Fin.ext
  match a with
  | ⟨0, _⟩ => show win1_2.index t 0 * 1 + 1 * 0 = t.val / 8; omega
  | ⟨1, _⟩ => show win1_2.index t 1 * 1 + 1 * 0 = 0; omega
  | ⟨2, _⟩ => show win1_2.index t 2 * 16 + 1 * r.val = t.val % 8 * 16 + r.val; omega
  | ⟨3, _⟩ => show win1_2.index t 3 * 256 + 1 * q.val = q.val; omega

/-- The prototype table's block is the table. -/
theorem blk3_eq (c : Dev nD) (t : Fin cfg1.N) :
    (iblk1 V c 3 t : Vec Ideal S19x256 .f32) = (V c main_v17 : S19x256.Idx → EReal) := by
  obtain ⟨-, -, -, -, -, -, -, -, -, -, -, e0, e1, -⟩ := idx_facts1 t
  funext y
  unfold iblk1
  rw [View.read_apply]
  show V c main_v17 _ = V c main_v17 _
  congr 1
  funext a
  apply Fin.ext
  match a with
  | ⟨0, _⟩ => show win1_3.index t 0 * 19 + 1 * (y 0).val = (y 0).val; omega
  | ⟨1, _⟩ => show win1_3.index t 1 * 256 + 1 * (y 1).val = (y 1).val; omega

/-- The validity row's block is the row. -/
theorem blk4_eq (c : Dev nD) (t : Fin cfg1.N) :
    (iblk1 V c 4 t : Vec Ideal S1x19 .f32) = (V c main_v22 : S1x19.Idx → EReal) := by
  obtain ⟨-, -, -, -, -, -, -, -, -, -, -, -, -, e0, e1⟩ := idx_facts1 t
  funext y
  unfold iblk1
  rw [View.read_apply]
  show V c main_v22 _ = V c main_v22 _
  congr 1
  funext a
  apply Fin.ext
  match a with
  | ⟨0, _⟩ => show win1_4.index t 0 * 1 + 1 * (y 0).val = (y 0).val; omega
  | ⟨1, _⟩ => show win1_4.index t 1 * 19 + 1 * (y 1).val = (y 1).val; omega

/-- Output window 5's index map over the grid. -/
theorem idx_out5 : ∀ t : Fin cfg1.N,
    win1_5.index t (0 : Fin 3) = t.val / 8 ∧ win1_5.index t (1 : Fin 3) = t.val % 8 ∧ win1_5.index t (2 : Fin 3) = 0 :=
  (by decide +kernel : ∀ t : Fin grid1.N, _)

/-- Where pixel `(r, q)` of point `t`'s tile lies in output array 5. -/
theorem emb5 (t : Fin cfg1.N) (r : Fin 16) (q : Fin 256) :
    (((cfg1.win 5).blk t).view.emb (ix3 0 r q) : S8x128x256.Idx) = ix3 (batchOf t) (rowOf t r) q := by
  obtain ⟨e0, e1, e2⟩ := idx_out5 t
  funext a
  apply Fin.ext
  match a with
  | ⟨0, _⟩ => show win1_5.index t 0 * 1 + 1 * 0 = t.val / 8; omega
  | ⟨1, _⟩ => show win1_5.index t 1 * 16 + 1 * r.val = t.val % 8 * 16 + r.val; omega
  | ⟨2, _⟩ => show win1_5.index t 2 * 256 + 1 * q.val = q.val; omega

/-- An index of output array 5 is in point `t`'s block iff each coordinate is in the block's range on its axis. -/
theorem mem_blk5 (t : Fin cfg1.N) (i : S8x128x256.Idx) :
    i ∈ ((cfg1.win 5).blk t).view.set ↔ ∀ a : Fin 3, win1_5.index t a * S1x16x256.size a ≤ (i a).val
      ∧ (i a).val < win1_5.index t a * S1x16x256.size a + S1x16x256.size a := by
  show i ∈ ((View.whole main_v23_0).slice (win1_5.rect t)).set ↔ _
  rw [View.set_slice_whole, Rect.mem_set_unit]
  exact Iff.rfl

/-- Every index of output array 5 is in the block of the point that works on its row's tile. -/
theorem cover5 (i : S8x128x256.Idx) :
    ∃ t : Fin cfg1.N, (cfg1.win 5).flush t = true ∧ i ∈ ((cfg1.win 5).blk t).view.set := by
  refine ⟨pointOf (i 0) (i 1), flush1_5 _, ?_⟩
  rw [mem_blk5]
  obtain ⟨e0, e1, e2⟩ := idx_out5 (pointOf (i 0) (i 1))
  have hv : (pointOf (i 0) (i 1)).val = (i 0).val * 8 + (i 1).val / 16 := rfl
  have h0 : (i 0).val < 8 := (i 0).isLt
  have h1 : (i 1).val < 128 := (i 1).isLt
  have h2 : (i 2).val < 256 := (i 2).isLt
  intro a
  match a with
  | ⟨0, _⟩ => show win1_5.index _ 0 * 1 ≤ (i 0).val ∧ (i 0).val < win1_5.index _ 0 * 1 + 1; omega
  | ⟨1, _⟩ => show win1_5.index _ 1 * 16 ≤ (i 1).val ∧ (i 1).val < win1_5.index _ 1 * 16 + 16; omega
  | ⟨2, _⟩ => show win1_5.index _ 2 * 256 ≤ (i 2).val ∧ (i 2).val < win1_5.index _ 2 * 256 + 256; omega

/-- Output window 6's index map over the grid. -/
theorem idx_out6 : ∀ t : Fin cfg1.N,
    win1_6.index t (0 : Fin 3) = t.val / 8 ∧ win1_6.index t (1 : Fin 3) = t.val % 8 ∧ win1_6.index t (2 : Fin 3) = 0 :=
  (by decide +kernel : ∀ t : Fin grid1.N, _)

/-- Where pixel `(r, q)` of point `t`'s tile lies in output array 6. -/
theorem emb6 (t : Fin cfg1.N) (r : Fin 16) (q : Fin 256) :
    (((cfg1.win 6).blk t).view.emb (ix3 0 r q) : S8x128x256.Idx) = ix3 (batchOf t) (rowOf t r) q := by
  obtain ⟨e0, e1, e2⟩ := idx_out6 t
  funext a
  apply Fin.ext
  match a with
  | ⟨0, _⟩ => show win1_6.index t 0 * 1 + 1 * 0 = t.val / 8; omega
  | ⟨1, _⟩ => show win1_6.index t 1 * 16 + 1 * r.val = t.val % 8 * 16 + r.val; omega
  | ⟨2, _⟩ => show win1_6.index t 2 * 256 + 1 * q.val = q.val; omega

/-- An index of output array 6 is in point `t`'s block iff each coordinate is in the block's range on its axis. -/
theorem mem_blk6 (t : Fin cfg1.N) (i : S8x128x256.Idx) :
    i ∈ ((cfg1.win 6).blk t).view.set ↔ ∀ a : Fin 3, win1_6.index t a * S1x16x256.size a ≤ (i a).val
      ∧ (i a).val < win1_6.index t a * S1x16x256.size a + S1x16x256.size a := by
  show i ∈ ((View.whole main_v23_1).slice (win1_6.rect t)).set ↔ _
  rw [View.set_slice_whole, Rect.mem_set_unit]
  exact Iff.rfl

/-- Every index of output array 6 is in the block of the point that works on its row's tile. -/
theorem cover6 (i : S8x128x256.Idx) :
    ∃ t : Fin cfg1.N, (cfg1.win 6).flush t = true ∧ i ∈ ((cfg1.win 6).blk t).view.set := by
  refine ⟨pointOf (i 0) (i 1), flush1_6 _, ?_⟩
  rw [mem_blk6]
  obtain ⟨e0, e1, e2⟩ := idx_out6 (pointOf (i 0) (i 1))
  have hv : (pointOf (i 0) (i 1)).val = (i 0).val * 8 + (i 1).val / 16 := rfl
  have h0 : (i 0).val < 8 := (i 0).isLt
  have h1 : (i 1).val < 128 := (i 1).isLt
  have h2 : (i 2).val < 256 := (i 2).isLt
  intro a
  match a with
  | ⟨0, _⟩ => show win1_6.index _ 0 * 1 ≤ (i 0).val ∧ (i 0).val < win1_6.index _ 0 * 1 + 1; omega
  | ⟨1, _⟩ => show win1_6.index _ 1 * 16 ≤ (i 1).val ∧ (i 1).val < win1_6.index _ 1 * 16 + 16; omega
  | ⟨2, _⟩ => show win1_6.index _ 2 * 256 ≤ (i 2).val ∧ (i 2).val < win1_6.index _ 2 * 256 + 256; omega

/-- Output window 7's index map over the grid. -/
theorem idx_out7 : ∀ t : Fin cfg1.N,
    win1_7.index t (0 : Fin 3) = t.val / 8 ∧ win1_7.index t (1 : Fin 3) = t.val % 8 ∧ win1_7.index t (2 : Fin 3) = 0 :=
  (by decide +kernel : ∀ t : Fin grid1.N, _)

/-- Where pixel `(r, q)` of point `t`'s tile lies in output array 7. -/
theorem emb7 (t : Fin cfg1.N) (r : Fin 16) (q : Fin 256) :
    (((cfg1.win 7).blk t).view.emb (ix3 0 r q) : S8x128x256.Idx) = ix3 (batchOf t) (rowOf t r) q := by
  obtain ⟨e0, e1, e2⟩ := idx_out7 t
  funext a
  apply Fin.ext
  match a with
  | ⟨0, _⟩ => show win1_7.index t 0 * 1 + 1 * 0 = t.val / 8; omega
  | ⟨1, _⟩ => show win1_7.index t 1 * 16 + 1 * r.val = t.val % 8 * 16 + r.val; omega
  | ⟨2, _⟩ => show win1_7.index t 2 * 256 + 1 * q.val = q.val; omega

/-- An index of output array 7 is in point `t`'s block iff each coordinate is in the block's range on its axis. -/
theorem mem_blk7 (t : Fin cfg1.N) (i : S8x128x256.Idx) :
    i ∈ ((cfg1.win 7).blk t).view.set ↔ ∀ a : Fin 3, win1_7.index t a * S1x16x256.size a ≤ (i a).val
      ∧ (i a).val < win1_7.index t a * S1x16x256.size a + S1x16x256.size a := by
  show i ∈ ((View.whole main_v23_2).slice (win1_7.rect t)).set ↔ _
  rw [View.set_slice_whole, Rect.mem_set_unit]
  exact Iff.rfl

/-- Every index of output array 7 is in the block of the point that works on its row's tile. -/
theorem cover7 (i : S8x128x256.Idx) :
    ∃ t : Fin cfg1.N, (cfg1.win 7).flush t = true ∧ i ∈ ((cfg1.win 7).blk t).view.set := by
  refine ⟨pointOf (i 0) (i 1), flush1_7 _, ?_⟩
  rw [mem_blk7]
  obtain ⟨e0, e1, e2⟩ := idx_out7 (pointOf (i 0) (i 1))
  have hv : (pointOf (i 0) (i 1)).val = (i 0).val * 8 + (i 1).val / 16 := rfl
  have h0 : (i 0).val < 8 := (i 0).isLt
  have h1 : (i 1).val < 128 := (i 1).isLt
  have h2 : (i 2).val < 256 := (i 2).isLt
  intro a
  match a with
  | ⟨0, _⟩ => show win1_7.index _ 0 * 1 ≤ (i 0).val ∧ (i 0).val < win1_7.index _ 0 * 1 + 1; omega
  | ⟨1, _⟩ => show win1_7.index _ 1 * 16 ≤ (i 1).val ∧ (i 1).val < win1_7.index _ 1 * 16 + 16; omega
  | ⟨2, _⟩ => show win1_7.index _ 2 * 256 ≤ (i 2).val ∧ (i 2).val < win1_7.index _ 2 * 256 + 256; omega

/-- Output window 8's index map over the grid. -/
theorem idx_out8 : ∀ t : Fin cfg1.N,
    win1_8.index t (0 : Fin 3) = t.val / 8 ∧ win1_8.index t (1 : Fin 3) = t.val % 8 ∧ win1_8.index t (2 : Fin 3) = 0 :=
  (by decide +kernel : ∀ t : Fin grid1.N, _)

/-- Where pixel `(r, q)` of point `t`'s tile lies in output array 8. -/
theorem emb8 (t : Fin cfg1.N) (r : Fin 16) (q : Fin 256) :
    (((cfg1.win 8).blk t).view.emb (ix3 0 r q) : S8x128x256.Idx) = ix3 (batchOf t) (rowOf t r) q := by
  obtain ⟨e0, e1, e2⟩ := idx_out8 t
  funext a
  apply Fin.ext
  match a with
  | ⟨0, _⟩ => show win1_8.index t 0 * 1 + 1 * 0 = t.val / 8; omega
  | ⟨1, _⟩ => show win1_8.index t 1 * 16 + 1 * r.val = t.val % 8 * 16 + r.val; omega
  | ⟨2, _⟩ => show win1_8.index t 2 * 256 + 1 * q.val = q.val; omega

/-- An index of output array 8 is in point `t`'s block iff each coordinate is in the block's range on its axis. -/
theorem mem_blk8 (t : Fin cfg1.N) (i : S8x128x256.Idx) :
    i ∈ ((cfg1.win 8).blk t).view.set ↔ ∀ a : Fin 3, win1_8.index t a * S1x16x256.size a ≤ (i a).val
      ∧ (i a).val < win1_8.index t a * S1x16x256.size a + S1x16x256.size a := by
  show i ∈ ((View.whole main_v23_3).slice (win1_8.rect t)).set ↔ _
  rw [View.set_slice_whole, Rect.mem_set_unit]
  exact Iff.rfl

/-- Every index of output array 8 is in the block of the point that works on its row's tile. -/
theorem cover8 (i : S8x128x256.Idx) :
    ∃ t : Fin cfg1.N, (cfg1.win 8).flush t = true ∧ i ∈ ((cfg1.win 8).blk t).view.set := by
  refine ⟨pointOf (i 0) (i 1), flush1_8 _, ?_⟩
  rw [mem_blk8]
  obtain ⟨e0, e1, e2⟩ := idx_out8 (pointOf (i 0) (i 1))
  have hv : (pointOf (i 0) (i 1)).val = (i 0).val * 8 + (i 1).val / 16 := rfl
  have h0 : (i 0).val < 8 := (i 0).isLt
  have h1 : (i 1).val < 128 := (i 1).isLt
  have h2 : (i 2).val < 256 := (i 2).isLt
  intro a
  match a with
  | ⟨0, _⟩ => show win1_8.index _ 0 * 1 ≤ (i 0).val ∧ (i 0).val < win1_8.index _ 0 * 1 + 1; omega
  | ⟨1, _⟩ => show win1_8.index _ 1 * 16 ≤ (i 1).val ∧ (i 1).val < win1_8.index _ 1 * 16 + 16; omega
  | ⟨2, _⟩ => show win1_8.index _ 2 * 256 ≤ (i 2).val ∧ (i 2).val < win1_8.index _ 2 * 256 + 256; omega

/-- What point `t` writes back to the similarity array is its block of the similarity map. -/
theorem flushed5_eq (c : Dev nD) (t : Fin cfg1.N) :
    (dat1 V c).flushed 5 t = ((cfg1.win 5).blk t).view.read (Elt Ideal)
      (simG (V c main_arg0) (V c main_arg2) (V c main_v17)) := by
  show (cfg1.win 5).cut (grid1.coords t) ((dat1 V c).after 5 t) = _
  rw [after1_5]
  funext y
  obtain ⟨z, r, q, rfl⟩ : ∃ (z : Fin 1) (r : Fin 16) (q : Fin 256), y = ix3 z r q := ⟨y 0, y 1, y 2, eq_ix3 y⟩
  obtain rfl : z = 0 := Subsingleton.elim _ _
  rw [View.read_apply, emb5]
  refine (out1_5_apply (iblk1 V c 0 t) (iblk1 V c 1 t) (iblk1 V c 2 t) (iblk1 V c 3 t) (iblk1 V c 4 t) r q).trans ?_
  have h0 : (fun cc => (iblk1 V c 0 t : Vec Ideal S1x256x16x256 .f32) (ix4 0 cc r q))
      = fun cc => (V c main_arg0 : S8x256x128x256.Idx → EReal) (ix4 (batchOf t) cc (rowOf t r) q) :=
    funext fun cc => blk0_apply V c t cc r q
  rw [h0, blk1_apply V c t r q, blk3_eq V c t]
  rfl

/-- So the similarity array ends holding the similarity map: every row's tile is some point's. -/
theorem final5 (c : Dev nD) : (dat1 V c).arrAt 5 cfg1.N = simG (V c main_arg0) (V c main_arg2) (V c main_v17) :=
  (dat1 V c).arrAt_eq_of_cover 5 (simG (V c main_arg0) (V c main_arg2) (V c main_v17)) (fun t _ => flushed5_eq V c t) cover5

/-- What point `t` writes back to the weighted-loss array is its block of the weighted-loss map. -/
theorem flushed6_eq (c : Dev nD) (t : Fin cfg1.N) :
    (dat1 V c).flushed 6 t = ((cfg1.win 6).blk t).view.read (Elt Ideal)
      (wlossG (V c main_arg0) (V c main_arg2) (V c main_arg3) (V c main_v17) (V c main_v22)) := by
  show (cfg1.win 6).cut (grid1.coords t) ((dat1 V c).after 6 t) = _
  rw [after1_6]
  funext y
  obtain ⟨z, r, q, rfl⟩ : ∃ (z : Fin 1) (r : Fin 16) (q : Fin 256), y = ix3 z r q := ⟨y 0, y 1, y 2, eq_ix3 y⟩
  obtain rfl : z = 0 := Subsingleton.elim _ _
  rw [View.read_apply, emb6]
  refine (out1_6_apply (iblk1 V c 0 t) (iblk1 V c 1 t) (iblk1 V c 2 t) (iblk1 V c 3 t) (iblk1 V c 4 t) r q).trans ?_
  have h0 : (fun cc => (iblk1 V c 0 t : Vec Ideal S1x256x16x256 .f32) (ix4 0 cc r q))
      = fun cc => (V c main_arg0 : S8x256x128x256.Idx → EReal) (ix4 (batchOf t) cc (rowOf t r) q) :=
    funext fun cc => blk0_apply V c t cc r q
  rw [h0, blk1_apply V c t r q, blk2_apply V c t r q, blk3_eq V c t, blk4_eq V c t]
  rfl

/-- So the weighted-loss array ends holding the weighted-loss map. -/
theorem final6 (c : Dev nD) : (dat1 V c).arrAt 6 cfg1.N
    = wlossG (V c main_arg0) (V c main_arg2) (V c main_arg3) (V c main_v17) (V c main_v22) :=
  (dat1 V c).arrAt_eq_of_cover 6 (wlossG (V c main_arg0) (V c main_arg2) (V c main_arg3) (V c main_v17) (V c main_v22))
    (fun t _ => flushed6_eq V c t) cover6

/-- What point `t` writes back to the weighted-validity array is its block of the weighted-validity map. -/
theorem flushed7_eq (c : Dev nD) (t : Fin cfg1.N) :
    (dat1 V c).flushed 7 t = ((cfg1.win 7).blk t).view.read (Elt Ideal)
      (vswtG (V c main_arg2) (V c main_arg3) (V c main_v22)) := by
  show (cfg1.win 7).cut (grid1.coords t) ((dat1 V c).after 7 t) = _
  rw [after1_7]
  funext y
  obtain ⟨z, r, q, rfl⟩ : ∃ (z : Fin 1) (r : Fin 16) (q : Fin 256), y = ix3 z r q := ⟨y 0, y 1, y 2, eq_ix3 y⟩
  obtain rfl : z = 0 := Subsingleton.elim _ _
  rw [View.read_apply, emb7]
  refine (out1_7_apply (iblk1 V c 0 t) (iblk1 V c 1 t) (iblk1 V c 2 t) (iblk1 V c 3 t) (iblk1 V c 4 t) r q).trans ?_
  rw [blk1_apply V c t r q, blk2_apply V c t r q, blk4_eq V c t]
  rfl

/-- So the weighted-validity array ends holding the weighted-validity map. -/
theorem final7 (c : Dev nD) : (dat1 V c).arrAt 7 cfg1.N = vswtG (V c main_arg2) (V c main_arg3) (V c main_v22) :=
  (dat1 V c).arrAt_eq_of_cover 7 (vswtG (V c main_arg2) (V c main_arg3) (V c main_v22)) (fun t _ => flushed7_eq V c t) cover7

/-- What point `t` writes back to the validity array is its block of the validity map. -/
theorem flushed8_eq (c : Dev nD) (t : Fin cfg1.N) :
    (dat1 V c).flushed 8 t = ((cfg1.win 8).blk t).view.read (Elt Ideal) (validG (V c main_arg2) (V c main_v22)) := by
  show (cfg1.win 8).cut (grid1.coords t) ((dat1 V c).after 8 t) = _
  rw [after1_8]
  funext y
  obtain ⟨z, r, q, rfl⟩ : ∃ (z : Fin 1) (r : Fin 16) (q : Fin 256), y = ix3 z r q := ⟨y 0, y 1, y 2, eq_ix3 y⟩
  obtain rfl : z = 0 := Subsingleton.elim _ _
  rw [View.read_apply, emb8]
  refine (out1_8_apply (iblk1 V c 0 t) (iblk1 V c 1 t) (iblk1 V c 2 t) (iblk1 V c 3 t) (iblk1 V c 4 t) r q).trans ?_
  rw [blk1_apply V c t r q, blk4_eq V c t]
  rfl

/-- So the validity array ends holding the validity map. -/
theorem final8 (c : Dev nD) : (dat1 V c).arrAt 8 cfg1.N = validG (V c main_arg2) (V c main_v22) :=
  (dat1 V c).arrAt_eq_of_cover 8 (validG (V c main_arg2) (V c main_v22)) (fun t _ => flushed8_eq V c t) cover8

end

end Region1

theorem W8_sim (c : Dev nD) : W8 (F := Ideal) m ρ c (Proc.devRef .tc main_v23_0)
    = simG (W7 m ρ c (Proc.devRef .tc main_arg0)) (W7 m ρ c (Proc.devRef .tc main_arg2)) (W7 m ρ c (Proc.devRef .tc main_v17)) :=
  (W8_arr m ρ c 5).trans (Region1.final5 (V7 m ρ) c)

theorem W8_wloss (c : Dev nD) : W8 (F := Ideal) m ρ c (Proc.devRef .tc main_v23_1)
    = wlossG (W7 m ρ c (Proc.devRef .tc main_arg0)) (W7 m ρ c (Proc.devRef .tc main_arg2)) (W7 m ρ c (Proc.devRef .tc main_arg3))
        (W7 m ρ c (Proc.devRef .tc main_v17)) (W7 m ρ c (Proc.devRef .tc main_v22)) :=
  (W8_arr m ρ c 6).trans (Region1.final6 (V7 m ρ) c)

theorem W8_vswt (c : Dev nD) : W8 (F := Ideal) m ρ c (Proc.devRef .tc main_v23_2)
    = vswtG (W7 m ρ c (Proc.devRef .tc main_arg2)) (W7 m ρ c (Proc.devRef .tc main_arg3)) (W7 m ρ c (Proc.devRef .tc main_v22)) :=
  (W8_arr m ρ c 7).trans (Region1.final7 (V7 m ρ) c)

theorem W8_valid (c : Dev nD) : W8 (F := Ideal) m ρ c (Proc.devRef .tc main_v23_3)
    = validG (W7 m ρ c (Proc.devRef .tc main_arg2)) (W7 m ρ c (Proc.devRef .tc main_v22)) :=
  (W8_arr m ρ c 8).trans (Region1.final8 (V7 m ρ) c)

end Cert.PKD

end
-- ==== Proof.ChainFacts.lean ====
/-
  Three facts about the shared host arithmetic: the per-batch class sums and counts of the specification, added over the
  batch axis, are the class sums and counts; and the validity row of floats is the validity bits read as numbers.
-/
import proofs.«410761_j78709570667268_3_alg».proof.Proof.Chains
import proofs.«410761_j78709570667268_3_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.PKD

open Idealize.ShloMosaic Idealize.ShloMosaic.ValueIdx Idealize.ShloMosaic.TcCoe Idealize.SL.Sem
open Cert.KernelIdeal Cert.KernelIdeal.Facts₀ Cert.KernelIdeal.Facts

/-- Adding the per-batch class sums over the batch axis gives the class sums: the initial value is zero and the rest is
    the sum over the eight batch elements. -/
theorem sumOf_sumsB (tf : SFeat.Idx → EReal) (mk : SMask.Idx → BitVec 32) :
    sumOf (F := Ideal) (sumsB tf mk) = sumsG tf mk := by
  funext j
  obtain ⟨k, c, rfl⟩ : ∃ (k : Fin 19) (c : Fin 256), j = ix2 k c := ⟨j 0, j 1, eq_ix2 j⟩
  unfold sumOf
  simp only [Host.reduceAdd, Ideal.hostReduceAdd_def]
  rw [Ideal.hostReduceAdd_single reducesTo_S8x19x256_S19x256_d0 (by decide)]
  show Ideal.ofBits .f32 0x00000000#32 + _ = _
  rw [Ideal.ofBits_zero_f32, zero_add]
  rfl

/-- The same for the counts, through the reshape of the one-row result to a vector. -/
theorem cntOf_cntB (mk : SMask.Idx → BitVec 32) :
    cntOf (F := Ideal) (cntB mk) = cntG mk := by
  funext j
  obtain ⟨k, rfl⟩ : ∃ (k : Fin 19), j = ix1 k := ⟨j 0, eq_ix1 j⟩
  unfold cntOf
  refine (shapeCast_apply _ shapeCasts_S1x19_S19 (ix1 k) (ix2 (0 : Fin 1) k) ?_).trans ?_
  · rw [Shape.rowMajor_val_two, Shape.rowMajor_val_one]
    show (0 : ℕ) * 19 + k.val = k.val
    omega
  simp only [Host.reduceAdd, Ideal.hostReduceAdd_def]
  rw [Ideal.hostReduceAdd_single reducesTo_S8x1x19_S1x19_d0 (by decide)]
  show Ideal.ofBits .f32 0x00000000#32 + _ = _
  rw [Ideal.ofBits_zero_f32, zero_add]
  rfl

/-- The validity row the second region reads is the validity bits read as the numbers 0 and 1. -/
theorem pvrowOf_eq (sums : FVec Ideal S19x256 .f32) (cnt : FVec Ideal S19 .f32) :
    pvrowOf (F := Ideal) sums cnt = rowOfBits (pvalidOf (F := Ideal) sums cnt) := by
  funext j
  unfold pvrowOf rowOfBits
  refine (broadcastInDim_apply ![1] bcast_S19_S1x19_1 _ j (ix1 (j 1)) (fun a => match a with
    | ⟨0, _⟩ => by
      show (j 1).val = if (19 : Nat) = 1 then 0 else (j 1).val
      rw [if_neg (by decide)])).trans ?_
  rfl

end Cert.PKD

end
-- ==== Proof.KValue.lean ====
/-
  The kernel's program read as values: every run ends with each result at its specification over the argument arrays —
  the class sums and counts, through the shared host arithmetic, into the prototypes; the per-pixel maps over those; the
  two scalars over the maps.
-/
import proofs.«410761_j78709570667268_3_alg».proof.Proof.KRun
import proofs.«410761_j78709570667268_3_alg».proof.Proof.KHost1
import proofs.«410761_j78709570667268_3_alg».proof.Proof.KHost2
import proofs.«410761_j78709570667268_3_alg».proof.Proof.KRegion0
import proofs.«410761_j78709570667268_3_alg».proof.Proof.KRegion1
import proofs.«410761_j78709570667268_3_alg».proof.Proof.ChainFacts
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.PKD

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- The class sums the host arithmetic starts from. -/
theorem kS (c : Dev nD) : sumOf (F := Ideal) (W1 m ρ c (Proc.devRef .tc main_v0_0)) = sumsG (m ((c : Thread nD τ).loc main_arg1)) (m ((c : Thread nD τ).loc main_arg2)) := by
  rw [W1_sums, sumOf_sumsB]

/-- The class counts it starts from. -/
theorem kC (c : Dev nD) : cntOf (F := Ideal) (W1 m ρ c (Proc.devRef .tc main_v0_1)) = cntG (m ((c : Thread nD τ).loc main_arg2)) := by
  rw [W1_counts, cntOf_cntB]

theorem kProto (c : Dev nD) : W7 (F := Ideal) m ρ c (Proc.devRef .tc main_v17) = protoOf (F := Ideal) (sumsG (m ((c : Thread nD τ).loc main_arg1)) (m ((c : Thread nD τ).loc main_arg2))) (cntG (m ((c : Thread nD τ).loc main_arg2))) := by
  rw [W7_proto, kS, kC]

theorem kPvrow (c : Dev nD) : W7 (F := Ideal) m ρ c (Proc.devRef .tc main_v22) = rowOfBits (pvalidOf (F := Ideal) (sumsG (m ((c : Thread nD τ).loc main_arg1)) (m ((c : Thread nD τ).loc main_arg2))) (cntG (m ((c : Thread nD τ).loc main_arg2)))) := by
  rw [W7_pvrow, kS, kC, pvrowOf_eq]

theorem kSim (c : Dev nD) : W8 (F := Ideal) m ρ c (Proc.devRef .tc main_v23_0) = simG (m ((c : Thread nD τ).loc main_arg0)) (m ((c : Thread nD τ).loc main_arg2)) (protoOf (F := Ideal) (sumsG (m ((c : Thread nD τ).loc main_arg1)) (m ((c : Thread nD τ).loc main_arg2))) (cntG (m ((c : Thread nD τ).loc main_arg2)))) := by
  rw [W8_sim, W7_arg0, W7_arg2, kProto]

theorem kWloss (c : Dev nD) : W8 (F := Ideal) m ρ c (Proc.devRef .tc main_v23_1)
    = wlossG (m ((c : Thread nD τ).loc main_arg0)) (m ((c : Thread nD τ).loc main_arg2)) (m ((c : Thread nD τ).loc main_arg3)) (protoOf (F := Ideal) (sumsG (m ((c : Thread nD τ).loc main_arg1)) (m ((c : Thread nD τ).loc main_arg2))) (cntG (m ((c : Thread nD τ).loc main_arg2)))) (rowOfBits (pvalidOf (F := Ideal) (sumsG (m ((c : Thread nD τ).loc main_arg1)) (m ((c : Thread nD τ).loc main_arg2))) (cntG (m ((c : Thread nD τ).loc main_arg2))))) := by
  rw [W8_wloss, W7_arg0, W7_arg2, W7_arg3, kProto, kPvrow]

theorem kVswt (c : Dev nD) : W8 (F := Ideal) m ρ c (Proc.devRef .tc main_v23_2) = vswtG (m ((c : Thread nD τ).loc main_arg2)) (m ((c : Thread nD τ).loc main_arg3)) (rowOfBits (pvalidOf (F := Ideal) (sumsG (m ((c : Thread nD τ).loc main_arg1)) (m ((c : Thread nD τ).loc main_arg2))) (cntG (m ((c : Thread nD τ).loc main_arg2))))) := by
  rw [W8_vswt, W7_arg2, W7_arg3, kPvrow]

theorem kValid (c : Dev nD) : W8 (F := Ideal) m ρ c (Proc.devRef .tc main_v23_3) = validG (m ((c : Thread nD τ).loc main_arg2)) (rowOfBits (pvalidOf (F := Ideal) (sumsG (m ((c : Thread nD τ).loc main_arg1)) (m ((c : Thread nD τ).loc main_arg2))) (cntG (m ((c : Thread nD τ).loc main_arg2))))) := by
  rw [W8_valid, W7_arg2, kPvrow]

/-- The kernel's program at the ideal instance: it runs, and ends with every result at its specification. -/
theorem kernel_values : θ_run (defs (F := Ideal)) (onTc (τ := τ) (main (F := Ideal))) ⟨m, fun _ => 0, ρ⟩ (fun r => ∀ c : Dev nD,
      r.2.mem ((c.tc : Thread nD τ).loc main_v27)
        = finalLossOf (F := Ideal) (wlossG (m ((c : Thread nD τ).loc main_arg0)) (m ((c : Thread nD τ).loc main_arg2)) (m ((c : Thread nD τ).loc main_arg3)) (protoOf (F := Ideal) (sumsG (m ((c : Thread nD τ).loc main_arg1)) (m ((c : Thread nD τ).loc main_arg2))) (cntG (m ((c : Thread nD τ).loc main_arg2)))) (rowOfBits (pvalidOf (F := Ideal) (sumsG (m ((c : Thread nD τ).loc main_arg1)) (m ((c : Thread nD τ).loc main_arg2))) (cntG (m ((c : Thread nD τ).loc main_arg2)))))) (vswtG (m ((c : Thread nD τ).loc main_arg2)) (m ((c : Thread nD τ).loc main_arg3)) (rowOfBits (pvalidOf (F := Ideal) (sumsG (m ((c : Thread nD τ).loc main_arg1)) (m ((c : Thread nD τ).loc main_arg2))) (cntG (m ((c : Thread nD τ).loc main_arg2))))))
      ∧ r.2.mem ((c.tc : Thread nD τ).loc main_v23_0) = simG (m ((c : Thread nD τ).loc main_arg0)) (m ((c : Thread nD τ).loc main_arg2)) (protoOf (F := Ideal) (sumsG (m ((c : Thread nD τ).loc main_arg1)) (m ((c : Thread nD τ).loc main_arg2))) (cntG (m ((c : Thread nD τ).loc main_arg2))))
      ∧ r.2.mem ((c.tc : Thread nD τ).loc main_v23_1) = wlossG (m ((c : Thread nD τ).loc main_arg0)) (m ((c : Thread nD τ).loc main_arg2)) (m ((c : Thread nD τ).loc main_arg3)) (protoOf (F := Ideal) (sumsG (m ((c : Thread nD τ).loc main_arg1)) (m ((c : Thread nD τ).loc main_arg2))) (cntG (m ((c : Thread nD τ).loc main_arg2)))) (rowOfBits (pvalidOf (F := Ideal) (sumsG (m ((c : Thread nD τ).loc main_arg1)) (m ((c : Thread nD τ).loc main_arg2))) (cntG (m ((c : Thread nD τ).loc main_arg2)))))
      ∧ r.2.mem ((c.tc : Thread nD τ).loc main_v32)
        = meanSimOf (F := Ideal) (simG (m ((c : Thread nD τ).loc main_arg0)) (m ((c : Thread nD τ).loc main_arg2)) (protoOf (F := Ideal) (sumsG (m ((c : Thread nD τ).loc main_arg1)) (m ((c : Thread nD τ).loc main_arg2))) (cntG (m ((c : Thread nD τ).loc main_arg2))))) (validG (m ((c : Thread nD τ).loc main_arg2)) (rowOfBits (pvalidOf (F := Ideal) (sumsG (m ((c : Thread nD τ).loc main_arg1)) (m ((c : Thread nD τ).loc main_arg2))) (cntG (m ((c : Thread nD τ).loc main_arg2))))))
      ∧ r.2.mem ((c.tc : Thread nD τ).loc main_v18) = pnormOf (F := Ideal) (sumsG (m ((c : Thread nD τ).loc main_arg1)) (m ((c : Thread nD τ).loc main_arg2))) (cntG (m ((c : Thread nD τ).loc main_arg2)))
      ∧ r.2.mem ((c.tc : Thread nD τ).loc main_v20) = pvalidOf (F := Ideal) (sumsG (m ((c : Thread nD τ).loc main_arg1)) (m ((c : Thread nD τ).loc main_arg2))) (cntG (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c => by
    obtain ⟨h0, h1, h2, h3, h4, h5, ha⟩ := h c
    refine ⟨h0.trans ?_, h1.trans ?_, h2.trans ?_, h3.trans ?_, h4.trans ?_, h5.trans ?_, ha⟩
    · rw [W9_final, kWloss, kVswt]
    · rw [W9_sim, kSim]
    · rw [W9_wloss, kWloss]
    · rw [W9_mean, kSim, kValid]
    · rw [W9_pnorm, W7_pnorm, kS, kC]
    · rw [W9_pvalid, W7_pvalid, kS, kC])
    (run_values (F := Ideal) m ρ)

end Cert.PKD

end
-- ==== Proof.RefChains.lean ====
/-
  The reference's host arithmetic is the shared one: its prototype table, norms and flags are the shared functions of
  its two scatter-adds, and its two scalars the shared functions of its per-pixel maps.
-/
import proofs.«410761_j78709570667268_3_alg».proof.Proof.RefRead
import proofs.«410761_j78709570667268_3_alg».proof.Proof.Chains
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.PKD

open Idealize.ShloMosaic Idealize.ShloMosaic.ValueIdx Idealize.ShloMosaic.TcCoe Idealize.SL.Sem
open Cert.ReferenceIdeal Cert.ReferenceIdeal.ReadP

variable {F : FTy → Type} [FloatOps F]

theorem ref_proto (x1 : (⟨S8x256x128x256, .f32⟩ : BufTy).Contents (Elt F)) (x2 : (⟨S8x128x256, .i32⟩ : BufTy).Contents (Elt F)) :
    val_main_v29 (F := F) x1 x2 = protoOf (F := F) (val_main_v12 (F := F) x1 x2) (val_main_v15 (F := F) x2) := rfl

theorem ref_pnorm (x1 : (⟨S8x256x128x256, .f32⟩ : BufTy).Contents (Elt F)) (x2 : (⟨S8x128x256, .i32⟩ : BufTy).Contents (Elt F)) :
    val_main_v39 (F := F) x1 x2 = pnormOf (F := F) (val_main_v12 (F := F) x1 x2) (val_main_v15 (F := F) x2) := rfl

theorem ref_pvalid (x1 : (⟨S8x256x128x256, .f32⟩ : BufTy).Contents (Elt F)) (x2 : (⟨S8x128x256, .i32⟩ : BufTy).Contents (Elt F)) :
    val_main_v41 (F := F) x1 x2 = pvalidOf (F := F) (val_main_v12 (F := F) x1 x2) (val_main_v15 (F := F) x2) := rfl

theorem ref_final (x0 x1 : (⟨S8x256x128x256, .f32⟩ : BufTy).Contents (Elt F)) (x2 : (⟨S8x128x256, .i32⟩ : BufTy).Contents (Elt F)) (x3 : (⟨S8x1x128x256, .f32⟩ : BufTy).Contents (Elt F)) :
    val_main_v71 (F := F) x0 x1 x2 x3
      = finalLossOf (F := F) (val_main_v66 (F := F) x0 x1 x2 x3) (val_main_v67 (F := F) x1 x2 x3) := rfl

theorem ref_mean (x0 x1 : (⟨S8x256x128x256, .f32⟩ : BufTy).Contents (Elt F)) (x2 : (⟨S8x128x256, .i32⟩ : BufTy).Contents (Elt F)) :
    val_main_v76 (F := F) x0 x1 x2
      = meanSimOf (F := F) (val_main_v57 (F := F) x0 x1 x2) (val_main_v63 (F := F) x1 x2) := rfl

end Cert.PKD

end
-- ==== Proof.LibSegmentSum.lean ====
/-
  General lemmas: the host's accumulating float scatter (`x.at[idx].add(u)`, a segment sum) at the ideal instance, read at
  an index, for the two shapes a segment sum over rows takes.

  The start index is read as a SIGNED integer and is NOT clamped: an update whose row index is negative or past the
  operand's last row lands nowhere. So the operand's row `n` receives exactly the update rows `e` whose index word,
  as a signed integer, is `n`.
-/
import Idealize.ShloMosaic.PureOps.Ideal
import Idealize.ShloMosaic.Lib.ValueIdx

noncomputable section

open scoped BigOperators

namespace Cert.Lib

open Idealize.ShloMosaic Idealize.ShloMosaic.ValueIdx

namespace SegmentSum

/-! ## Rows -/

/-- The row scatter's dimension numbers as a literal record, for an operand `[N, C]`, indices `[E, 1]` and updates
    `[E, C]`; `wf` are their conditions. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the operand's row axis the window of update `(e, k')` starts at the index word `idx[e, 0]`, read signed. -/
theorem rows_start0 : (rowScatterDims N C E wf).start (ix2 e k') idx 0 = (idx (ix2 e 0)).toInt := by
  unfold ScatterDims.start
  rw [dif_pos (show (0 : Fin 2) ∈ (rowScatterDims N C E wf).scatterDimsToOperandDims from List.mem_singleton.mpr rfl)]
  -- the scatter-indices index read for component 0 of the start index of `(e, k')` is `[e, 0]`
  have hsi : (rowScatterDims N C E wf).siIdx (ix2 e k')
      ⟨List.idxOf (0 : Fin 2) (rowScatterDims N C E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The column axis is not index-mapped: the window starts at `0` there. -/
theorem rows_start1 : (rowScatterDims N C E wf).start (ix2 e k') idx 1 = 0 := by
  unfold ScatterDims.start
  rw [dif_neg (show ¬ (1 : Fin 2) ∈ (rowScatterDims N C E wf).scatterDimsToOperandDims from
    fun h => absurd (List.mem_singleton.mp h) (by decide : ¬ (1 : Fin 2) = 0))]

/-- The row axis is an inserted window axis: it has no window coordinate. -/
theorem rows_window0 : (rowScatterDims N C E wf).window (ix2 e k') 0 = 0 := by
  unfold ScatterDims.window
  rw [dif_neg (show ¬ (0 : Fin 2) ∈ (rowScatterDims N C E wf).sKept from fun h => by
    have h2 := (List.mem_filter.mp h).2
    simp at h2)]

/-- The column axis is the one window axis: its window coordinate is the update's column. -/
theorem rows_window1 : (rowScatterDims N C E wf).window (ix2 e k') 1 = k'.val := by
  unfold ScatterDims.window
  rw [dif_pos (show (1 : Fin 2) ∈ (rowScatterDims N C E wf).sKept from
    List.mem_filter.mpr ⟨List.mem_finRange _, by simp⟩)]
  rfl

/-- WHERE AN UPDATE LANDS: update `(e, k')` lands at operand element `(n, k)` exactly when its index word, read signed,
    is `n` and its column is `k`. (An index word outside `[0, N)` lands nowhere, so it equals no `n`.) -/
theorem rows_resultIdx_eq_some_iff (n : Fin N) (k : Fin C) :
    (rowScatterDims N C E wf).resultIdx? (ix2 e k') idx = some (ix2 n k)
      ↔ (idx (ix2 e 0)).toInt = (n.val : ℤ) ∧ k' = k := by
  have s0 := rows_start0 wf idx e k'
  have s1 := rows_start1 wf idx e k'
  have w0 := rows_window0 wf e k'
  have w1 := rows_window1 wf e k'
  unfold ScatterDims.resultIdx?
  split
  · rename_i h
    rw [Option.some.injEq]
    constructor
    · intro hf
      -- read the equation of indices on each axis
      have h0 : ((rowScatterDims N C E wf).start (ix2 e k') idx 0
          + ((rowScatterDims N C E wf).window (ix2 e k') 0 : ℕ)).toNat = n.val :=
        congrArg (fun i : (⟨2, ![N, C]⟩ : Shape).Idx => (i 0).val) hf
      have h1 : ((rowScatterDims N C E wf).start (ix2 e k') idx 1
          + ((rowScatterDims N C E wf).window (ix2 e k') 1 : ℕ)).toNat = k.val :=
        congrArg (fun i : (⟨2, ![N, C]⟩ : Shape).Idx => (i 1).val) hf
      have p0 := (h 0).1
      rw [s0, w0] at h0 p0
      rw [s1, w1] at h1
      exact ⟨by omega, Fin.ext (by omega)⟩
    · rintro ⟨hi, rfl⟩
      funext a
      refine Fin.ext ?_
      match a with
      | ⟨0, _⟩ =>
        show ((rowScatterDims N C E wf).start (ix2 e k') idx 0
          + ((rowScatterDims N C E wf).window (ix2 e k') 0 : ℕ)).toNat = n.val
        rw [s0, w0]; omega
      | ⟨1, _⟩ =>
        show ((rowScatterDims N C E wf).start (ix2 e k') idx 1
          + ((rowScatterDims N C E wf).window (ix2 e k') 1 : ℕ)).toNat = k'.val
        rw [s1, w1]; omega
  · rename_i h
    constructor
    · intro hf; exact absurd hf (by simp)
    · -- an index word equal to `n` is in range, and a column always is: the update does land
      rintro ⟨hi, rfl⟩
      refine absurd (fun a => ?_) h
      match a with
      | ⟨0, _⟩ =>
        show 0 ≤ (rowScatterDims N C E wf).start (ix2 e k') idx 0 + ((rowScatterDims N C E wf).window (ix2 e k') 0 : ℕ)
          ∧ (rowScatterDims N C E wf).start (ix2 e k') idx 0 + ((rowScatterDims N C E wf).window (ix2 e k') 0 : ℕ)
            < (N : ℤ)
        rw [s0, w0]; have := n.isLt; omega
      | ⟨1, _⟩ =>
        show 0 ≤ (rowScatterDims N C E wf).start (ix2 e k') idx 1 + ((rowScatterDims N C E wf).window (ix2 e k') 1 : ℕ)
          ∧ (rowScatterDims N C E wf).start (ix2 e k') idx 1 + ((rowScatterDims N C E wf).window (ix2 e k') 1 : ℕ)
            < (C : ℤ)
        rw [s1, w1]; have := k'.isLt; omega

end Rows

/-! ## Flat -/

/-- The flat scatter's dimension numbers as a literal record, for an operand `[N]`, indices `[E, 1]` and updates `[E]`;
    `wf` are their conditions. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range. -/
def idxEquiv1 {n : Nat} : Fin n ≃ (⟨1, ![n]⟩ : Shape).Idx where
  toFun := ix1
  invFun i := i 0
  left_inv _ := rfl
  right_inv i := (eq_ix1 i).symm

section Flat
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window of update `e` starts at the index word `idx[e, 0]`, read signed. -/
theorem flat_start0 : (flatScatterDims N E wf).start (ix1 e) idx 0 = (idx (ix2 e 0)).toInt := by
  unfold ScatterDims.start
  rw [dif_pos (show (0 : Fin 1) ∈ (flatScatterDims N E wf).scatterDimsToOperandDims from List.mem_singleton.mpr rfl)]
  -- the scatter-indices index read for component 0 of the start index of `e` is `[e, 0]`
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- That axis is an inserted window axis: it has no window coordinate. -/
theorem flat_window0 : (flatScatterDims N E wf).window (ix1 e) 0 = 0 := by
  unfold ScatterDims.window
  rw [dif_neg (show ¬ (0 : Fin 1) ∈ (flatScatterDims N E wf).sKept from fun h => by
    have h2 := (List.mem_filter.mp h).2
    simp at h2)]

/-- WHERE AN UPDATE LANDS: update `e` lands at operand element `n` exactly when its index word, read signed, is `n`. -/
theorem flat_resultIdx_eq_some_iff (n : Fin N) :
    (flatScatterDims N E wf).resultIdx? (ix1 e) idx = some (ix1 n) ↔ (idx (ix2 e 0)).toInt = (n.val : ℤ) := by
  have s0 := flat_start0 wf idx e
  have w0 := flat_window0 wf e
  unfold ScatterDims.resultIdx?
  split
  · rename_i h
    rw [Option.some.injEq]
    constructor
    · intro hf
      have h0 : ((flatScatterDims N E wf).start (ix1 e) idx 0
          + ((flatScatterDims N E wf).window (ix1 e) 0 : ℕ)).toNat = n.val :=
        congrArg (fun i : (⟨1, ![N]⟩ : Shape).Idx => (i 0).val) hf
      have p0 := (h 0).1
      rw [s0, w0] at h0 p0
      omega
    · intro hi
      funext a
      refine Fin.ext ?_
      match a with
      | ⟨0, _⟩ =>
        show ((flatScatterDims N E wf).start (ix1 e) idx 0
          + ((flatScatterDims N E wf).window (ix1 e) 0 : ℕ)).toNat = n.val
        rw [s0, w0]; omega
  · rename_i h
    constructor
    · intro hf; exact absurd hf (by simp)
    · -- an index word equal to `n` is in range: the update does land
      intro hi
      refine absurd (fun a => ?_) h
      match a with
      | ⟨0, _⟩ =>
        show 0 ≤ (flatScatterDims N E wf).start (ix1 e) idx 0 + ((flatScatterDims N E wf).window (ix1 e) 0 : ℕ)
          ∧ (flatScatterDims N E wf).start (ix1 e) idx 0 + ((flatScatterDims N E wf).window (ix1 e) 0 : ℕ) < (N : ℤ)
        rw [s0, w0]; have := n.isLt; omega

end Flat

end SegmentSum

open SegmentSum

/-- ROWS: operand `[N, C]`, indices `[E, 1]`, updates `[E, C]` (update_window_dims `[1]`, inserted_window_dims `[0]`,
    scatter_dims_to_operand_dims `[0]`, index_vector_dim `1`). Element `(n, k)` is the operand's plus the sum of the
    updates' `(e, k)` over the rows `e` whose index is `n`. -/
theorem scatterAdd_rows_apply {N C E w : Nat}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ix2 e 0)).toInt = (n.val : ℤ)), upd (ix2 e k) := by
  -- a record with these fields is the literal one
  obtain ⟨uw, iw, sd, iv, wf⟩ := d
  simp only at h1 h2 h3 h4
  subst h1 h2 h3 h4
  unfold Ideal.hostScatterAdd
  congr 1
  -- both sides as sums of guarded terms; the left one over the updates' rows and columns
  rw [Finset.sum_filter, sum_idx2, Finset.sum_filter]
  refine Finset.sum_congr rfl fun e _ => ?_
  by_cases hq : (idx (ix2 e 0)).toInt = (n.val : ℤ)
  · -- a row whose index is `n` gives its column `k` and nothing else
    rw [if_pos hq, Finset.sum_eq_single k]
    · rw [if_pos ((rows_resultIdx_eq_some_iff wf idx e k n k).mpr ⟨hq, rfl⟩)]
    · intro k' _ hk'
      rw [if_neg fun h => hk' ((rows_resultIdx_eq_some_iff wf idx e k' n k).mp h).2]
    · intro h; exact absurd (Finset.mem_univ k) h
  · -- any other row gives nothing
    rw [if_neg hq]
    refine Finset.sum_eq_zero fun k' _ => ?_
    rw [if_neg fun h => hq ((rows_resultIdx_eq_some_iff wf idx e k' n k).mp h).1]

/-- FLAT: operand `[N]`, indices `[E, 1]`, updates `[E]` (no window axis, inserted_window_dims `[0]`,
    scatter_dims_to_operand_dims `[0]`, index_vector_dim `1`). Element `n` is the operand's plus the sum of the updates
    `e` whose index is `n`. -/
theorem scatterAdd_flat_apply {N E w : Nat}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ix2 e 0)).toInt = (n.val : ℤ)), upd (ix1 e) := by
  -- a record with these fields is the literal one
  obtain ⟨uw, iw, sd, iv, wf⟩ := d
  simp only at h1 h2 h3 h4
  subst h1 h2 h3 h4
  unfold Ideal.hostScatterAdd
  congr 1
  -- both sides as sums of guarded terms, matched along the bijection between update indices and rows
  rw [Finset.sum_filter, Finset.sum_filter]
  refine (Fintype.sum_equiv idxEquiv1 _ _ fun e => ?_).symm
  have hiff := flat_resultIdx_eq_some_iff wf idx e n
  show (if (idx (ix2 e 0)).toInt = (n.val : ℤ) then upd (ix1 e) else 0)
    = if (flatScatterDims N E wf).resultIdx? (ix1 e) idx = some (ix1 n) then upd (ix1 e) else 0
  by_cases hq : (idx (ix2 e 0)).toInt = (n.val : ℤ)
  · rw [if_pos hq, if_pos (hiff.mpr hq)]
  · rw [if_neg hq, if_neg fun h => hq (hiff.mp h)]

end Cert.Lib

end
-- ==== Proof.RefSums.lean ====
/-
  The reference's two scatter-adds, read at an index: the class sums and the class counts of the specification.

  A pixel `e` of the flattened image is `(b, h, w)` in row-major order. Its segment index is its label word with the
  ignore label read as class 0, its weight is 0 on the ignore label and 1 elsewhere, and its update row is its feature
  vector times that weight. Row `n` of the scatter-add receives the update rows of the pixels whose segment index is
  `n`: an ignored pixel lands in row 0 with the value 0, every other pixel lands in its own class's row.
-/
import proofs.«410761_j78709570667268_3_alg».proof.Proof.RefRead
import proofs.«410761_j78709570667268_3_alg».proof.Proof.Spec
import proofs.«410761_j78709570667268_3_alg».proof.Proof.LibSegmentSum
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.PKD

open Idealize.ShloMosaic Idealize.ShloMosaic.ValueIdx Idealize.ShloMosaic.TcCoe Idealize.SL.Sem
open Cert.ReferenceIdeal Cert.ReferenceIdeal.ReadP

namespace RefSums

/-! ## Label words -/

/-- The validity bit of a label word: `0` on the ignore label, `1` elsewhere. -/
theorem cmpi_ne_255 (wd : BitVec 32) : IntOp.cmpi .ne wd 255#32 = if wd = 255#32 then 0#1 else 1#1 := by
  show BitVec.ofBool (wd != 255#32) = _
  by_cases h : wd = 255#32
  · rw [if_pos h, h]; rfl
  · rw [if_neg h]
    have hb : (wd != 255#32) = true := bne_iff_ne.mpr h
    rw [hb]; rfl

/-- The select of the segment index: the label word, the ignore label read as class 0. -/
theorem seg_word (wd : BitVec 32) :
    Scalar.select (IntOp.cmpi .ne wd 255#32) wd 0#32 = safeWord wd := by
  unfold safeWord
  by_cases h : wd = 255#32
  · rw [if_pos h, cmpi_ne_255, if_pos h, select_zero]
  · rw [if_neg h, cmpi_ne_255, if_neg h, select_one]

/-- The validity bit as a float: 0 on the ignore label, 1 elsewhere. -/
theorem wgt_word (wd : BitVec 32) :
    FloatOps.uitofp (F := Ideal) .f32 (IntOp.cmpi .ne wd 255#32) = keep wd := by
  unfold keep
  show (((IntOp.cmpi .ne wd 255#32).toNat : ℝ) : EReal) = _
  by_cases h : wd = 255#32
  · rw [if_pos h, cmpi_ne_255, if_pos h]; simp
  · rw [if_neg h, cmpi_ne_255, if_neg h]; simp

/-- A word read signed is the class `n` exactly when it is the word of `n`. -/
theorem toInt_eq_iff (wd : BitVec 32) (n : Nat) (hn : n < 19) :
    wd.toInt = (n : ℤ) ↔ wd = BitVec.ofNat 32 n := by
  have hc := BitVec.toInt_eq_toNat_cond wd
  have hlt := wd.isLt
  constructor
  · intro h
    apply BitVec.eq_of_toNat_eq
    rw [BitVec.toNat_ofNat]
    split_ifs at hc <;> omega
  · intro h
    have ht : wd.toNat = n % 2 ^ 32 := by rw [h, BitVec.toNat_ofNat]
    split_ifs at hc <;> omega

/-- One pixel's term of the class sum: its update lands in row `n` exactly when its label is `n`; an ignored pixel's
    update is zero wherever it lands. -/
theorem term_eq (wd : BitVec 32) (x : EReal) (n : Fin 19) :
    (if (safeWord wd).toInt = ((n.val : ℕ) : ℤ) then x * keep wd else 0) = hot wd n * x := by
  unfold safeWord keep hot
  by_cases h : wd = 255#32
  · subst h
    rw [if_pos rfl, if_pos rfl, mul_zero, ite_self, if_neg, zero_mul]
    intro hc
    have := (toInt_eq_iff _ _ n.isLt).mpr hc
    have hn := n.isLt
    simp at this
    omega
  · rw [if_neg h, if_neg h, mul_one]
    by_cases hq : wd = BitVec.ofNat 32 n.val
    · rw [if_pos hq, one_mul, if_pos ((toInt_eq_iff _ _ n.isLt).mpr hq)]
    · rw [if_neg hq, zero_mul, if_neg fun hc => hq ((toInt_eq_iff _ _ n.isLt).mp hc)]

/-- One pixel's term of the class count. -/
theorem cnt_term_eq (wd : BitVec 32) (n : Fin 19) :
    (if (safeWord wd).toInt = ((n.val : ℕ) : ℤ) then keep wd else 0) = hot wd n := by
  have := term_eq wd 1 n
  rwa [one_mul, mul_one] at this

/-! ## Pixels in row-major order -/

def pB (e : Fin 262144) : Fin 8 := ⟨e.val / 32768, by have := e.isLt; omega⟩
def pH (e : Fin 262144) : Fin 128 := ⟨e.val / 256 % 128, by have := e.isLt; omega⟩
def pW (e : Fin 262144) : Fin 256 := ⟨e.val % 256, by have := e.isLt; omega⟩

/-- The flat pixel index and the triple `(b, h, w)`. -/
def pixEquiv : Fin 262144 ≃ Fin 8 × Fin 128 × Fin 256 where
  toFun e := (pB e, pH e, pW e)
  invFun p := ⟨(p.1.val * 128 + p.2.1.val) * 256 + p.2.2.val, by
    have := p.1.isLt; have := p.2.1.isLt; have := p.2.2.isLt; omega⟩
  left_inv e := by
    apply Fin.ext
    show (e.val / 32768 * 128 + e.val / 256 % 128) * 256 + e.val % 256 = e.val
    omega
  right_inv p := by
    obtain ⟨b, h, w⟩ := p
    have hb := b.isLt; have hh := h.isLt; have hw := w.isLt
    refine Prod.ext (Fin.ext ?_) (Prod.ext (Fin.ext ?_) (Fin.ext ?_))
    · show ((b.val * 128 + h.val) * 256 + w.val) / 32768 = b.val
      omega
    · show ((b.val * 128 + h.val) * 256 + w.val) / 256 % 128 = h.val
      omega
    · show ((b.val * 128 + h.val) * 256 + w.val) % 256 = w.val
      omega

/-- A sum over the flat pixel index is the triple sum over `(b, h, w)`. -/
theorem sum_pix {M : Type*} [AddCommMonoid M] (g : Fin 8 → Fin 128 → Fin 256 → M) :
    ∑ e : Fin 262144, g (pB e) (pH e) (pW e) = ∑ b : Fin 8, ∑ h : Fin 128, ∑ w : Fin 256, g b h w := by
  rw [Fintype.sum_equiv pixEquiv (fun e => g (pB e) (pH e) (pW e)) (fun p => g p.1 p.2.1 p.2.2) (fun _ => rfl),
    Fintype.sum_prod_type]
  refine Finset.sum_congr rfl fun b _ => ?_
  rw [Fintype.sum_prod_type]

/-! ## The stages at a pixel -/

/-- The flat mask's index `e` is the pixel `(b, h, w)`. -/
theorem idx_pix (e : Fin 262144) : idx_main_v2 (ix1 e) = ix3 (pB e) (pH e) (pW e) := by
  funext a
  match a with
  | ⟨0, _⟩ => rfl
  | ⟨1, _⟩ => rfl
  | ⟨2, _⟩ => rfl

/-- The flat features' index `(e, k)` is channel `k` of the pixel `(b, h, w)`. -/
theorem idx_feat (e : Fin 262144) (k : Fin 256) :
    idx_main_v0 (idx_main_v1 (ix2 e k)) = ix4 (pB e) k (pH e) (pW e) := by
  have he := e.isLt
  have hk := k.isLt
  funext a
  refine Fin.ext ?_
  match a with
  | ⟨0, _⟩ =>
    show (e.val * 256 + k.val) / 8388608 = e.val / 32768
    omega
  | ⟨1, _⟩ =>
    show (e.val * 256 + k.val) % 256 = k.val
    omega
  | ⟨2, _⟩ =>
    show (e.val * 256 + k.val) / 65536 % 128 = e.val / 256 % 128
    omega
  | ⟨3, _⟩ =>
    show (e.val * 256 + k.val) / 256 % 256 = e.val % 256
    omega

/-- Row `e` of the one-column index array reads entry `e` of the segment indices. -/
theorem idx_col (e : Fin 262144) : idx_main_v11 (ix2 e 0) = ix1 e := by
  funext a
  match a with
  | ⟨0, _⟩ => rfl

/-- The same for the counts' index array. -/
theorem idx_col' (e : Fin 262144) : idx_main_v14 (ix2 e 0) = ix1 e := by
  funext a
  match a with
  | ⟨0, _⟩ => rfl

/-- The weight broadcast along the channels reads entry `e` of the weights. -/
theorem idx_bcast (e : Fin 262144) (k : Fin 256) : idx_main_v7 (idx_main_v8 (ix2 e k)) = ix1 e := by
  funext a
  match a with
  | ⟨0, _⟩ => rfl

/-- The validity bit of pixel `e`. -/
theorem valid_at (x2 : SMask.Idx → BitVec 32) (e : Fin 262144) :
    val_main_v4 (F := Ideal) x2 (ix1 e) = IntOp.cmpi .ne (x2 (ix3 (pB e) (pH e) (pW e))) 255#32 := by
  rw [val_main_v4_apply, val_main_v2_apply, val_main_v3_apply, val_main_c_apply, idx_pix]

/-- The segment index of pixel `e`: its label word, the ignore label read as class 0. -/
theorem seg_at (x2 : SMask.Idx → BitVec 32) (e : Fin 262144) :
    val_main_v5 (F := Ideal) x2 (ix1 e) = safeWord (x2 (ix3 (pB e) (pH e) (pW e))) := by
  rw [val_main_v5_apply, valid_at, val_main_v2_apply, val_main_call0_v1_apply, val_main_call0_v0_apply,
    val_main_c_0_apply, idx_pix, seg_word]

/-- The weight of pixel `e`: 0 on the ignore label, 1 elsewhere. -/
theorem wgt_at (x2 : SMask.Idx → BitVec 32) (e : Fin 262144) :
    val_main_v6 (F := Ideal) x2 (ix1 e) = keep (x2 (ix3 (pB e) (pH e) (pW e))) := by
  rw [val_main_v6_apply, valid_at, wgt_word]

/-- The update row of pixel `e` at channel `k`: the feature times the weight. -/
theorem upd_at (x1 : SFeat.Idx → EReal) (x2 : SMask.Idx → BitVec 32) (e : Fin 262144) (k : Fin 256) :
    val_main_v9 (F := Ideal) x1 x2 (ix2 e k)
      = x1 (ix4 (pB e) k (pH e) (pW e)) * keep (x2 (ix3 (pB e) (pH e) (pW e))) := by
  rw [val_main_v9_apply, val_main_v1_apply, val_main_v0_apply, idx_feat, val_main_v8_apply, val_main_v7_apply,
    idx_bcast, wgt_at, Ideal.mulf_def]

end RefSums

open RefSums

/-! ## The two scatter-adds -/

theorem ref_sums (x1 : SFeat.Idx → EReal) (x2 : SMask.Idx → BitVec 32) :
    val_main_v12 (F := Ideal) x1 x2 = sumsG x1 x2 := by
  funext j
  obtain ⟨n, k, rfl⟩ : ∃ (n : Fin 19) (k : Fin 256), j = ix2 n k := ⟨j 0, j 1, eq_ix2 j⟩
  refine (Cert.Lib.scatterAdd_rows_apply (N := 19) (C := 256) (E := 262144) (w := 32)
    scatter_S19x256_S262144x1_S262144x256_1_0_0_1 rfl rfl rfl rfl (val_main_v10 (F := Ideal))
    (val_main_v11 (F := Ideal) x2) (val_main_v9 (F := Ideal) x1 x2) n k).trans ?_
  rw [val_main_v10_apply, val_main_cst_apply, Ideal.ofBits_def, Ideal.ofBits_zero_f32, zero_add, Finset.sum_filter]
  show _ = ∑ b : Fin 8, ∑ h : Fin 128, ∑ w : Fin 256, hot (x2 (ix3 b h w)) n * x1 (ix4 b k h w)
  refine Eq.trans ?_ (sum_pix (fun b h w => hot (x2 (ix3 b h w)) n * x1 (ix4 b k h w)))
  refine Finset.sum_congr rfl fun e _ => ?_
  rw [val_main_v11_apply, idx_col, seg_at, upd_at]
  exact term_eq _ _ n

theorem ref_counts (x2 : SMask.Idx → BitVec 32) :
    val_main_v15 (F := Ideal) x2 = cntG x2 := by
  funext j
  obtain ⟨n, rfl⟩ : ∃ n : Fin 19, j = ix1 n := ⟨j 0, eq_ix1 j⟩
  refine (Cert.Lib.scatterAdd_flat_apply (N := 19) (E := 262144) (w := 32)
    scatter_S19_S262144x1_S262144_n_0_0_1 rfl rfl rfl rfl (val_main_v13 (F := Ideal))
    (val_main_v14 (F := Ideal) x2) (val_main_v6 (F := Ideal) x2) n).trans ?_
  rw [val_main_v13_apply, val_main_cst_1_apply, Ideal.ofBits_def, Ideal.ofBits_zero_f32, zero_add, Finset.sum_filter]
  show _ = ∑ b : Fin 8, ∑ h : Fin 128, ∑ w : Fin 256, hot (x2 (ix3 b h w)) n
  refine Eq.trans ?_ (sum_pix (fun b h w => hot (x2 (ix3 b h w)) n))
  refine Finset.sum_congr rfl fun e _ => ?_
  rw [val_main_v14_apply, idx_col', seg_at, wgt_at]
  exact cnt_term_eq _ n

end Cert.PKD

end
-- ==== Proof.LibGatherRows4.lean ====
/-
  General lemmas: `stablehlo.gather` at a rank-4 array of start indices `[A, B, D, 1]` whose last axis is the index
  vector's, read at an index.

  * Rows of a table. Operand `[N, C]`, offset_dims `[3]`, collapsed_slice_dims `[0]`, start_index_map `[0]`,
    index_vector_dim `3`, slice_sizes `[1, C]`, result `[A, B, D, C]`. Result element `(a, b, d, k)` is the operand at
    row `idx[a, b, d, 0]` and column `k`.
  * Entries of a vector. Operand `[N]`, offset_dims `[]`, collapsed_slice_dims `[0]`, start_index_map `[0]`,
    index_vector_dim `3`, slice_sizes `[1]`, result `[A, B, D]`. Result element `(a, b, d)` is the operand at
    `idx[a, b, d, 0]`.

  In both the start index is read as a signed integer and clamped into `[0, N - 1]`, as the gather clamps every start
  index. Each lemma is stated for any record with those dimension numbers, whatever the sizes and the word width.
-/
import Idealize.ShloMosaic.PureOps.Ideal
import Idealize.ShloMosaic.Lib.ValueIdx

noncomputable section

namespace Cert.Lib

open Idealize.ShloMosaic Idealize.ShloMosaic.ValueIdx

namespace GatherRows4

/-- The row gather's dimension numbers as a literal record; `wf` are their conditions. -/
abbrev rowDims (N C A B D : Nat)
    (wf : GatherDims.WF ⟨2, ![N, C]⟩ ⟨4, ![A, B, D, 1]⟩ ⟨4, ![A, B, D, C]⟩ [3] [0] [] [0] [] 3 ![1, C]) :
    GatherDims ⟨2, ![N, C]⟩ ⟨4, ![A, B, D, 1]⟩ ⟨4, ![A, B, D, C]⟩ where
  offsetDims := [3]
  collapsedSliceDims := [0]
  operandBatchingDims := []
  startIndicesBatchingDims := []
  startIndexMap := [0]
  indexVectorDim := 3
  sliceSizes := ![1, C]
  wf := wf

/-- The entry gather's dimension numbers as a literal record; `wf` are their conditions. -/
abbrev entryDims (N A B D : Nat)
    (wf : GatherDims.WF ⟨1, ![N]⟩ ⟨4, ![A, B, D, 1]⟩ ⟨3, ![A, B, D]⟩ [] [0] [] [0] [] 3 ![1]) :
    GatherDims ⟨1, ![N]⟩ ⟨4, ![A, B, D, 1]⟩ ⟨3, ![A, B, D]⟩ where
  offsetDims := []
  collapsedSliceDims := [0]
  operandBatchingDims := []
  startIndicesBatchingDims := []
  startIndexMap := [0]
  indexVectorDim := 3
  sliceSizes := ![1]
  wf := wf

/-- The literal row record at `(a, b, d, k)`. The operand's axis 0 is collapsed and is the one the start index names:
    its coordinate is the clamped start index alone, read off the start indices at `[a, b, d, 0]` (the result's three
    batch coordinates, and component 0 on the index vector's axis). Its axis 1 is the one offset axis: no start, no
    batching part, and the offset coordinate is the result's last coordinate `k`. -/
theorem gather_rowDims_apply {α : Type} {N C A B D w : Nat} (hN : 0 < N)
    (wf : GatherDims.WF ⟨2, ![N, C]⟩ ⟨4, ![A, B, D, 1]⟩ ⟨4, ![A, B, D, C]⟩ [3] [0] [] [0] [] 3 ![1, C])
    (x : (⟨2, ![N, C]⟩ : Shape).Idx → α) (idx : IVec ⟨4, ![A, B, D, 1]⟩ w)
    (a : Fin A) (b : Fin B) (d : Fin D) (k : Fin C) :
    Host.gather (rowDims N C A B D wf) x idx (ix4 a b d k)
      = x (ix2 ⟨min (idx (ix4 a b d 0)).toInt.toNat (N - 1), by omega⟩ k) := by
  unfold Host.gather
  refine congrArg x (funext fun ax => Fin.ext ?_)
  have h0mem : (0 : Fin 2) ∈ (rowDims N C A B D wf).startIndexMap := List.mem_singleton.mpr rfl
  have h1ne : ¬ (1 : Fin 2) = 0 := by decide
  match ax with
  | ⟨0, _⟩ =>
    show (rowDims N C A B D wf).start (ix4 a b d k) idx 0 + (rowDims N C A B D wf).batchCoord (ix4 a b d k) 0
      + (rowDims N C A B D wf).offCoord (ix4 a b d k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos h0mem]
    have hsi : (rowDims N C A B D wf).siIdx (ix4 a b d k)
        ⟨List.idxOf (0 : Fin 2) (rowDims N C A B D wf).startIndexMap, List.idxOf_lt_length_iff.2 h0mem⟩
          = ix4 a b d 0 := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show (rowDims N C A B D wf).start (ix4 a b d k) idx 1 + (rowDims N C A B D wf).batchCoord (ix4 a b d k) 1
      + (rowDims N C A B D wf).offCoord (ix4 a b d k) 1 = _
    rw [GatherDims.batchCoord_eq_zero _ _ _ List.not_mem_nil]
    unfold GatherDims.start
    rw [dif_neg (fun h : (1 : Fin 2) ∈ (rowDims N C A B D wf).startIndexMap => h1ne (List.mem_singleton.mp h))]
    unfold GatherDims.offCoord
    rw [dif_pos ((GatherDims.mem_sKept _ _).mpr
      ⟨fun h => h1ne (List.mem_singleton.mp h), List.not_mem_nil⟩ : (1 : Fin 2) ∈ (rowDims N C A B D wf).sKept)]
    simp only [Nat.add_zero, Nat.zero_add]
    rfl

/-- The literal entry record at `(a, b, d)`: the operand's one axis is collapsed and start-mapped, so its coordinate is
    the clamped start index read at `[a, b, d, 0]`. -/
theorem gather_entryDims_apply {α : Type} {N A B D w : Nat} (hN : 0 < N)
    (wf : GatherDims.WF ⟨1, ![N]⟩ ⟨4, ![A, B, D, 1]⟩ ⟨3, ![A, B, D]⟩ [] [0] [] [0] [] 3 ![1])
    (x : (⟨1, ![N]⟩ : Shape).Idx → α) (idx : IVec ⟨4, ![A, B, D, 1]⟩ w)
    (a : Fin A) (b : Fin B) (d : Fin D) :
    Host.gather (entryDims N A B D wf) x idx (ix3 a b d)
      = x (ix1 ⟨min (idx (ix4 a b d 0)).toInt.toNat (N - 1), by omega⟩) := by
  unfold Host.gather
  refine congrArg x (funext fun ax => Fin.ext ?_)
  obtain rfl : ax = 0 := Subsingleton.elim _ _
  have h0mem : (0 : Fin 1) ∈ (entryDims N A B D wf).startIndexMap := List.mem_singleton.mpr rfl
  show (entryDims N A B D wf).start (ix3 a b d) idx 0 + (entryDims N A B D wf).batchCoord (ix3 a b d) 0
    + (entryDims N A B D wf).offCoord (ix3 a b d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos h0mem]
  have hsi : (entryDims N A B D wf).siIdx (ix3 a b d)
      ⟨List.idxOf (0 : Fin 1) (entryDims N A B D wf).startIndexMap, List.idxOf_lt_length_iff.2 h0mem⟩
        = ix4 a b d 0 := by
    funext c; refine Fin.ext ?_
    match c with
    | ⟨0, _⟩ => rfl
    | ⟨1, _⟩ => rfl
    | ⟨2, _⟩ => rfl
    | ⟨3, _⟩ => rfl
  rw [hsi]
  rfl

end GatherRows4

open GatherRows4

/-- THE ROW GATHER READ AT `(a, b, d, k)`: the operand at the row `idx[a, b, d, 0]`, read signed and clamped into
    `[0, N - 1]`, and column `k`. -/
theorem gather_rows4_apply {α : Type} {N C A B D w : Nat} (hN : 0 < N)
    (g : GatherDims ⟨2, ![N, C]⟩ ⟨4, ![A, B, D, 1]⟩ ⟨4, ![A, B, D, C]⟩)
    (h1 : g.offsetDims = [3]) (h2 : g.collapsedSliceDims = [0]) (h3 : g.operandBatchingDims = [])
    (h4 : g.startIndicesBatchingDims = []) (h5 : g.startIndexMap = [0]) (h6 : g.indexVectorDim = 3)
    (h7 : g.sliceSizes = ![1, C])
    (x : (⟨2, ![N, C]⟩ : Shape).Idx → α) (idx : IVec ⟨4, ![A, B, D, 1]⟩ w)
    (a : Fin A) (b : Fin B) (d : Fin D) (k : Fin C) :
    Host.gather g x idx (ix4 a b d k) = x (ix2 ⟨min (idx (ix4 a b d 0)).toInt.toNat (N - 1), by omega⟩ k) := by
  -- a record with these fields is the literal one
  obtain ⟨od, cs, ob, sb, sm, iv, ss, wf⟩ := g
  simp only at h1 h2 h3 h4 h5 h6 h7
  subst h1 h2 h3 h4 h5 h6 h7
  exact gather_rowDims_apply hN wf x idx a b d k

/-- THE ENTRY GATHER READ AT `(a, b, d)`: the operand at `idx[a, b, d, 0]`, read signed and clamped into
    `[0, N - 1]`. -/
theorem gather_entries4_apply {α : Type} {N A B D w : Nat} (hN : 0 < N)
    (g : GatherDims ⟨1, ![N]⟩ ⟨4, ![A, B, D, 1]⟩ ⟨3, ![A, B, D]⟩)
    (h1 : g.offsetDims = []) (h2 : g.collapsedSliceDims = [0]) (h3 : g.operandBatchingDims = [])
    (h4 : g.startIndicesBatchingDims = []) (h5 : g.startIndexMap = [0]) (h6 : g.indexVectorDim = 3)
    (h7 : g.sliceSizes = ![1])
    (x : (⟨1, ![N]⟩ : Shape).Idx → α) (idx : IVec ⟨4, ![A, B, D, 1]⟩ w)
    (a : Fin A) (b : Fin B) (d : Fin D) :
    Host.gather g x idx (ix3 a b d) = x (ix1 ⟨min (idx (ix4 a b d 0)).toInt.toNat (N - 1), by omega⟩) := by
  obtain ⟨od, cs, ob, sb, sm, iv, ss, wf⟩ := g
  simp only at h1 h2 h3 h4 h5 h6 h7
  subst h1 h2 h3 h4 h5 h6 h7
  exact gather_entryDims_apply hN wf x idx a b d

end Cert.Lib

end
-- ==== Proof.RefPixel.lean ====
/-
  The reference's per-pixel maps, read at an index, for labels in their range: the per-pixel maps of the specification
  over the reference's own prototype table and validity flags.

  The reference transposes the student's features so that the channels are the last axis, divides each pixel's row by
  its norm clamped below, and multiplies it against the row of the prototype table that the pixel's label selects: a
  gather of whole rows at the safe label (the ignore label read as class 0), to which 19 is added where it is
  negative. For a label in its range the safe label is in `[0, 19)`: the addition is not taken, the gather's clamp
  into `[0, 18]` does nothing, and the row read is the one the one-hot combination of the specification selects. The
  validity flag is gathered the same way from the vector of flags and masked by "the label is not the ignore label".
-/
import proofs.«410761_j78709570667268_3_alg».proof.Proof.RefRead
import proofs.«410761_j78709570667268_3_alg».proof.Proof.Spec
import proofs.«410761_j78709570667268_3_alg».proof.Proof.LibGatherRows4
import Idealize.ShloMosaic.PureOps.Ideal
import Idealize.ShloMosaic.PureOps.Ideal.Laws
import Idealize.ShloMosaic.Lib.ValueIdx
import Idealize.ShloMosaic.Lib.WordArith
import Idealize.ShloMosaic.Lib.Pipeline.Value

noncomputable section

open scoped BigOperators

namespace Cert.PKD

open Idealize.ShloMosaic Idealize.ShloMosaic.ValueIdx Idealize.ShloMosaic.TcCoe Idealize.SL.Sem
open Cert.ReferenceIdeal Cert.ReferenceIdeal.ReadP

/-! ## The comparisons' one-bit words -/

theorem cmpi_eq_self (x : BitVec 32) : IntOp.cmpi .eq x x = 1#1 := by
  show BitVec.ofBool (x == x) = 1#1
  rw [beq_self_eq_true]; rfl

theorem cmpi_eq_of_ne {x y : BitVec 32} (h : x ≠ y) : IntOp.cmpi .eq x y = 0#1 := by
  show BitVec.ofBool (x == y) = 0#1
  rw [beq_eq_false_iff_ne.mpr h]; rfl

theorem cmpi_ne_of_eq {x y : BitVec 32} (h : x = y) : IntOp.cmpi .ne x y = 0#1 := by
  subst h
  show BitVec.ofBool (x != x) = 0#1
  rw [bne_self_eq_false]; rfl

theorem cmpi_ne_of_ne {x y : BitVec 32} (h : x ≠ y) : IntOp.cmpi .ne x y = 1#1 := by
  show BitVec.ofBool (x != y) = 1#1
  rw [bne_iff_ne.mpr h]; rfl

/-- A word that reads signed as a nonnegative integer is not below zero. -/
theorem cmpi_slt_zero_of_nonneg {x : BitVec 32} (h : 0 ≤ x.toInt) : IntOp.cmpi .slt x 0#32 = 0#1 := by
  have e0 : (0#32 : BitVec 32).toInt = 0 := by decide
  have hb : x.slt 0#32 = false := by
    rw [BitVec.slt_eq_decide, decide_eq_false_iff_not, e0]; omega
  show BitVec.ofBool (x.slt 0#32) = 0#1
  rw [hb]; rfl

theorem andi_zero_left (p : BitVec 1) : IntOp.andi 0#1 p = 0#1 := by
  rcases BitVec.eq_zero_or_eq_one p with hp | hp <;> subst hp <;> decide

theorem andi_one_left (p : BitVec 1) : IntOp.andi 1#1 p = p := by
  rcases BitVec.eq_zero_or_eq_one p with hp | hp <;> subst hp <;> decide

/-! ## The safe label and the index the gathers read -/

/-- The reference's `where(label == 255, 0, label)` is the specification's safe label. -/
theorem safe_select (wd : BitVec 32) : Scalar.select (IntOp.cmpi .eq wd 255#32) 0#32 wd = safeWord wd := by
  unfold safeWord
  by_cases h : wd = 255#32
  · rw [if_pos h, h, cmpi_eq_self, select_one]
  · rw [if_neg h, cmpi_eq_of_ne h, select_zero]

/-- For a label in its range the safe label reads signed in `[0, 19)`. -/
theorem safe_range {wd : BitVec 32} (h : wd = 255#32 ∨ (0 ≤ wd.toInt ∧ wd.toInt < 19)) :
    0 ≤ (safeWord wd).toInt ∧ (safeWord wd).toInt < 19 := by
  unfold safeWord
  by_cases h255 : wd = 255#32
  · rw [if_pos h255]; decide
  · rw [if_neg h255]; exact h.resolve_left h255

/-- "Plus 19 where negative" leaves a nonnegative word alone. -/
theorem index_select {s : BitVec 32} (h0 : 0 ≤ s.toInt) :
    Scalar.select (IntOp.cmpi .slt s 0#32) (IntOp.addi s 19#32) s = s := by
  rw [cmpi_slt_zero_of_nonneg h0, select_zero]

/-- A word reading signed in `[0, 19)` reads unsigned as the same number. -/
theorem toNat_of_range {s : BitVec 32} (h0 : 0 ≤ s.toInt) (h1 : s.toInt < 19) :
    s.toNat = s.toInt.toNat ∧ s.toNat < 19 := by
  have hc := BitVec.toInt_eq_toNat_cond s
  have hl := s.isLt
  split at hc <;> omega

/-- The one-hot combination at a word in `[0, 19)` is the term at that class: every other class's one-hot is `0`, and
    `0 * x = 0`, `1 * x = x` for every extended real `x`. The class is written as the gather writes it, clamped. -/
theorem sum_hot {s : BitVec 32} (h0 : 0 ≤ s.toInt) (h1 : s.toInt < 19) (f : Fin 19 → EReal) :
    ∑ k : Fin 19, hot s k * f k = f ⟨min s.toInt.toNat 18, by omega⟩ := by
  obtain ⟨hn, hlt⟩ := toNat_of_range h0 h1
  have hmin : min s.toInt.toNat 18 = s.toNat := by omega
  have hself : s = BitVec.ofNat 32 (min s.toInt.toNat 18) := by
    apply BitVec.eq_of_toNat_eq
    rw [WordArith.toNat_ofNat_of_lt _ (by omega), hmin]
  have hone : hot s ⟨min s.toInt.toNat 18, by omega⟩ = 1 := if_pos hself
  rw [Finset.sum_eq_single (⟨min s.toInt.toNat 18, by omega⟩ : Fin 19), hone, one_mul]
  · intro k _ hk
    have hne : ¬ s = BitVec.ofNat 32 k.val := by
      intro e
      apply hk
      apply Fin.ext
      have e2 := congrArg BitVec.toNat e
      rw [WordArith.toNat_ofNat_of_lt _ (by have := k.isLt; omega)] at e2
      show k.val = min s.toInt.toNat 18
      omega
    have hzero : hot s k = 0 := if_neg hne
    rw [hzero, zero_mul]
  · intro hmem; exact absurd (Finset.mem_univ _) hmem

theorem v38_at (x2 : SMask.Idx → BitVec 32) (i : SMask.Idx) :
    val_main_v38 (F := Ideal) x2 i = safeWord (x2 i) := by
  rw [val_main_v38_apply, val_main_v37_apply, val_main_v36_apply, val_main_c_7_apply, val_main_call4_v1_apply,
    val_main_call4_v0_apply, val_main_c_8_apply]
  exact safe_select (x2 i)

theorem v46_at (x2 : SMask.Idx → BitVec 32) (i : SMask.Idx) (h0 : 0 ≤ (safeWord (x2 i)).toInt) :
    val_main_v46 (F := Ideal) x2 i = safeWord (x2 i) := by
  rw [val_main_v46_apply, val_main_v43_apply, val_main_v45_apply, val_main_v42_apply, val_main_c_10_apply,
    val_main_v44_apply, val_main_c_11_apply, v38_at]
  exact index_select h0

theorem v53_at (x2 : SMask.Idx → BitVec 32) (i : SMask.Idx) (h0 : 0 ≤ (safeWord (x2 i)).toInt) :
    val_main_v53 (F := Ideal) x2 i = safeWord (x2 i) := by
  rw [val_main_v53_apply, val_main_v50_apply, val_main_v52_apply, val_main_v49_apply, val_main_c_12_apply,
    val_main_v51_apply, val_main_c_13_apply, v38_at]
  exact index_select h0

/-- The rows' gather index at a pixel. -/
theorem v47_at (x2 : SMask.Idx → BitVec 32) (b : Fin 8) (h : Fin 128) (w : Fin 256)
    (h0 : 0 ≤ (safeWord (x2 (ix3 b h w))).toInt) :
    val_main_v47 (F := Ideal) x2 (ix4 b h w (0 : Fin 1)) = safeWord (x2 (ix3 b h w)) := by
  have hi : idx_main_v47 (ix4 b h w (0 : Fin 1)) = ix3 b h w := by
    funext a; refine Fin.ext ?_
    match a with
    | ⟨0, _⟩ => rfl
    | ⟨1, _⟩ => rfl
    | ⟨2, _⟩ => rfl
  rw [val_main_v47_apply, hi, v46_at x2 _ h0]

/-- The flags' gather index at a pixel. -/
theorem v54_at (x2 : SMask.Idx → BitVec 32) (b : Fin 8) (h : Fin 128) (w : Fin 256)
    (h0 : 0 ≤ (safeWord (x2 (ix3 b h w))).toInt) :
    val_main_v54 (F := Ideal) x2 (ix4 b h w (0 : Fin 1)) = safeWord (x2 (ix3 b h w)) := by
  have hi : idx_main_v54 (ix4 b h w (0 : Fin 1)) = ix3 b h w := by
    funext a; refine Fin.ext ?_
    match a with
    | ⟨0, _⟩ => rfl
    | ⟨1, _⟩ => rfl
    | ⟨2, _⟩ => rfl
  rw [val_main_v54_apply, hi, v53_at x2 _ h0]

/-! ## The student's row and its clamped norm -/

/-- The square of the transposed features at `(b, h, w, k)`. -/
theorem sq_at (x0 : SFeat.Idx → EReal) (b : Fin 8) (h : Fin 128) (w : Fin 256) (k : Fin 256) :
    val_main_call3_v0 (F := Ideal) x0 (idx_main_call3_v1 (ix3 b h w) k) = x0 (ix4 b k h w) * x0 (ix4 b k h w) := by
  have hi : idx_main_v30 (idx_main_call3_v1 (ix3 b h w) k) = ix4 b k h w := by
    funext a; refine Fin.ext ?_
    match a with
    | ⟨0, _⟩ => rfl
    | ⟨1, _⟩ => rfl
    | ⟨2, _⟩ => rfl
    | ⟨3, _⟩ => rfl
  rw [val_main_call3_v0_apply, val_main_v30_apply, hi]
  rfl

/-- The clamped norm of a pixel's row. -/
theorem norm_at (x0 : SFeat.Idx → EReal) (b : Fin 8) (h : Fin 128) (w : Fin 256) :
    val_main_v33 (F := Ideal) x0 (ix4 b h w (0 : Fin 1))
      = max (Ideal.sqrt (∑ c : Fin 256, x0 (ix4 b c h w) * x0 (ix4 b c h w))) eps12 := by
  have hi : idx_main_call3_v2 (ix4 b h w (0 : Fin 1)) = ix3 b h w := by
    funext a; refine Fin.ext ?_
    match a with
    | ⟨0, _⟩ => rfl
    | ⟨1, _⟩ => rfl
    | ⟨2, _⟩ => rfl
  rw [val_main_v33_apply, val_main_v31_apply, val_main_call3_v2_apply, hi, val_main_call3_v1_apply,
    val_main_call3_cst_apply, val_main_v32_apply, val_main_cst_6_apply,
    Finset.sum_congr rfl (fun k _ => sq_at x0 b h w k)]
  simp only [Ideal.maximumf_def, Ideal.hostUnary_sqrt_def, Ideal.ofBits_def, Ideal.ofBits_zero_f32, zero_add]
  rfl

/-! ## The selected prototype row -/

/-- The gathered row at a pixel is the row the one-hot combination selects. -/
theorem target_at (x1 : SFeat.Idx → EReal) (x2 : SMask.Idx → BitVec 32) (hr : InRange x2)
    (b : Fin 8) (h : Fin 128) (w : Fin 256) (k : Fin 256) :
    val_main_v48 (F := Ideal) x1 x2 (ix4 b h w k)
      = targetAt (val_main_v29 (F := Ideal) x1 x2) (x2 (ix3 b h w)) k := by
  obtain ⟨h0, h1⟩ := safe_range (hr (ix3 b h w))
  have hg := Cert.Lib.gather_rows4_apply (N := 19) (C := 256) (A := 8) (B := 128) (D := 256) (by decide)
    gather_S19x256_S8x128x256x1_S8x128x256x256_3_0_n_n_0_3_1256 rfl rfl rfl rfl rfl rfl rfl
    (val_main_v29 (F := Ideal) x1 x2) (val_main_v47 (F := Ideal) x2) b h w k
  refine hg.trans ?_
  refine Eq.trans ?_ (sum_hot h0 h1 (fun k' => val_main_v29 (F := Ideal) x1 x2 (ix2 k' k))).symm
  refine congrArg (fun n : Fin 19 => val_main_v29 (F := Ideal) x1 x2 (ix2 n k)) (Fin.ext ?_)
  show min (val_main_v47 (F := Ideal) x2 (ix4 b h w (0 : Fin 1))).toInt.toNat (19 - 1)
    = min (safeWord (x2 (ix3 b h w))).toInt.toNat 18
  rw [v47_at x2 b h w h0]

/-! ## The four maps at a pixel -/

theorem sim_at (x0 x1 : SFeat.Idx → EReal) (x2 : SMask.Idx → BitVec 32) (hr : InRange x2)
    (b : Fin 8) (h : Fin 128) (w : Fin 256) :
    val_main_v57 (F := Ideal) x0 x1 x2 (ix3 b h w) = simAt x0 x2 (val_main_v29 (F := Ideal) x1 x2) b h w := by
  rw [val_main_v57_apply, val_main_cst_14_apply, Ideal.ofBits_def, Ideal.ofBits_zero_f32, zero_add]
  unfold simAt simPix
  refine Finset.sum_congr rfl (fun k _ => ?_)
  have h57 : idx_main_v57 (ix3 b h w) k = ix4 b h w k := by
    funext a; refine Fin.ext ?_
    match a with
    | ⟨0, _⟩ => rfl
    | ⟨1, _⟩ => rfl
    | ⟨2, _⟩ => rfl
    | ⟨3, _⟩ => rfl
  have h30 : idx_main_v30 (ix4 b h w k) = ix4 b k h w := by
    funext a; refine Fin.ext ?_
    match a with
    | ⟨0, _⟩ => rfl
    | ⟨1, _⟩ => rfl
    | ⟨2, _⟩ => rfl
    | ⟨3, _⟩ => rfl
  have h34 : idx_main_v34 (ix4 b h w k) = ix4 b h w (0 : Fin 1) := by
    funext a; refine Fin.ext ?_
    match a with
    | ⟨0, _⟩ => rfl
    | ⟨1, _⟩ => rfl
    | ⟨2, _⟩ => rfl
    | ⟨3, _⟩ => rfl
  rw [h57, val_main_v56_apply, val_main_v35_apply, val_main_v30_apply, val_main_v34_apply, h30, h34, norm_at,
    target_at x1 x2 hr]
  rfl

theorem valid_at (x1 : SFeat.Idx → EReal) (x2 : SMask.Idx → BitVec 32) (hr : InRange x2)
    (b : Fin 8) (h : Fin 128) (w : Fin 256) :
    val_main_v63 (F := Ideal) x1 x2 (ix3 b h w)
      = validAt x2 (rowOfBits (val_main_v41 (F := Ideal) x1 x2)) b h w := by
  obtain ⟨h0, h1⟩ := safe_range (hr (ix3 b h w))
  have hg := Cert.Lib.gather_entries4_apply (N := 19) (A := 8) (B := 128) (D := 256) (by decide)
    gather_S19_S8x128x256x1_S8x128x256_n_0_n_n_0_3_1 rfl rfl rfl rfl rfl rfl rfl
    (val_main_v41 (F := Ideal) x1 x2) (val_main_v54 (F := Ideal) x2) b h w
  -- the gathered flag is the flag of the safe label's class
  have h55 : val_main_v55 (F := Ideal) x1 x2 (ix3 b h w)
      = val_main_v41 (F := Ideal) x1 x2 (ix1 ⟨min (safeWord (x2 (ix3 b h w))).toInt.toNat 18, by omega⟩) := by
    refine hg.trans ?_
    refine congrArg (fun n : Fin 19 => val_main_v41 (F := Ideal) x1 x2 (ix1 n)) (Fin.ext ?_)
    show min (val_main_v54 (F := Ideal) x2 (ix4 b h w (0 : Fin 1))).toInt.toNat (19 - 1)
      = min (safeWord (x2 (ix3 b h w))).toInt.toNat 18
    rw [v54_at x2 b h w h0]
  rw [val_main_v63_apply, val_main_v62_apply, val_main_v61_apply, val_main_v60_apply, val_main_c_16_apply, h55]
  unfold validAt validPix pvAt keep
  rw [sum_hot h0 h1 (fun k => rowOfBits (val_main_v41 (F := Ideal) x1 x2) (ix2 0 k))]
  by_cases h255 : x2 (ix3 b h w) = 255#32
  · -- the ignore label: both sides are zero
    rw [if_pos h255, cmpi_ne_of_eq h255, andi_zero_left, zero_mul]
    show (((0#1 : BitVec 1).toNat : ℝ) : EReal) = 0
    simp
  · -- a class: both sides are the class's flag
    rw [if_neg h255, cmpi_ne_of_ne h255, andi_one_left, one_mul]
    rfl

/-! ## The four maps -/

theorem ref_sim (x0 x1 : SFeat.Idx → EReal) (x2 : SMask.Idx → BitVec 32) (hr : InRange x2) :
    val_main_v57 (F := Ideal) x0 x1 x2 = simG x0 x2 (val_main_v29 (F := Ideal) x1 x2) := by
  funext j
  obtain ⟨b, h, w, rfl⟩ : ∃ (b : Fin 8) (h : Fin 128) (w : Fin 256), j = ix3 b h w := ⟨j 0, j 1, j 2, eq_ix3 j⟩
  exact sim_at x0 x1 x2 hr b h w

theorem ref_valid (x1 : SFeat.Idx → EReal) (x2 : SMask.Idx → BitVec 32) (hr : InRange x2) :
    val_main_v63 (F := Ideal) x1 x2 = validG x2 (rowOfBits (val_main_v41 (F := Ideal) x1 x2)) := by
  funext j
  obtain ⟨b, h, w, rfl⟩ : ∃ (b : Fin 8) (h : Fin 128) (w : Fin 256), j = ix3 b h w := ⟨j 0, j 1, j 2, eq_ix3 j⟩
  exact valid_at x1 x2 hr b h w

/-- The weights reshaped from `[8, 1, 128, 256]` read the weight of the same pixel. -/
theorem swt_at (x3 : SSwt.Idx → EReal) (b : Fin 8) (h : Fin 128) (w : Fin 256) :
    val_main_v64 (F := Ideal) x3 (ix3 b h w) = x3 (ix4 b 0 h w) := by
  have hb := b.isLt
  have hh := h.isLt
  have hw := w.isLt
  have hi : idx_main_v64 (ix3 b h w) = ix4 b (0 : Fin 1) h w := by
    funext a; refine Fin.ext ?_
    match a with
    | ⟨0, _⟩ => show ((b.val * 128 + h.val) * 256 + w.val) / 32768 = b.val; omega
    | ⟨1, _⟩ => rfl
    | ⟨2, _⟩ => show ((b.val * 128 + h.val) * 256 + w.val) / 256 % 128 = h.val; omega
    | ⟨3, _⟩ => show ((b.val * 128 + h.val) * 256 + w.val) % 256 = w.val; omega
  rw [val_main_v64_apply, hi]

theorem ref_wloss (x0 x1 : SFeat.Idx → EReal) (x2 : SMask.Idx → BitVec 32) (x3 : SSwt.Idx → EReal) (hr : InRange x2) :
    val_main_v66 (F := Ideal) x0 x1 x2 x3
      = wlossG x0 x2 x3 (val_main_v29 (F := Ideal) x1 x2) (rowOfBits (val_main_v41 (F := Ideal) x1 x2)) := by
  funext j
  obtain ⟨b, h, w, rfl⟩ : ∃ (b : Fin 8) (h : Fin 128) (w : Fin 256), j = ix3 b h w := ⟨j 0, j 1, j 2, eq_ix3 j⟩
  rw [val_main_v66_apply, val_main_v65_apply, val_main_v59_apply, val_main_v58_apply, val_main_cst_15_apply,
    sim_at x0 x1 x2 hr, valid_at x1 x2 hr, swt_at]
  rfl

theorem ref_vswt (x1 : SFeat.Idx → EReal) (x2 : SMask.Idx → BitVec 32) (x3 : SSwt.Idx → EReal) (hr : InRange x2) :
    val_main_v67 (F := Ideal) x1 x2 x3 = vswtG x2 x3 (rowOfBits (val_main_v41 (F := Ideal) x1 x2)) := by
  funext j
  obtain ⟨b, h, w, rfl⟩ : ∃ (b : Fin 8) (h : Fin 128) (w : Fin 256), j = ix3 b h w := ⟨j 0, j 1, j 2, eq_ix3 j⟩
  rw [val_main_v67_apply, valid_at x1 x2 hr, swt_at]
  rfl

end Cert.PKD

end
-- ==== Proof.RefValue.lean ====
/-
  The reference read as values: for labels in their range, every run ends with each result at its specification over
  the argument arrays — the same terms the kernel's program ends at.
-/
import proofs.«410761_j78709570667268_3_alg».proof.Proof.RefRead
import proofs.«410761_j78709570667268_3_alg».proof.Proof.RefChains
import proofs.«410761_j78709570667268_3_alg».proof.Proof.RefSums
import proofs.«410761_j78709570667268_3_alg».proof.Proof.RefPixel
import proofs.«410761_j78709570667268_3_alg».proof.Proof.ChainFacts
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.PKD

open Idealize.ShloMosaic Idealize.ShloMosaic.ValueIdx Idealize.ShloMosaic.TcCoe Idealize.SL.Sem
open Cert.ReferenceIdeal Cert.ReferenceIdeal.ReadP
open Cert.ReferenceIdeal.Gen

variable (m : (ℓ : Loc nD τ sig) → Buf (Elt Ideal) ℓ) (ρ : Dev nD → PrngReg)

/-- The reference's prototype table over the specification's class sums and counts. -/
theorem rProto (c : Dev nD) : val_main_v29 (F := Ideal) (m ((c.tc : Thread nD τ).loc main_arg1)) (m ((c.tc : Thread nD τ).loc main_arg2)) = protoOf (F := Ideal) (sumsG (m ((c.tc : Thread nD τ).loc main_arg1)) (m ((c.tc : Thread nD τ).loc main_arg2))) (cntG (m ((c.tc : Thread nD τ).loc main_arg2))) := by
  rw [ref_proto, ref_sums, ref_counts]

theorem rPvalid (c : Dev nD) : val_main_v41 (F := Ideal) (m ((c.tc : Thread nD τ).loc main_arg1)) (m ((c.tc : Thread nD τ).loc main_arg2)) = pvalidOf (F := Ideal) (sumsG (m ((c.tc : Thread nD τ).loc main_arg1)) (m ((c.tc : Thread nD τ).loc main_arg2))) (cntG (m ((c.tc : Thread nD τ).loc main_arg2))) := by
  rw [ref_pvalid, ref_sums, ref_counts]

/-- The reference at the ideal instance: it runs, and for labels in their range ends with every result at its
    specification. -/
theorem reference_values (hr : ∀ c : Dev nD, InRange (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v71)
        = finalLossOf (F := Ideal) (wlossG (m ((c.tc : Thread nD τ).loc main_arg0)) (m ((c.tc : Thread nD τ).loc main_arg2)) (m ((c.tc : Thread nD τ).loc main_arg3)) (protoOf (F := Ideal) (sumsG (m ((c.tc : Thread nD τ).loc main_arg1)) (m ((c.tc : Thread nD τ).loc main_arg2))) (cntG (m ((c.tc : Thread nD τ).loc main_arg2)))) (rowOfBits (pvalidOf (F := Ideal) (sumsG (m ((c.tc : Thread nD τ).loc main_arg1)) (m ((c.tc : Thread nD τ).loc main_arg2))) (cntG (m ((c.tc : Thread nD τ).loc main_arg2)))))) (vswtG (m ((c.tc : Thread nD τ).loc main_arg2)) (m ((c.tc : Thread nD τ).loc main_arg3)) (rowOfBits (pvalidOf (F := Ideal) (sumsG (m ((c.tc : Thread nD τ).loc main_arg1)) (m ((c.tc : Thread nD τ).loc main_arg2))) (cntG (m ((c.tc : Thread nD τ).loc main_arg2))))))
      ∧ r.2.mem ((c.tc : Thread nD τ).loc main_v57) = simG (m ((c.tc : Thread nD τ).loc main_arg0)) (m ((c.tc : Thread nD τ).loc main_arg2)) (protoOf (F := Ideal) (sumsG (m ((c.tc : Thread nD τ).loc main_arg1)) (m ((c.tc : Thread nD τ).loc main_arg2))) (cntG (m ((c.tc : Thread nD τ).loc main_arg2))))
      ∧ r.2.mem ((c.tc : Thread nD τ).loc main_v66) = wlossG (m ((c.tc : Thread nD τ).loc main_arg0)) (m ((c.tc : Thread nD τ).loc main_arg2)) (m ((c.tc : Thread nD τ).loc main_arg3)) (protoOf (F := Ideal) (sumsG (m ((c.tc : Thread nD τ).loc main_arg1)) (m ((c.tc : Thread nD τ).loc main_arg2))) (cntG (m ((c.tc : Thread nD τ).loc main_arg2)))) (rowOfBits (pvalidOf (F := Ideal) (sumsG (m ((c.tc : Thread nD τ).loc main_arg1)) (m ((c.tc : Thread nD τ).loc main_arg2))) (cntG (m ((c.tc : Thread nD τ).loc main_arg2)))))
      ∧ r.2.mem ((c.tc : Thread nD τ).loc main_v76)
        = meanSimOf (F := Ideal) (simG (m ((c.tc : Thread nD τ).loc main_arg0)) (m ((c.tc : Thread nD τ).loc main_arg2)) (protoOf (F := Ideal) (sumsG (m ((c.tc : Thread nD τ).loc main_arg1)) (m ((c.tc : Thread nD τ).loc main_arg2))) (cntG (m ((c.tc : Thread nD τ).loc main_arg2))))) (validG (m ((c.tc : Thread nD τ).loc main_arg2)) (rowOfBits (pvalidOf (F := Ideal) (sumsG (m ((c.tc : Thread nD τ).loc main_arg1)) (m ((c.tc : Thread nD τ).loc main_arg2))) (cntG (m ((c.tc : Thread nD τ).loc main_arg2))))))
      ∧ r.2.mem ((c.tc : Thread nD τ).loc main_v39) = pnormOf (F := Ideal) (sumsG (m ((c.tc : Thread nD τ).loc main_arg1)) (m ((c.tc : Thread nD τ).loc main_arg2))) (cntG (m ((c.tc : Thread nD τ).loc main_arg2)))
      ∧ r.2.mem ((c.tc : Thread nD τ).loc main_v41) = pvalidOf (F := Ideal) (sumsG (m ((c.tc : Thread nD τ).loc main_arg1)) (m ((c.tc : Thread nD τ).loc main_arg2))) (cntG (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c => by
    obtain ⟨h0, h1, h2, h3, h4, h5, ha⟩ := h c
    refine ⟨h0.trans ?_, h1.trans ?_, h2.trans ?_, h3.trans ?_, h4.trans ?_, h5.trans ?_, ha⟩
    · rw [val_main_v71_eq, ref_final, ref_wloss _ _ _ _ (hr c), ref_vswt _ _ _ (hr c), rProto, rPvalid]
    · rw [val_main_v57_eq, ref_sim _ _ _ (hr c), rProto]
    · rw [val_main_v66_eq, ref_wloss _ _ _ _ (hr c), rProto, rPvalid]
    · rw [val_main_v76_eq, ref_mean, ref_sim _ _ _ (hr c), ref_valid _ _ (hr c), rProto, rPvalid]
    · rw [val_main_v39_eq, ref_pnorm, ref_sums, ref_counts]
    · rw [val_main_v41_eq, rPvalid])
    (Cert.ReferenceIdeal.RunP.run (F := Ideal) m ρ)

end Cert.PKD

end
-- ==== Proof.PreDecode.lean ====
/-
  The precondition read back: where it holds, every label word is the ignore label or a class.
-/
import proofs.«410761_j78709570667268_3_alg».proof.Proof.Gen.Pre_finite_inputs
import proofs.«410761_j78709570667268_3_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

open scoped BigOperators

namespace Cert.PKD

open Idealize.ShloMosaic Idealize.ShloMosaic.ValueIdx Idealize.ShloMosaic.TcCoe Idealize.SL.Sem

/-- The shape of a scalar has one index. -/
instance : Subsingleton Cert.Pre_finite_inputs.S_.Idx := ⟨fun a b => funext fun d => d.elim0⟩

/-- The precondition is a conjunction of four tests, each a conjunction over every element; its last conjunct says of
    every label word: it is 255, or it is at least 0 and below 19 as a signed integer. -/
theorem inRange_of_pre (a0 a1 : SFeat.Idx → EReal) (a2 : SMask.Idx → BitVec 32) (a3 : SSwt.Idx → EReal)
    (h : Cert.Pre_finite_inputs.fn (F := Ideal) a0 a1 a2 a3 = fun _ => 1#1) : InRange a2 := by
  intro i
  have h0 := congrFun h ValueIdx.ix0
  dsimp only [Cert.Pre_finite_inputs.fn, Cert.Pre_finite_inputs.fn_part1] at h0
  -- the last conjunct, then its element at `i`
  have h1 := (IntOp.andi_eq_one.1 h0).2
  have h2 := Host.reduce_andi_all _ _ _ _ _ h1 i
  -- the element: an "or" of a word equality with an "and" of two signed comparisons, against broadcast literals
  rcases IntOp.ori_eq_one.1 h2 with h3 | h3
  · exact Or.inl (IntOp.cmpi_eq.1 h3)
  · obtain ⟨h4, h5⟩ := IntOp.andi_eq_one.1 h3
    exact Or.inr ⟨IntOp.cmpi_sge.1 h4, IntOp.cmpi_slt.1 h5⟩

end Cert.PKD

end
-- ==== Proof.lean ====
/-
  The certificate: a Pallas kernel for class prototypes and per-pixel cosine similarity against its jnp reference, equal over
  the extended reals for finite features and labels in their range (a class 0..18, or the ignore label 255).

  Both programs compute, per class, the sum of the teacher's feature vectors over the pixels of that class and their number:
  the kernel as a one-hot matrix product accumulated tile by tile and batch element by batch element, the reference as one
  scatter-add over all pixels; an ignored pixel contributes a zero row to either. The same host arithmetic turns these into
  normalised prototypes, their norms and validity flags. Per pixel both then take the inner product of the normalised
  student vector with the prototype row of the pixel's class — the kernel by a one-hot product, the reference by a gather,
  which read the same row exactly when the label is a class or the ignore label: outside that range the reference's
  gather clamps its index while the one-hot row is zero, which is why the precondition asks for it — mask it by validity
  and weight it; the same host arithmetic reduces the maps to the two scalars.

  The frames of the kernel's two programs are the generated ones; the reference's is its run with the results dropped.
  The ideal pass rewrote nothing, so the idealization claim has nothing to show.
-/
import proofs.«410761_j78709570667268_3_alg».proof.Defs
import proofs.«410761_j78709570667268_3_alg».proof.Proof.Gen.Kernel
import proofs.«410761_j78709570667268_3_alg».proof.Proof.Gen.Kernel.Frame
import proofs.«410761_j78709570667268_3_alg».proof.Proof.Gen.KernelIdeal
import proofs.«410761_j78709570667268_3_alg».proof.Proof.Gen.KernelIdeal.Frame
import proofs.«410761_j78709570667268_3_alg».proof.Proof.Gen.ReferenceIdeal
import proofs.«410761_j78709570667268_3_alg».proof.Proof.Gen.Pre_finite_inputs
import proofs.«410761_j78709570667268_3_alg».proof.Proof.KValue
import proofs.«410761_j78709570667268_3_alg».proof.Proof.RefValue
import proofs.«410761_j78709570667268_3_alg».proof.Proof.PreDecode
import Idealize.ShloMosaic.Adequacy
import Idealize.ShloMosaic.Init

noncomputable section

namespace Cert.Proof

open Idealize.ShloMosaic Idealize.ShloMosaic.TcCoe Idealize.SL.Sem Cert.PKD

theorem frame_k : Cert.frame_Kernel := fun m ρ _ => Cert.Kernel.Gen.frame m ρ

theorem frame_ki : Cert.frame_KernelIdeal := fun m ρ _ => Cert.KernelIdeal.Gen.frame m ρ

/-- The reference's frame: its run with the results dropped. -/
theorem frame_ri : Cert.frame_ReferenceIdeal := fun m ρ _ =>
  (θ_run Cert.ReferenceIdeal.defs _ _).mono (fun _ h c => (h c).2.2.2.2.2.2)
    (Cert.ReferenceIdeal.RunP.run (F := Ideal) m ρ)

/-- From memories agreeing on the arguments the two programs end at the same specification terms: the kernel's over its
    own arguments, the reference's over its own, which are the same arrays; the labels are in range by the precondition. -/
theorem algebraic : Cert.algebraic_KernelIdeal_ReferenceIdeal := by
  intro m ρ m' ρ' hpre hagree
  have hr : ∀ c : Dev Cert.ReferenceIdeal.nD, InRange (m' ((c.tc : Thread Cert.ReferenceIdeal.nD Cert.ReferenceIdeal.τ).loc Cert.ReferenceIdeal.main_arg2)) := by
    intro c
    rw [(hagree c).2.2.1]
    exact inRange_of_pre _ _ _ _ (hpre c)
  refine ⟨_, _, _, _, _, _, kernel_values m ρ, ?_⟩
  refine (θ_run Cert.ReferenceIdeal.defs _ _).mono (fun r h c => ?_) (reference_values m' ρ' hr)
  obtain ⟨h0, h1, h2, h3, h4, h5, ha⟩ := h c
  simp only [(hagree c).1, (hagree c).2.1, (hagree c).2.2.1, (hagree c).2.2.2] at h0 h1 h2 h3 h4 h5
  exact ⟨h0, h1, h2, h3, h4, h5, ha⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
